-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2x4096x16 : Shape := ⟨3, ![2, 4096, 16]⟩
abbrev S100000x300 : Shape := ⟨2, ![100000, 300]⟩
abbrev S2348x512 : Shape := ⟨2, ![2348, 512]⟩
abbrev S512 : Shape := ⟨1, ![512]⟩
abbrev S512x1 : Shape := ⟨2, ![512, 1]⟩
abbrev S1 : Shape := ⟨1, ![1]⟩
abbrev S2x2048 : Shape := ⟨2, ![2, 2048]⟩
abbrev S2x4096 : Shape := ⟨2, ![2, 4096]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x4096x16 : S_.BroadcastsInDim S2x4096x16 (![] : Fin 0 → Fin S2x4096x16.rank)
  reducesTo_S2x4096x16_S_d0_1_2 : S2x4096x16.ReducesTo [0, 1, 2] S_
  bcast_S_S100000x300 : S_.BroadcastsInDim S100000x300 (![] : Fin 0 → Fin S100000x300.rank)
  reducesTo_S100000x300_S_d0_1 : S100000x300.ReducesTo [0, 1] S_
  bcast_S_S2348x512 : S_.BroadcastsInDim S2348x512 (![] : Fin 0 → Fin S2348x512.rank)
  reducesTo_S2348x512_S_d0_1 : S2348x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S512x1 .f32) (main_arg6 : FVec F S1 .f32) (main_v13 : IVec S_ 1) (main_v16 : IVec S2348x512 1) : IVec S_ 1 :=
  let main_c_5 : IVec S_ 1 := constantI S_ 1 1#1
  let main_v17 : IVec S_ 1 := (fun x v => Host.reduce IntOp.andi x v reducesTo_S2348x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2x4096x2048 .f32) (main_arg1 : FVec F S2x4096x16 .f32) (main_arg2 : FVec F S100000x300 .f32) (main_arg3 : FVec F S2348x512 .f32) (main_arg4 : FVec F S512 .f32) (main_arg5 : FVec F S512x1 .f32) (main_arg6 : FVec F S1 .f32) (main_arg7 : IVec S2x2048 32) (main_arg8 : IVec S2x4096x16 32) (main_arg9 : IVec S2x4096 32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x4096x16 .f32 := Host.absf main_arg1
  let main_cst_0 : FVec F S_ .f32 := constant S_ .f32 0x7F800000#32
  let main_v5 : FVec F S2x4096x16 .f32 := broadcastInDim S2x4096x16 ![] bcast_S_S2x4096x16 main_cst_0
  let main_v6 : IVec S2x4096x16 1 := cmpf .olt main_v4 main_v5
  let main_c_1 : IVec S_ 1 := constantI S_ 1 1#1
  let main_v7 : IVec S_ 1 := (fun x v => Host.reduce IntOp.andi x v reducesTo_S2x4096x16_S_d0_1_2 h_S_) main_v6 main_c_1
  let main_v8 : IVec S_ 1 := andi main_v3 main_v7
  let main_v9 : FVec F S100000x300 .f32 := Host.absf main_arg2
  let main_cst_2 : FVec F S_ .f32 := constant S_ .f32 0x7F800000#32
  let main_v10 : FVec F S100000x300 .f32 := broadcastInDim S100000x300 ![] bcast_S_S100000x300 main_cst_2
  let main_v11 : IVec S100000x300 1 := cmpf .olt main_v9 main_v10
  let main_c_3 : IVec S_ 1 := constantI S_ 1 1#1
  let main_v12 : IVec S_ 1 := (fun x v => Host.reduce IntOp.andi x v reducesTo_S100000x300_S_d0_1 h_S_) main_v11 main_c_3
  let main_v13 : IVec S_ 1 := andi main_v8 main_v12
  let main_v14 : FVec F S2348x512 .f32 := Host.absf main_arg3
  let main_cst_4 : FVec F S_ .f32 := constant S_ .f32 0x7F800000#32
  let main_v15 : FVec F S2348x512 .f32 := broadcastInDim S2348x512 ![] bcast_S_S2348x512 main_cst_4
  let main_v16 : IVec S2348x512 1 := cmpf .olt main_v14 main_v15
  fn_part1 (F := F) main_arg4 main_arg5 main_arg6 main_v13 main_v16
-- ==== Kernel.lean ====
abbrev S2x4096x2048 : Shape := ⟨3, ![2, 4096, 2048]⟩
abbrev S2x4096x16 : Shape := ⟨3, ![2, 4096, 16]⟩
abbrev S100000x300 : Shape := ⟨2, ![100000, 300]⟩
abbrev S2348x512 : Shape := ⟨2, ![2348, 512]⟩
abbrev S512 : Shape := ⟨1, ![512]⟩
abbrev S512x1 : Shape := ⟨2, ![512, 1]⟩
abbrev S1 : Shape := ⟨1, ![1]⟩
abbrev S2x2048 : Shape := ⟨2, ![2, 2048]⟩
abbrev S2x4096 : Shape := ⟨2, ![2, 4096]⟩
abbrev S2x2048x1 : Shape := ⟨3, ![2, 2048, 1]⟩
abbrev S_ : Shape := ⟨0, ![]⟩
abbrev S1x1x1 : Shape := ⟨3, ![1, 1, 1]⟩
abbrev S2x2048x16 : Shape := ⟨3, ![2, 2048, 16]⟩
abbrev S2x2048x2048 : Shape := ⟨3, ![2, 2048, 2048]⟩
abbrev S2x2048x16x1 : Shape := ⟨4, ![2, 2048, 16, 1]⟩
abbrev S2x2048x16x300 : Shape := ⟨4, ![2, 2048, 16, 300]⟩
abbrev S2048x512 : Shape := ⟨2, ![2048, 512]⟩
abbrev S300x512 : Shape := ⟨2, ![300, 512]⟩
abbrev S2x1x1 : Shape := ⟨3, ![2, 1, 1]⟩
abbrev S1x256x2048 : Shape := ⟨3, ![1, 256, 2048]⟩
abbrev S1x256x16x300 : Shape := ⟨4, ![1, 256, 16, 300]⟩
abbrev S1x256x1 : Shape := ⟨3, ![1, 256, 1]⟩
abbrev S1x256x16 : Shape := ⟨3, ![1, 256, 16]⟩
abbrev S1x1 : Shape := ⟨2, ![1, 1]⟩
abbrev S256x2048 : Shape := ⟨2, ![256, 2048]⟩
abbrev S256x512 : Shape := ⟨2, ![256, 512]⟩
abbrev S256x16x300 : Shape := ⟨3, ![256, 16, 300]⟩
abbrev S4096x300 : Shape := ⟨2, ![4096, 300]⟩
abbrev S4096x512 : Shape := ⟨2, ![4096, 512]⟩
abbrev S256x16x512 : Shape := ⟨3, ![256, 16, 512]⟩
abbrev S256x1x512 : Shape := ⟨3, ![256, 1, 512]⟩
abbrev S1x1x512 : Shape := ⟨3, ![1, 1, 512]⟩
abbrev S256x16 : Shape := ⟨2, ![256, 16]⟩
abbrev S256x1 : Shape := ⟨2, ![256, 1]⟩
abbrev S2 : Shape := ⟨1, ![2]⟩

abbrev nBuf : Space → Nat
  | .hbm => 124
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x4096x16, .f32⟩
  | .hbm, ⟨2, _⟩ => ⟨S100000x300, .f32⟩
  | .hbm, ⟨3, _⟩ => ⟨S2348x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S2x2048, .i32⟩
  | .hbm, ⟨8, _⟩ => ⟨S2x4096x16, .i32⟩
  | .hbm, ⟨9, _⟩ => ⟨S2x4096, .i32⟩
  | .hbm, ⟨10, _⟩ => ⟨S2x2048x1, .i32⟩
  | .hbm, ⟨11, _⟩ => ⟨S_, .i32⟩
  | .hbm, ⟨12, _⟩ => ⟨S2x2048x1, .i32⟩
  | .hbm, ⟨13, _⟩ => ⟨S2x2048x1, .i1⟩
  | .hbm, ⟨14, _⟩ => ⟨S_, .i32⟩
  | .hbm, ⟨15, _⟩ => ⟨S2x2048x1, .i32⟩
  | .hbm, ⟨16, _⟩ => ⟨S2x2048x1, .i32⟩
  | .hbm, ⟨17, _⟩ => ⟨S2x2048x1, .i32⟩
  | .hbm, ⟨18, _⟩ => ⟨S1, .i32⟩
  | .hbm, ⟨19, _⟩ => ⟨S_, .i32⟩
  | .hbm, ⟨20, _⟩ => ⟨S2x2048x1, .i32⟩
  | .hbm, ⟨21, _⟩ => ⟨S2x2048x1, .i1⟩
  | .hbm, ⟨22, _⟩ => ⟨S1x1x1, .i32⟩
  | .hbm, ⟨23, _⟩ => ⟨S2x2048x1, .i32⟩
  | .hbm, ⟨24, _⟩ => ⟨S2x2048x1, .i1⟩
  | .hbm, ⟨25, _⟩ => ⟨S2x2048x1, .i1⟩
  | .hbm, ⟨26, _⟩ => ⟨S_, .i1⟩
  | .hbm, ⟨27, _⟩ => ⟨S2x2048, .i1⟩
  | .hbm, ⟨28, _⟩ => ⟨S2x2048x16, .i32⟩
  | .hbm, ⟨29, _⟩ => ⟨S2x2048x16, .i1⟩
  | .hbm, ⟨30, _⟩ => ⟨S_, .i32⟩
  | .hbm, ⟨31, _⟩ => ⟨S2x2048x16, .i32⟩
  | .hbm, ⟨32, _⟩ => ⟨S2x2048x16, .i32⟩
  | .hbm, ⟨33, _⟩ => ⟨S_, .i32⟩
  | .hbm, ⟨34, _⟩ => ⟨S2x2048, .i32⟩
  | .hbm, ⟨35, _⟩ => ⟨S2x2048, .i1⟩
  | .hbm, ⟨36, _⟩ => ⟨S_, .i32⟩
  | .hbm, ⟨37, _⟩ => ⟨S2x2048, .i32⟩
  | .hbm, ⟨38, _⟩ => ⟨S2x2048, .i32⟩
  | .hbm, ⟨39, _⟩ => ⟨S2x2048, .i32⟩
  | .hbm, ⟨40, _⟩ => ⟨S2x2048x1, .i32⟩
  | .hbm, ⟨41, _⟩ => ⟨S1, .i32⟩
  | .hbm, ⟨42, _⟩ => ⟨S_, .i32⟩
  | .hbm, ⟨43, _⟩ => ⟨S2x2048x1, .i32⟩
  | .hbm, ⟨44, _⟩ => ⟨S2x2048x1, .i1⟩
  | .hbm, ⟨45, _⟩ => ⟨S1x1x1, .i32⟩
  | .hbm, ⟨46, _⟩ => ⟨S2x2048x1, .i32⟩
  | .hbm, ⟨47, _⟩ => ⟨S2x2048x1, .i1⟩
  | .hbm, ⟨48, _⟩ => ⟨S2x2048x1, .i1⟩
  | .hbm, ⟨49, _⟩ => ⟨S_, .i1⟩
  | .hbm, ⟨50, _⟩ => ⟨S2x2048, .i1⟩
  | .hbm, ⟨51, _⟩ => ⟨S2x2048, .i32⟩
  | .hbm, ⟨52, _⟩ => ⟨S_, .i32⟩
  | .hbm, ⟨53, _⟩ => ⟨S2x2048, .i32⟩
  | .hbm, ⟨54, _⟩ => ⟨S2x2048, .i32⟩
  | .hbm, ⟨55, _⟩ => ⟨S2x2048x1, .i32⟩
  | .hbm, ⟨56, _⟩ => ⟨S_, .i32⟩
  | .hbm, ⟨57, _⟩ => ⟨S2x2048x1, .i32⟩
  | .hbm, ⟨58, _⟩ => ⟨S2x2048x1, .i1⟩
  | .hbm, ⟨59, _⟩ => ⟨S_, .i32⟩
  | .hbm, ⟨60, _⟩ => ⟨S2x2048x1, .i32⟩
  | .hbm, ⟨61, _⟩ => ⟨S2x2048x1, .i32⟩
  | .hbm, ⟨62, _⟩ => ⟨S2x2048x1, .i32⟩
  | .hbm, ⟨63, _⟩ => ⟨S1, .i32⟩
  | .hbm, ⟨64, _⟩ => ⟨S_, .i32⟩
  | .hbm, ⟨65, _⟩ => ⟨S2x2048x1, .i32⟩
  | .hbm, ⟨66, _⟩ => ⟨S2x2048x1, .i1⟩
  | .hbm, ⟨67, _⟩ => ⟨S1x1x1, .i32⟩
  | .hbm, ⟨68, _⟩ => ⟨S2x2048x1, .i32⟩
  | .hbm, ⟨69, _⟩ => ⟨S2x2048x1, .i1⟩
  | .hbm, ⟨70, _⟩ => ⟨S2x2048x1, .i1⟩
  | .hbm, ⟨71, _⟩ => ⟨S_, .i1⟩
  | .hbm, ⟨72, _⟩ => ⟨S2x2048, .i1⟩
  | .hbm, ⟨73, _⟩ => ⟨S2x2048x16, .f32⟩
  | .hbm, ⟨74, _⟩ => ⟨S2x2048x16, .i1⟩
  | .hbm, ⟨75, _⟩ => ⟨S_, .f32⟩
  | .hbm, ⟨76, _⟩ => ⟨S2x2048x16, .f32⟩
  | .hbm, ⟨77, _⟩ => ⟨S2x2048x16, .f32⟩
  | .hbm, ⟨78, _⟩ => ⟨S2x2048x1, .i32⟩
  | .hbm, ⟨79, _⟩ => ⟨S_, .i32⟩
  | .hbm, ⟨80, _⟩ => ⟨S2x2048x1, .i32⟩
  | .hbm, ⟨81, _⟩ => ⟨S2x2048x1, .i1⟩
  | .hbm, ⟨82, _⟩ => ⟨S_, .i32⟩
  | .hbm, ⟨83, _⟩ => ⟨S2x2048x1, .i32⟩
  | .hbm, ⟨84, _⟩ => ⟨S2x2048x1, .i32⟩
  | .hbm, ⟨85, _⟩ => ⟨S2x2048x1, .i32⟩
  | .hbm, ⟨86, _⟩ => ⟨S1, .i32⟩
  | .hbm, ⟨87, _⟩ => ⟨S_, .i32⟩
  | .hbm, ⟨88, _⟩ => ⟨S2x2048x1, .i32⟩
  | .hbm, ⟨89, _⟩ => ⟨S2x2048x1, .i1⟩
  | .hbm, ⟨90, _⟩ => ⟨S1x1x1, .i32⟩
  | .hbm, ⟨91, _⟩ => ⟨S2x2048x1, .i32⟩
  | .hbm, ⟨92, _⟩ => ⟨S2x2048x1, .i1⟩
  | .hbm, ⟨93, _⟩ => ⟨S2x2048x1, .i1⟩
  | .hbm, ⟨94, _⟩ => ⟨S_, .i1⟩
  | .hbm, ⟨95, _⟩ => ⟨S2x2048, .i1⟩
  | .hbm, ⟨96, _⟩ => ⟨S2x2048x2048, .f32⟩
  | .hbm, ⟨97, _⟩ => ⟨S2x2048x2048, .i1⟩
  | .hbm, ⟨98, _⟩ => ⟨S_, .f32⟩
  | .hbm, ⟨99, _⟩ => ⟨S2x2048x2048, .f32⟩
  | .hbm, ⟨100, _⟩ => ⟨S2x2048x2048, .f32⟩
  | .hbm, ⟨101, _⟩ => ⟨S2x2048x2048, .bf16⟩
  | .hbm, ⟨102, _⟩ => ⟨S_, .i32⟩
  | .hbm, ⟨103, _⟩ => ⟨S2x2048x16, .i32⟩
  | .hbm, ⟨104, _⟩ => ⟨S2x2048x16, .i1⟩
  | .hbm, ⟨105, _⟩ => ⟨S_, .i32⟩
  | .hbm, ⟨106, _⟩ => ⟨S2x2048x16, .i32⟩
  | .hbm, ⟨107, _⟩ => ⟨S2x2048x16, .i32⟩
  | .hbm, ⟨108, _⟩ => ⟨S2x2048x16, .i32⟩
  | .hbm, ⟨109, _⟩ => ⟨S2x2048x16x1, .i32⟩
  | .hbm, ⟨110, _⟩ => ⟨S2x2048x16x300, .f32⟩
  | .hbm, ⟨111, _⟩ => ⟨S2x2048x16x300, .bf16⟩
  | .hbm, ⟨112, _⟩ => ⟨S2048x512, .f32⟩
  | .hbm, ⟨113, _⟩ => ⟨S2048x512, .bf16⟩
  | .hbm, ⟨114, _⟩ => ⟨S300x512, .f32⟩
  | .hbm, ⟨115, _⟩ => ⟨S300x512, .bf16⟩
  | .hbm, ⟨116, _⟩ => ⟨S512, .f32⟩
  | .hbm, ⟨117, _⟩ => ⟨S2x2048x1, .i32⟩
  | .hbm, ⟨118, _⟩ => ⟨S2x1x1, .f32⟩
  | .hbm, ⟨119, _⟩ => ⟨S2, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x16x300, .bf16⟩
  | .local _ .vmem, ⟨3, _⟩ => ⟨S1x256x16x300, .bf16⟩
  | .local _ .vmem, ⟨4, _⟩ => ⟨S1x256x1, .i32⟩
  | .local _ .vmem, ⟨5, _⟩ => ⟨S1x256x1, .i32⟩
  | .local _ .vmem, ⟨6, _⟩ => ⟨S1x256x16, .f32⟩
  | .local _ .vmem, ⟨7, _⟩ => ⟨S1x256x16, .f32⟩
  | .local _ .vmem, ⟨8, _⟩ => ⟨S2048x512, .bf16⟩
  | .local _ .vmem, ⟨9, _⟩ => ⟨S300x512, .bf16⟩
  | .local _ .vmem, ⟨10, _⟩ => ⟨S512, .f32⟩
  | .local _ .vmem, ⟨11, _⟩ => ⟨S512, .f32⟩
  | .local _ .vmem, ⟨12, _⟩ => ⟨S1, .f32⟩
  | .local _ .vmem, ⟨13, _⟩ => ⟨S1x1x1, .f32⟩
  | .local _ .vmem, ⟨14, _⟩ => ⟨S1x1x1, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_c_4 : Ref sig .tc := ⟨.hbm, 52, rfl⟩
abbrev main_call1_v14 : Ref sig .tc := ⟨.hbm, 53, rfl⟩
abbrev main_v2 : Ref sig .tc := ⟨.hbm, 54, rfl⟩
abbrev main_v3 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_c_2 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_c_3 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v4 : Ref sig .tc := ⟨.hbm, 77, rfl⟩
abbrev main_v5 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_c_2 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_c_3 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v6 : Ref sig .tc := ⟨.hbm, 100, rfl⟩
abbrev main_v7 : Ref sig .tc := ⟨.hbm, 101, rfl⟩
abbrev main_c : Ref sig .tc := ⟨.hbm, 102, rfl⟩
abbrev main_v8 : Ref sig .tc := ⟨.hbm, 103, rfl⟩
abbrev main_v9 : Ref sig .tc := ⟨.hbm, 104, rfl⟩
abbrev main_c_0 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_cst : Ref sig .tc := ⟨.hbm, 120, rfl⟩
abbrev main_v24 : Ref sig .tc := ⟨.hbm, 121, rfl⟩
abbrev main_cst_1 : Ref sig .tc := ⟨.hbm, 122, rfl⟩
abbrev main_v25 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x16x300 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S300x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S1_S1x1x1_2 : S1.BroadcastsInDim S1x1x1 (![2] : Fin 1 → Fin S1x1x1.rank)
  bcast_S1x1x1_S2x2048x1_0_1_2 : S1x1x1.BroadcastsInDim S2x2048x1 (![0, 1, 2] : Fin 3 → Fin S2x2048x1.rank)
  reducesTo_S2x2048x1_S2x2048_d2 : S2x2048x1.ReducesTo [2] S2x2048
  h_S_ : 0 < S_.numel
  bcast_S2x2048_S2x2048x16_0_1 : S2x2048.BroadcastsInDim S2x2048x16 (![0, 1] : Fin 2 → Fin S2x2048x16.rank)
  bcast_S_S2x2048x16 : S_.BroadcastsInDim S2x2048x16 (![] : Fin 0 → Fin S2x2048x16.rank)
  bcast_S_S2x2048 : S_.BroadcastsInDim S2x2048 (![] : Fin 0 → Fin S2x2048.rank)
  shapeCasts_S2x2048_S2x2048x1 : S2x2048.ShapeCasts S2x2048x1
  bcast_S2x2048_S2x2048x2048_0_1 : S2x2048.BroadcastsInDim S2x2048x2048 (![0, 1] : Fin 2 → Fin S2x2048x2048.rank)
  bcast_S_S2x2048x2048 : S_.BroadcastsInDim S2x2048x2048 (![] : Fin 0 → Fin S2x2048x2048.rank)
  bitsLt_bf16_f32 : FTy.bits .bf16 < FTy.bits .f32
  bcast_S2x2048x16_S2x2048x16x1_0_1_2 : S2x2048x16.BroadcastsInDim S2x2048x16x1 (![0, 1, 2] : Fin 3 → Fin S2x2048x16x1.rank)
  slices_S2348x512_S2048x512_0_0 : S2348x512.Slices ![0, 0] S2048x512
  slices_S2348x512_S300x512_2048_0 : S2348x512.Slices ![2048, 0] S300x512
  shapeCasts_S512x1_S512 : S512x1.ShapeCasts S512
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x256x16x300_S1x256x16x300_0_0_0_0 : ∀ a, (![0, 0, 0, 0] : Fin 4 → Nat) a + S1x256x16x300.size a ≤ S1x256x16x300.size a
  h_S1x256x16x300 : 0 < S1x256x16x300.numel
  shapeCasts_S1x256x16x300_S256x16x300 : S1x256x16x300.ShapeCasts S256x16x300
  shapeCasts_S256x16x300_S4096x300 : S256x16x300.ShapeCasts S4096x300
  inb_S300x512_S300x512_0_0 : ∀ a, (![0, 0] : Fin 2 → Nat) a + S300x512.size a ≤ S300x512.size a
  h_S300x512 : 0 < S300x512.numel
  shapeCasts_S300x512_S300x512 : S300x512.ShapeCasts S300x512
  shapeCasts_S4096x512_S256x16x512 : S4096x512.ShapeCasts S256x16x512
  inb_S512_S512_0 : ∀ a, (![0] : Fin 1 → Nat) a + S512.size a ≤ S512.size a
  h_S512 : 0 < S512.numel
  shapeCasts_S256x512_S256x1x512 : S256x512.ShapeCasts S256x1x512
  broadcasts_S256x1x512_S256x16x512 : S256x1x512.Broadcasts S256x16x512
  shapeCasts_S512_S1x1x512 : S512.ShapeCasts S1x1x512
  broadcasts_S1x1x512_S256x16x512 : S1x1x512.Broadcasts S256x16x512
  shapeCasts_S512_S512 : S512.ShapeCasts S512
  reduces_S256x16x512_S256x16 : S256x16x512.Reduces [2] S256x16
  inb_S1_S1_0 : ∀ a, (![0] : Fin 1 → Nat) a + S1.size a ≤ S1.size a
  h_S1 : 0 < S1.numel
  inpos_S1_p0 : ∀ a, (![0] : Fin 1 → Nat) a < S1.size a
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S256x16_d1_w32 : S256x16.Iotas .tc 32 [1]
  broadcasts_S256x1_S256x16 : S256x1.Broadcasts S256x16
  natLt_1_32 : 1 < 32
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  shapeCasts_S256x16_S1x256x16 : S256x16.ShapeCasts S1x256x16
  reduces_S1x256x16_S1 : S1x256x16.Reduces [1, 2] S1
  shapeCasts_S1_S1x1x1 : S1.ShapeCasts S1x1x1
  inpos_S1x1x1_p0_0_0 : ∀ a, (![0, 0, 0] : Fin 3 → Nat) a < S1x1x1.size a
  shapeCasts_S2x1x1_S2 : S2x1x1.ShapeCasts S2
  reducesTo_S2_S_d0 : S2.ReducesTo [0] S_
  gather_S2x4096x16_S2x2048x1_S2x2048x16_2_1_0_0_1_2_1116_wf : GatherDims.WF S2x4096x16 S2x2048x1 S2x2048x16 [2] [1] [0] [1] [0] 2 ![1, 1, 16]
  gather_S2x4096_S2x2048x1_S2x2048_n_1_0_0_1_2_11_wf : GatherDims.WF S2x4096 S2x2048x1 S2x2048 [] [1] [0] [1] [0] 2 ![1, 1]
  gather_S2x4096x2048_S2x2048x1_S2x2048x2048_2_1_0_0_1_2_112048_wf : GatherDims.WF S2x4096x2048 S2x2048x1 S2x2048x2048 [2] [1] [0] [1] [0] 2 ![1, 1, 2048]
  gather_S100000x300_S2x2048x16x1_S2x2048x16x300_3_0_n_n_0_3_1300_wf : GatherDims.WF S100000x300 S2x2048x16x1 S2x2048x16x300 [3] [0] [] [0] [] 3 ![1, 300]
  dot_S256x2048_S2048x512_S256x512_1_0_0_1_n_n_wf : DotDims.WF S256x2048 S2048x512 S256x512 [1] [0] [0] [1] [] []
  dot_S4096x300_S300x512_S4096x512_1_0_0_1_n_n_wf : DotDims.WF S4096x300 S300x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S2x2048x2048.size a
  hwx0_0 : ∀ i : grid0.Coords, EltTy.bits .bf16 = 32 ∨ (Rect.block (s := S2x2048x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x16x300.size a ≤ S2x2048x16x300.size a
  hwx0_1 : ∀ i : grid0.Coords, EltTy.bits .bf16 = 32 ∨ (Rect.block (s := S2x2048x16x300) S1x256x16x300.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x2048x1.size a
  hwx0_2 : ∀ i : grid0.Coords, EltTy.bits .i32 = 32 ∨ (Rect.block (s := S2x2048x1) S1x256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x16.size a ≤ S2x2048x16.size a
  hwx0_3 : ∀ i : grid0.Coords, EltTy.bits .f32 = 32 ∨ (Rect.block (s := S2x2048x16) S1x256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x512.size a ≤ S300x512.size a
  hwx0_5 : ∀ i : grid0.Coords, EltTy.bits .bf16 = 32 ∨ (Rect.block (s := S300x512) S300x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)

variable [Facts₀]

def gather_S2x4096x16_S2x2048x1_S2x2048x16_2_1_0_0_1_2_1116 : GatherDims S2x4096x16 S2x2048x1 S2x2048x16 where
  offsetDims := [2]
  collapsedSliceDims := [1]
  operandBatchingDims := [0]
  startIndicesBatchingDims := [0]
  startIndexMap := [1]
  indexVectorDim := 2
  sliceSizes := ![1, 1, 16]
  wf := gather_S2x4096x16_S2x2048x1_S2x2048x16_2_1_0_0_1_2_1116_wf
def gather_S2x4096_S2x2048x1_S2x2048_n_1_0_0_1_2_11 : GatherDims S2x4096 S2x2048x1 S2x2048 where
  offsetDims := []
  collapsedSliceDims := [1]
  operandBatchingDims := [0]
  startIndicesBatchingDims := [0]
  startIndexMap := [1]
  indexVectorDim := 2
  sliceSizes := ![1, 1]
  wf := gather_S2x4096_S2x2048x1_S2x2048_n_1_0_0_1_2_11_wf
def gather_S2x4096x2048_S2x2048x1_S2x2048x2048_2_1_0_0_1_2_112048 : GatherDims S2x4096x2048 S2x2048x1 S2x2048x2048 where
  offsetDims := [2]
  collapsedSliceDims := [1]
  operandBatchingDims := [0]
  startIndicesBatchingDims := [0]
  startIndexMap := [1]
  indexVectorDim := 2
  sliceSizes := ![1, 1, 2048]
  wf := gather_S2x4096x2048_S2x2048x1_S2x2048x2048_2_1_0_0_1_2_112048_wf
def gather_S100000x300_S2x2048x16x1_S2x2048x16x300_3_0_n_n_0_3_1300 : GatherDims S100000x300 S2x2048x16x1 S2x2048x16x300 where
  offsetDims := [3]
  collapsedSliceDims := [0]
  operandBatchingDims := []
  startIndicesBatchingDims := []
  startIndexMap := [0]
  indexVectorDim := 3
  sliceSizes := ![1, 300]
  wf := gather_S100000x300_S2x2048x16x1_S2x2048x16x300_3_0_n_n_0_3_1300_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S4096x300_S300x512_S4096x512_1_0_0_1_n_n : DotDims S4096x300 S300x512 S4096x512 where
  lhsContracting := [1]
  rhsContracting := [0]
  lhsNonContracting := [0]
  rhsNonContracting := [1]
  lhsBatch := []
  rhsBatch := []
  wf := dot_S4096x300_S300x512_S4096x512_1_0_0_1_n_n_wf

abbrev win0_0 : Pipeline.Window sig grid0 :=
  Pipeline.Window.ofSpec (Memref.whole main_v7) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x256x16x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S300x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2x4096x16 : Shape := ⟨3, ![2, 4096, 16]⟩
abbrev S100000x300 : Shape := ⟨2, ![100000, 300]⟩
abbrev S2348x512 : Shape := ⟨2, ![2348, 512]⟩
abbrev S512 : Shape := ⟨1, ![512]⟩
abbrev S512x1 : Shape := ⟨2, ![512, 1]⟩
abbrev S1 : Shape := ⟨1, ![1]⟩
abbrev S2x2048 : Shape := ⟨2, ![2, 2048]⟩
abbrev S2x4096 : Shape := ⟨2, ![2, 4096]⟩
abbrev S2x2048x1 : Shape := ⟨3, ![2, 2048, 1]⟩
abbrev S_ : Shape := ⟨0, ![]⟩
abbrev S1x1x1 : Shape := ⟨3, ![1, 1, 1]⟩
abbrev S2x2048x16 : Shape := ⟨3, ![2, 2048, 16]⟩
abbrev S2x2048x2048 : Shape := ⟨3, ![2, 2048, 2048]⟩
abbrev S2x2048x16x1 : Shape := ⟨4, ![2, 2048, 16, 1]⟩
abbrev S2x2048x16x300 : Shape := ⟨4, ![2, 2048, 16, 300]⟩
abbrev S2x2048x1x2048 : Shape := ⟨4, ![2, 2048, 1, 2048]⟩
abbrev S2x2048x16x2048 : Shape := ⟨4, ![2, 2048, 16, 2048]⟩
abbrev S2x2048x16x2348 : Shape := ⟨4, ![2, 2048, 16, 2348]⟩
abbrev S2x2048x16x512 : Shape := ⟨4, ![2, 2048, 16, 512]⟩
abbrev S1x1x1x512 : Shape := ⟨4, ![1, 1, 1, 512]⟩
abbrev S1x1x1x1 : Shape := ⟨4, ![1, 1, 1, 1]⟩
abbrev S16 : Shape := ⟨1, ![16]⟩
abbrev S1x1x16 : Shape := ⟨3, ![1, 1, 16]⟩

abbrev nBuf : Space → Nat
  | .hbm => 153
  | .vmem => 0
  | .smem => 0
  | _ => 0

abbrev hbmTy0_0 (i : Nat) : BufTy := match i % 128 with
  | 0 => ⟨S2x4096x2048, .f32⟩
  | 1 => ⟨S2x4096x16, .f32⟩
  | 2 => ⟨S100000x300, .f32⟩
  | 3 => ⟨S2348x512, .f32⟩
  | 4 => ⟨S512, .f32⟩
  | 5 => ⟨S512x1, .f32⟩
  | 6 => ⟨S1, .f32⟩
  | 7 => ⟨S2x2048, .i32⟩
  | 8 => ⟨S2x4096x16, .i32⟩
  | 9 => ⟨S2x4096, .i32⟩
  | 10 => ⟨S2x2048x1, .i32⟩
  | 11 => ⟨S_, .i32⟩
  | 12 => ⟨S2x2048x1, .i32⟩
  | 13 => ⟨S2x2048x1, .i1⟩
  | 14 => ⟨S_, .i32⟩
  | 15 => ⟨S2x2048x1, .i32⟩
  | 16 => ⟨S2x2048x1, .i32⟩
  | 17 => ⟨S2x2048x1, .i32⟩
  | 18 => ⟨S1, .i32⟩
  | 19 => ⟨S_, .i32⟩
  | 20 => ⟨S2x2048x1, .i32⟩
  | 21 => ⟨S2x2048x1, .i1⟩
  | 22 => ⟨S1x1x1, .i32⟩
  | 23 => ⟨S2x2048x1, .i32⟩
  | 24 => ⟨S2x2048x1, .i1⟩
  | 25 => ⟨S2x2048x1, .i1⟩
  | 26 => ⟨S_, .i1⟩
  | 27 => ⟨S2x2048, .i1⟩
  | 28 => ⟨S2x2048x16, .i32⟩
  | 29 => ⟨S2x2048x16, .i1⟩
  | 30 => ⟨S_, .i32⟩
  | 31 => ⟨S2x2048x16, .i32⟩
  | 32 => ⟨S2x2048x16, .i32⟩
  | 33 => ⟨S_, .i32⟩
  | 34 => ⟨S2x2048, .i32⟩
  | 35 => ⟨S2x2048, .i1⟩
  | 36 => ⟨S_, .i32⟩
  | 37 => ⟨S2x2048, .i32⟩
  | 38 => ⟨S2x2048, .i32⟩
  | 39 => ⟨S2x2048, .i32⟩
  | 40 => ⟨S2x2048x1, .i32⟩
  | 41 => ⟨S1, .i32⟩
  | 42 => ⟨S_, .i32⟩
  | 43 => ⟨S2x2048x1, .i32⟩
  | 44 => ⟨S2x2048x1, .i1⟩
  | 45 => ⟨S1x1x1, .i32⟩
  | 46 => ⟨S2x2048x1, .i32⟩
  | 47 => ⟨S2x2048x1, .i1⟩
  | 48 => ⟨S2x2048x1, .i1⟩
  | 49 => ⟨S_, .i1⟩
  | 50 => ⟨S2x2048, .i1⟩
  | 51 => ⟨S2x2048, .i32⟩
  | 52 => ⟨S_, .i32⟩
  | 53 => ⟨S2x2048, .i32⟩
  | 54 => ⟨S2x2048, .i32⟩
  | 55 => ⟨S2x2048x1, .i32⟩
  | 56 => ⟨S_, .i32⟩
  | 57 => ⟨S2x2048x1, .i32⟩
  | 58 => ⟨S2x2048x1, .i1⟩
  | 59 => ⟨S_, .i32⟩
  | 60 => ⟨S2x2048x1, .i32⟩
  | 61 => ⟨S2x2048x1, .i32⟩
  | 62 => ⟨S2x2048x1, .i32⟩
  | 63 => ⟨S1, .i32⟩
  | 64 => ⟨S_, .i32⟩
  | 65 => ⟨S2x2048x1, .i32⟩
  | 66 => ⟨S2x2048x1, .i1⟩
  | 67 => ⟨S1x1x1, .i32⟩
  | 68 => ⟨S2x2048x1, .i32⟩
  | 69 => ⟨S2x2048x1, .i1⟩
  | 70 => ⟨S2x2048x1, .i1⟩
  | 71 => ⟨S_, .i1⟩
  | 72 => ⟨S2x2048, .i1⟩
  | 73 => ⟨S2x2048x16, .f32⟩
  | 74 => ⟨S2x2048x16, .i1⟩
  | 75 => ⟨S_, .f32⟩
  | 76 => ⟨S2x2048x16, .f32⟩
  | 77 => ⟨S2x2048x16, .f32⟩
  | 78 => ⟨S2x2048x1, .i32⟩
  | 79 => ⟨S_, .i32⟩
  | 80 => ⟨S2x2048x1, .i32⟩
  | 81 => ⟨S2x2048x1, .i1⟩
  | 82 => ⟨S_, .i32⟩
  | 83 => ⟨S2x2048x1, .i32⟩
  | 84 => ⟨S2x2048x1, .i32⟩
  | 85 => ⟨S2x2048x1, .i32⟩
  | 86 => ⟨S1, .i32⟩
  | 87 => ⟨S_, .i32⟩
  | 88 => ⟨S2x2048x1, .i32⟩
  | 89 => ⟨S2x2048x1, .i1⟩
  | 90 => ⟨S1x1x1, .i32⟩
  | 91 => ⟨S2x2048x1, .i32⟩
  | 92 => ⟨S2x2048x1, .i1⟩
  | 93 => ⟨S2x2048x1, .i1⟩
  | 94 => ⟨S_, .i1⟩
  | 95 => ⟨S2x2048, .i1⟩
  | 96 => ⟨S2x2048x2048, .f32⟩
  | 97 => ⟨S2x2048x2048, .i1⟩
  | 98 => ⟨S_, .f32⟩
  | 99 => ⟨S2x2048x2048, .f32⟩
  | 100 => ⟨S2x2048x2048, .f32⟩
  | 101 => ⟨S_, .i32⟩
  | 102 => ⟨S2x2048x16, .i32⟩
  | 103 => ⟨S2x2048x16, .i1⟩
  | 104 => ⟨S_, .i32⟩
  | 105 => ⟨S2x2048x16, .i32⟩
  | 106 => ⟨S2x2048x16, .i32⟩
  | 107 => ⟨S2x2048x16, .i32⟩
  | 108 => ⟨S2x2048x16x1, .i32⟩
  | 109 => ⟨S2x2048x16x300, .f32⟩
  | 110 => ⟨S2x2048x1x2048, .f32⟩
  | 111 => ⟨S2x2048x16x2048, .f32⟩
  | 112 => ⟨S2x2048x16x2348, .f32⟩
  | 113 => ⟨S2x2048x16x512, .f32⟩
  | 114 => ⟨S1x1x1x512, .f32⟩
  | 115 => ⟨S2x2048x16x512, .f32⟩
  | 116 => ⟨S2x2048x16x512, .f32⟩
  | 117 => ⟨S_, .f32⟩
  | 118 => ⟨S2x2048x16x512, .f32⟩
  | 119 => ⟨S2x2048x16x512, .f32⟩
  | 120 => ⟨S2x2048x16x1, .f32⟩
  | 121 => ⟨S1x1x1x1, .f32⟩
  | 122 => ⟨S2x2048x16x1, .f32⟩
  | 123 => ⟨S2x2048x16x1, .f32⟩
  | 124 => ⟨S2x2048x16, .f32⟩
  | 125 => ⟨S16, .i32⟩
  | 126 => ⟨S2x2048x1, .i32⟩
  | 127 => ⟨S1x1x16, .i32⟩
  | _ => ⟨S2x4096x2048, .f32⟩

abbrev hbmTy0_1 (i : Nat) : BufTy := match i % 128 with
  | 0 => ⟨S2x2048x16, .i32⟩
  | 1 => ⟨S2x2048x16, .i32⟩
  | 2 => ⟨S2x2048x16, .i1⟩
  | 3 => ⟨S2x2048x16, .f32⟩
  | 4 => ⟨S_, .f32⟩
  | 5 => ⟨S2x2048x16, .f32⟩
  | 6 => ⟨S2x2048x16, .f32⟩
  | 7 => ⟨S2x2048x16, .f32⟩
  | 8 => ⟨S2x2048x16, .f32⟩
  | 9 => ⟨S2x2048x16, .i1⟩
  | 10 => ⟨S2x2048x16, .f32⟩
  | 11 => ⟨S2x2048x16, .f32⟩
  | 12 => ⟨S2x2048x16, .f32⟩
  | 13 => ⟨S2x2048x16, .f32⟩
  | 14 => ⟨S2x2048x16, .f32⟩
  | 15 => ⟨S2x2048x16, .f32⟩
  | 16 => ⟨S2x2048x16, .f32⟩
  | 17 => ⟨S2x2048x16, .f32⟩
  | 18 => ⟨S2x2048x16, .f32⟩
  | 19 => ⟨S2x2048x16, .f32⟩
  | 20 => ⟨S2x2048x16, .f32⟩
  | 21 => ⟨S_, .f32⟩
  | 22 => ⟨S_, .f32⟩
  | 23 => ⟨S_, .f32⟩
  | 24 => ⟨S_, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_c_4 : Ref sig .tc := ⟨.hbm, 52, rfl⟩
abbrev main_call1_v14 : Ref sig .tc := ⟨.hbm, 53, rfl⟩
abbrev main_v2 : Ref sig .tc := ⟨.hbm, 54, rfl⟩
abbrev main_v3 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_c_2 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_c_3 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v4 : Ref sig .tc := ⟨.hbm, 77, rfl⟩
abbrev main_v5 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_c_2 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_c_3 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v6 : Ref sig .tc := ⟨.hbm, 100, rfl⟩
abbrev main_c : Ref sig .tc := ⟨.hbm, 101, rfl⟩
abbrev main_v7 : Ref sig .tc := ⟨.hbm, 102, rfl⟩
abbrev main_v8 : Ref sig .tc := ⟨.hbm, 103, rfl⟩
abbrev main_c_0 : Ref sig .tc := ⟨.hbm, 104, rfl⟩
abbrev main_v9 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_call4_cst : Ref sig .tc := ⟨.hbm, 117, rfl⟩
abbrev main_call4_v0 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_call5_cst : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_cst : Ref sig .tc := ⟨.hbm, 149, rfl⟩
abbrev main_v38 : Ref sig .tc := ⟨.hbm, 150, rfl⟩
abbrev main_cst_1 : Ref sig .tc := ⟨.hbm, 151, rfl⟩
abbrev main_v39 : Ref sig .tc := ⟨.hbm, 152, rfl⟩

abbrev nD : Nat := 1
abbrev τ : Topo := Topo.v7x

variable {F : FTy → Type} [FloatOps F]

class Facts₀ : Prop where
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S1_S1x1x1_2 : S1.BroadcastsInDim S1x1x1 (![2] : Fin 1 → Fin S1x1x1.rank)
  bcast_S1x1x1_S2x2048x1_0_1_2 : S1x1x1.BroadcastsInDim S2x2048x1 (![0, 1, 2] : Fin 3 → Fin S2x2048x1.rank)
  reducesTo_S2x2048x1_S2x2048_d2 : S2x2048x1.ReducesTo [2] S2x2048
  h_S_ : 0 < S_.numel
  bcast_S2x2048_S2x2048x16_0_1 : S2x2048.BroadcastsInDim S2x2048x16 (![0, 1] : Fin 2 → Fin S2x2048x16.rank)
  bcast_S_S2x2048x16 : S_.BroadcastsInDim S2x2048x16 (![] : Fin 0 → Fin S2x2048x16.rank)
  bcast_S_S2x2048 : S_.BroadcastsInDim S2x2048 (![] : Fin 0 → Fin S2x2048.rank)
  shapeCasts_S2x2048_S2x2048x1 : S2x2048.ShapeCasts S2x2048x1
  bcast_S2x2048_S2x2048x2048_0_1 : S2x2048.BroadcastsInDim S2x2048x2048 (![0, 1] : Fin 2 → Fin S2x2048x2048.rank)
  bcast_S_S2x2048x2048 : S_.BroadcastsInDim S2x2048x2048 (![] : Fin 0 → Fin S2x2048x2048.rank)
  bcast_S2x2048x16_S2x2048x16x1_0_1_2 : S2x2048x16.BroadcastsInDim S2x2048x16x1 (![0, 1, 2] : Fin 3 → Fin S2x2048x16x1.rank)
  bcast_S2x2048x2048_S2x2048x1x2048_0_1_3 : S2x2048x2048.BroadcastsInDim S2x2048x1x2048 (![0, 1, 3] : Fin 3 → Fin S2x2048x1x2048.rank)
  bcast_S2x2048x1x2048_S2x2048x16x2048_0_1_2_3 : S2x2048x1x2048.BroadcastsInDim S2x2048x16x2048 (![0, 1, 2, 3] : Fin 4 → Fin S2x2048x16x2048.rank)
  concatenates_S2x2048x16x2048_S2x2048x16x300_S2x2048x16x2348_d3 : Shape.Concatenates [S2x2048x16x2048, S2x2048x16x300] S2x2048x16x2348 3
  bcast_S512_S1x1x1x512_3 : S512.BroadcastsInDim S1x1x1x512 (![3] : Fin 1 → Fin S1x1x1x512.rank)
  bcast_S1x1x1x512_S2x2048x16x512_0_1_2_3 : S1x1x1x512.BroadcastsInDim S2x2048x16x512 (![0, 1, 2, 3] : Fin 4 → Fin S2x2048x16x512.rank)
  bcast_S_S2x2048x16x512 : S_.BroadcastsInDim S2x2048x16x512 (![] : Fin 0 → Fin S2x2048x16x512.rank)
  bcast_S1_S1x1x1x1_3 : S1.BroadcastsInDim S1x1x1x1 (![3] : Fin 1 → Fin S1x1x1x1.rank)
  bcast_S1x1x1x1_S2x2048x16x1_0_1_2_3 : S1x1x1x1.BroadcastsInDim S2x2048x16x1 (![0, 1, 2, 3] : Fin 4 → Fin S2x2048x16x1.rank)
  shapeCasts_S2x2048x16x1_S2x2048x16 : S2x2048x16x1.ShapeCasts S2x2048x16
  bcast_S16_S1x1x16_2 : S16.BroadcastsInDim S1x1x16 (![2] : Fin 1 → Fin S1x1x16.rank)
  bcast_S1x1x16_S2x2048x16_0_1_2 : S1x1x16.BroadcastsInDim S2x2048x16 (![0, 1, 2] : Fin 3 → Fin S2x2048x16.rank)
  bcast_S2x2048x1_S2x2048x16_0_1_2 : S2x2048x1.BroadcastsInDim S2x2048x16 (![0, 1, 2] : Fin 3 → Fin S2x2048x16.rank)
  reducesTo_S2x2048x16_S_d0_1_2 : S2x2048x16.ReducesTo [0, 1, 2] S_
  gather_S2x4096x16_S2x2048x1_S2x2048x16_2_1_0_0_1_2_1116_wf : GatherDims.WF S2x4096x16 S2x2048x1 S2x2048x16 [2] [1] [0] [1] [0] 2 ![1, 1, 16]
  gather_S2x4096_S2x2048x1_S2x2048_n_1_0_0_1_2_11_wf : GatherDims.WF S2x4096 S2x2048x1 S2x2048 [] [1] [0] [1] [0] 2 ![1, 1]
  gather_S2x4096x2048_S2x2048x1_S2x2048x2048_2_1_0_0_1_2_112048_wf : GatherDims.WF S2x4096x2048 S2x2048x1 S2x2048x2048 [2] [1] [0] [1] [0] 2 ![1, 1, 2048]
  gather_S100000x300_S2x2048x16x1_S2x2048x16x300_3_0_n_n_0_3_1300_wf : GatherDims.WF S100000x300 S2x2048x16x1 S2x2048x16x300 [3] [0] [] [0] [] 3 ![1, 300]
  dot_S2x2048x16x2348_S2348x512_S2x2048x16x512_3_0_012_1_n_n_wf : DotDims.WF S2x2048x16x2348 S2348x512 S2x2048x16x512 [3] [0] [0, 1, 2] [1] [] []
  dot_S2x2048x16x512_S512x1_S2x2048x16x1_3_0_012_1_n_n_wf : DotDims.WF S2x2048x16x512 S512x1 S2x2048x16x1 [3] [0] [0, 1, 2] [1] [] []

variable [Facts₀]

def gather_S2x4096x16_S2x2048x1_S2x2048x16_2_1_0_0_1_2_1116 : GatherDims S2x4096x16 S2x2048x1 S2x2048x16 where
  offsetDims := [2]
  collapsedSliceDims := [1]
  operandBatchingDims := [0]
  startIndicesBatchingDims := [0]
  startIndexMap := [1]
  indexVectorDim := 2
  sliceSizes := ![1, 1, 16]
  wf := gather_S2x4096x16_S2x2048x1_S2x2048x16_2_1_0_0_1_2_1116_wf
def gather_S2x4096_S2x2048x1_S2x2048_n_1_0_0_1_2_11 : GatherDims S2x4096 S2x2048x1 S2x2048 where
  offsetDims := []
  collapsedSliceDims := [1]
  operandBatchingDims := [0]
  startIndicesBatchingDims := [0]
  startIndexMap := [1]
  indexVectorDim := 2
  sliceSizes := ![1, 1]
  wf := gather_S2x4096_S2x2048x1_S2x2048_n_1_0_0_1_2_11_wf
def gather_S2x4096x2048_S2x2048x1_S2x2048x2048_2_1_0_0_1_2_112048 : GatherDims S2x4096x2048 S2x2048x1 S2x2048x2048 where
  offsetDims := [2]
  collapsedSliceDims := [1]
  operandBatchingDims := [0]
  startIndicesBatchingDims := [0]
  startIndexMap := [1]
  indexVectorDim := 2
  sliceSizes := ![1, 1, 2048]
  wf := gather_S2x4096x2048_S2x2048x1_S2x2048x2048_2_1_0_0_1_2_112048_wf
def gather_S100000x300_S2x2048x16x1_S2x2048x16x300_3_0_n_n_0_3_1300 : GatherDims S100000x300 S2x2048x16x1 S2x2048x16x300 where
  offsetDims := [3]
  collapsedSliceDims := [0]
  operandBatchingDims := []
  startIndicesBatchingDims := []
  startIndexMap := [0]
  indexVectorDim := 3
  sliceSizes := ![1, 300]
  wf := gather_S100000x300_S2x2048x16x1_S2x2048x16x300_3_0_n_n_0_3_1300_wf
def dot_S2x2048x16x2348_S2348x512_S2x2048x16x512_3_0_012_1_n_n : DotDims S2x2048x16x2348 S2348x512 S2x2048x16x512 where
  lhsContracting := [3]
  rhsContracting := [0]
  lhsNonContracting := [0, 1, 2]
  rhsNonContracting := [1]
  lhsBatch := []
  rhsBatch := []
  wf := dot_S2x2048x16x2348_S2348x512_S2x2048x16x512_3_0_012_1_n_n_wf
def dot_S2x2048x16x512_S512x1_S2x2048x16x1_3_0_012_1_n_n : DotDims S2x2048x16x512 S512x1 S2x2048x16x1 where
  lhsContracting := [3]
  rhsContracting := [0]
  lhsNonContracting := [0, 1, 2]
  rhsNonContracting := [1]
  lhsBatch := []
  rhsBatch := []
  wf := dot_S2x2048x16x512_S512x1_S2x2048x16x1_3_0_012_1_n_n_wf

class Facts : Prop extends Facts₀ where

variable [Facts]
-- ==== Proof.RefRunOps.lean ====
/-
  The reference program as one line of 143 host operations, cut into six stretches (the joining of the two pieces is
  a stretch of its own), with the facts a run of the line needs: the program is the line, the line touches only
  tensor buffers, and every operation determines its result.
-/
import proofs.«414483_j24790551232622_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–45: the span indices with a unit axis, then the gather of the candidate ids and the gather of the candidate counts, each with its index wrap and its range test. -/
abbrev ops1 : List (HloOp τ sig (Elt F)) :=
  [ unary main_arg7 main_v0 (broadcastInDim S2x2048x1 ![0, 1] bcast_S2x2048_S2x2048x1_0_1 : (⟨S2x2048, .i32⟩ : BufTy).Contents (Elt F) → (⟨S2x2048x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S2x2048x1, .i32⟩) main_call0_v0) (broadcastInDim S2x2048x1 ![] bcast_S_S2x2048x1),
    TRef.binary (TRef.of (T := ⟨S2x2048x1, .i32⟩) main_v0) (TRef.of (T := ⟨S2x2048x1, .i32⟩) main_call0_v0) (TRef.of (T := ⟨S2x2048x1, .i1⟩) main_call0_v1) (cmpi .slt),
    TRef.nullary (TRef.of (T := ⟨S_, .i32⟩) main_call0_c_0) (constantI S_ 32 4096#32),
    TRef.unary (TRef.of (T := ⟨S_, .i32⟩) main_call0_c_0) (TRef.of (T := ⟨S2x2048x1, .i32⟩) main_call0_v2) (broadcastInDim S2x2048x1 ![] bcast_S_S2x2048x1),
    TRef.binary (TRef.of (T := ⟨S2x2048x1, .i32⟩) main_v0) (TRef.of (T := ⟨S2x2048x1, .i32⟩) main_call0_v2) (TRef.of (T := ⟨S2x2048x1, .i32⟩) main_call0_v3) addi,
    TRef.ternary (TRef.of (T := ⟨S2x2048x1, .i1⟩) main_call0_v1) (TRef.of (T := ⟨S2x2048x1, .i32⟩) main_call0_v3) (TRef.of (T := ⟨S2x2048x1, .i32⟩) main_v0) (TRef.of (T := ⟨S2x2048x1, .i32⟩) main_call0_v4) select,
    TRef.nullary (TRef.of (T := ⟨S1, .i32⟩) main_call0_c_1) (constantI S1 32 4095#32),
    TRef.nullary (TRef.of (T := ⟨S_, .i32⟩) main_call0_c_2) (constantI S_ 32 0#32),
    TRef.unary (TRef.of (T := ⟨S_, .i32⟩) main_call0_c_2) (TRef.of (T := ⟨S2x2048x1, .i32⟩) main_call0_v5) (broadcastInDim S2x2048x1 ![] bcast_S_S2x2048x1),
    TRef.binary (TRef.of (T := ⟨S2x2048x1, .i32⟩) main_call0_v4) (TRef.of (T := ⟨S2x2048x1, .i32⟩) main_call0_v5) (TRef.of (T := ⟨S2x2048x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S2x2048x1, .i32⟩) main_call0_v8) (broadcastInDim S2x2048x1 ![0, 1, 2] bcast_S1x1x1_S2x2048x1_0_1_2),
    TRef.binary (TRef.of (T := ⟨S2x2048x1, .i32⟩) main_call0_v4) (TRef.of (T := ⟨S2x2048x1, .i32⟩) main_call0_v8) (TRef.of (T := ⟨S2x2048x1, .i1⟩) main_call0_v9) (cmpi .sle),
    TRef.binary (TRef.of (T := ⟨S2x2048x1, .i1⟩) main_call0_v6) (TRef.of (T := ⟨S2x2048x1, .i1⟩) main_call0_v9) (TRef.of (T := ⟨S2x2048x1, .i1⟩) main_call0_v10) andi,
    TRef.nullary (TRef.of (T := ⟨S_, .i1⟩) main_call0_c_3) (constantI S_ 1 1#1),
    TRef.binary (TRef.of (T := ⟨S2x2048x1, .i1⟩) main_call0_v10) (TRef.of (T := ⟨S_, .i1⟩) main_call0_c_3) (TRef.of (T := ⟨S2x2048, .i1⟩) main_call0_v11) (fun x v => Host.reduce IntOp.andi x v reducesTo_S2x2048x1_S2x2048_d2 h_S_),
    TRef.binary (TRef.of (T := ⟨S2x4096x16, .i32⟩) main_arg8) (TRef.of (T := ⟨S2x2048x1, .i32⟩) main_call0_v4) (TRef.of (T := ⟨S2x2048x16, .i32⟩) main_call0_v12) (fun x i => Host.gather gather_S2x4096x16_S2x2048x1_S2x2048x16_2_1_0_0_1_2_1116 x i),
    TRef.unary (TRef.of (T := ⟨S2x2048, .i1⟩) main_call0_v11) (TRef.of (T := ⟨S2x2048x16, .i1⟩) main_call0_v13) (broadcastInDim S2x2048x16 ![0, 1] bcast_S2x2048_S2x2048x16_0_1),
    TRef.nullary (TRef.of (T := ⟨S_, .i32⟩) main_call0_c_4) (constantI S_ 32 2147483648#32),
    TRef.unary (TRef.of (T := ⟨S_, .i32⟩) main_call0_c_4) (TRef.of (T := ⟨S2x2048x16, .i32⟩) main_call0_v14) (broadcastInDim S2x2048x16 ![] bcast_S_S2x2048x16),
    TRef.ternary (TRef.of (T := ⟨S2x2048x16, .i1⟩) main_call0_v13) (TRef.of (T := ⟨S2x2048x16, .i32⟩) main_call0_v12) (TRef.of (T := ⟨S2x2048x16, .i32⟩) main_call0_v14) (TRef.of (T := ⟨S2x2048x16, .i32⟩) main_v1) select,
    TRef.nullary (TRef.of (T := ⟨S_, .i32⟩) main_call1_c) (constantI S_ 32 0#32),
    TRef.unary (TRef.of (T := ⟨S_, .i32⟩) main_call1_c) (TRef.of (T := ⟨S2x2048, .i32⟩) main_call1_v0) (broadcastInDim S2x2048 ![] bcast_S_S2x2048),
    TRef.binary (TRef.of (T := ⟨S2x2048, .i32⟩) main_arg7) (TRef.of (T := ⟨S2x2048, .i32⟩) main_call1_v0) (TRef.of (T := ⟨S2x2048, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S2x2048, .i32⟩) main_call1_v2) (broadcastInDim S2x2048 ![] bcast_S_S2x2048),
    TRef.binary (TRef.of (T := ⟨S2x2048, .i32⟩) main_arg7) (TRef.of (T := ⟨S2x2048, .i32⟩) main_call1_v2) (TRef.of (T := ⟨S2x2048, .i32⟩) main_call1_v3) addi,
    TRef.ternary (TRef.of (T := ⟨S2x2048, .i1⟩) main_call1_v1) (TRef.of (T := ⟨S2x2048, .i32⟩) main_call1_v3) (TRef.of (T := ⟨S2x2048, .i32⟩) main_arg7) (TRef.of (T := ⟨S2x2048, .i32⟩) main_call1_v4) select,
    TRef.reshape (TRef.of (T := ⟨S2x2048, .i32⟩) main_call1_v4) (TRef.of (T := ⟨S2x2048x1, .i32⟩) main_call1_v5) rfl shapeCasts_S2x2048_S2x2048x1,
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S2x2048x1, .i32⟩) main_call1_v6) (broadcastInDim S2x2048x1 ![] bcast_S_S2x2048x1),
    TRef.binary (TRef.of (T := ⟨S2x2048x1, .i32⟩) main_call1_v5) (TRef.of (T := ⟨S2x2048x1, .i32⟩) main_call1_v6) (TRef.of (T := ⟨S2x2048x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S2x2048x1, .i32⟩) main_call1_v9) (broadcastInDim S2x2048x1 ![0, 1, 2] bcast_S1x1x1_S2x2048x1_0_1_2),
    TRef.binary (TRef.of (T := ⟨S2x2048x1, .i32⟩) main_call1_v5) (TRef.of (T := ⟨S2x2048x1, .i32⟩) main_call1_v9) (TRef.of (T := ⟨S2x2048x1, .i1⟩) main_call1_v10) (cmpi .sle),
    TRef.binary (TRef.of (T := ⟨S2x2048x1, .i1⟩) main_call1_v7) (TRef.of (T := ⟨S2x2048x1, .i1⟩) main_call1_v10) (TRef.of (T := ⟨S2x2048x1, .i1⟩) main_call1_v11) andi,
    TRef.nullary (TRef.of (T := ⟨S_, .i1⟩) main_call1_c_3) (constantI S_ 1 1#1),
    TRef.binary (TRef.of (T := ⟨S2x2048x1, .i1⟩) main_call1_v11) (TRef.of (T := ⟨S_, .i1⟩) main_call1_c_3) (TRef.of (T := ⟨S2x2048, .i1⟩) main_call1_v12) (fun x v => Host.reduce IntOp.andi x v reducesTo_S2x2048x1_S2x2048_d2 h_S_),
    TRef.binary (TRef.of (T := ⟨S2x4096, .i32⟩) main_arg9) (TRef.of (T := ⟨S2x2048x1, .i32⟩) main_call1_v5) (TRef.of (T := ⟨S2x2048, .i32⟩) main_call1_v13) (fun x i => Host.gather gather_S2x4096_S2x2048x1_S2x2048_n_1_0_0_1_2_11 x i),
    TRef.nullary (TRef.of (T := ⟨S_, .i32⟩) main_call1_c_4) (constantI S_ 32 2147483648#32),
    TRef.unary (TRef.of (T := ⟨S_, .i32⟩) main_call1_c_4) (TRef.of (T := ⟨S2x2048, .i32⟩) main_call1_v14) (broadcastInDim S2x2048 ![] bcast_S_S2x2048),
    TRef.ternary (TRef.of (T := ⟨S2x2048, .i1⟩) main_call1_v12) (TRef.of (T := ⟨S2x2048, .i32⟩) main_call1_v13) (TRef.of (T := ⟨S2x2048, .i32⟩) main_call1_v14) (TRef.of (T := ⟨S2x2048, .i32⟩) main_v2) select ]

/-- Operations 46–91: the gather of the targets and the gather of the span vectors, likewise. -/
abbrev ops2 : List (HloOp τ sig (Elt F)) :=
  [ unary main_arg7 main_v3 (broadcastInDim S2x2048x1 ![0, 1] bcast_S2x2048_S2x2048x1_0_1 : (⟨S2x2048, .i32⟩ : BufTy).Contents (Elt F) → (⟨S2x2048x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2x2048x1, .i32⟩) main_call2_v0) (broadcastInDim S2x2048x1 ![] bcast_S_S2x2048x1),
    TRef.binary (TRef.of (T := ⟨S2x2048x1, .i32⟩) main_v3) (TRef.of (T := ⟨S2x2048x1, .i32⟩) main_call2_v0) (TRef.of (T := ⟨S2x2048x1, .i1⟩) main_call2_v1) (cmpi .slt),
    TRef.nullary (TRef.of (T := ⟨S_, .i32⟩) main_call2_c_0) (constantI S_ 32 4096#32),
    TRef.unary (TRef.of (T := ⟨S_, .i32⟩) main_call2_c_0) (TRef.of (T := ⟨S2x2048x1, .i32⟩) main_call2_v2) (broadcastInDim S2x2048x1 ![] bcast_S_S2x2048x1),
    TRef.binary (TRef.of (T := ⟨S2x2048x1, .i32⟩) main_v3) (TRef.of (T := ⟨S2x2048x1, .i32⟩) main_call2_v2) (TRef.of (T := ⟨S2x2048x1, .i32⟩) main_call2_v3) addi,
    TRef.ternary (TRef.of (T := ⟨S2x2048x1, .i1⟩) main_call2_v1) (TRef.of (T := ⟨S2x2048x1, .i32⟩) main_call2_v3) (TRef.of (T := ⟨S2x2048x1, .i32⟩) main_v3) (TRef.of (T := ⟨S2x2048x1, .i32⟩) main_call2_v4) select,
    TRef.nullary (TRef.of (T := ⟨S1, .i32⟩) main_call2_c_1) (constantI S1 32 4095#32),
    TRef.nullary (TRef.of (T := ⟨S_, .i32⟩) main_call2_c_2) (constantI S_ 32 0#32),
    TRef.unary (TRef.of (T := ⟨S_, .i32⟩) main_call2_c_2) (TRef.of (T := ⟨S2x2048x1, .i32⟩) main_call2_v5) (broadcastInDim S2x2048x1 ![] bcast_S_S2x2048x1),
    TRef.binary (TRef.of (T := ⟨S2x2048x1, .i32⟩) main_call2_v4) (TRef.of (T := ⟨S2x2048x1, .i32⟩) main_call2_v5) (TRef.of (T := ⟨S2x2048x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S2x2048x1, .i32⟩) main_call2_v8) (broadcastInDim S2x2048x1 ![0, 1, 2] bcast_S1x1x1_S2x2048x1_0_1_2),
    TRef.binary (TRef.of (T := ⟨S2x2048x1, .i32⟩) main_call2_v4) (TRef.of (T := ⟨S2x2048x1, .i32⟩) main_call2_v8) (TRef.of (T := ⟨S2x2048x1, .i1⟩) main_call2_v9) (cmpi .sle),
    TRef.binary (TRef.of (T := ⟨S2x2048x1, .i1⟩) main_call2_v6) (TRef.of (T := ⟨S2x2048x1, .i1⟩) main_call2_v9) (TRef.of (T := ⟨S2x2048x1, .i1⟩) main_call2_v10) andi,
    TRef.nullary (TRef.of (T := ⟨S_, .i1⟩) main_call2_c_3) (constantI S_ 1 1#1),
    TRef.binary (TRef.of (T := ⟨S2x2048x1, .i1⟩) main_call2_v10) (TRef.of (T := ⟨S_, .i1⟩) main_call2_c_3) (TRef.of (T := ⟨S2x2048, .i1⟩) main_call2_v11) (fun x v => Host.reduce IntOp.andi x v reducesTo_S2x2048x1_S2x2048_d2 h_S_),
    TRef.binary (TRef.of (T := ⟨S2x4096x16, .f32⟩) main_arg1) (TRef.of (T := ⟨S2x2048x1, .i32⟩) main_call2_v4) (TRef.of (T := ⟨S2x2048x16, .f32⟩) main_call2_v12) (fun x i => Host.gather gather_S2x4096x16_S2x2048x1_S2x2048x16_2_1_0_0_1_2_1116 x i),
    TRef.unary (TRef.of (T := ⟨S2x2048, .i1⟩) main_call2_v11) (TRef.of (T := ⟨S2x2048x16, .i1⟩) main_call2_v13) (broadcastInDim S2x2048x16 ![0, 1] bcast_S2x2048_S2x2048x16_0_1),
    TRef.nullary (TRef.of (T := ⟨S_, .f32⟩) main_call2_cst) (constant S_ .f32 0x7FC00000#32),
    TRef.unary (TRef.of (T := ⟨S_, .f32⟩) main_call2_cst) (TRef.of (T := ⟨S2x2048x16, .f32⟩) main_call2_v14) (broadcastInDim S2x2048x16 ![] bcast_S_S2x2048x16),
    TRef.ternary (TRef.of (T := ⟨S2x2048x16, .i1⟩) main_call2_v13) (TRef.of (T := ⟨S2x2048x16, .f32⟩) main_call2_v12) (TRef.of (T := ⟨S2x2048x16, .f32⟩) main_call2_v14) (TRef.of (T := ⟨S2x2048x16, .f32⟩) main_v4) select,
    unary main_arg7 main_v5 (broadcastInDim S2x2048x1 ![0, 1] bcast_S2x2048_S2x2048x1_0_1 : (⟨S2x2048, .i32⟩ : BufTy).Contents (Elt F) → (⟨S2x2048x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S2x2048x1, .i32⟩) main_call3_v0) (broadcastInDim S2x2048x1 ![] bcast_S_S2x2048x1),
    TRef.binary (TRef.of (T := ⟨S2x2048x1, .i32⟩) main_v5) (TRef.of (T := ⟨S2x2048x1, .i32⟩) main_call3_v0) (TRef.of (T := ⟨S2x2048x1, .i1⟩) main_call3_v1) (cmpi .slt),
    TRef.nullary (TRef.of (T := ⟨S_, .i32⟩) main_call3_c_0) (constantI S_ 32 4096#32),
    TRef.unary (TRef.of (T := ⟨S_, .i32⟩) main_call3_c_0) (TRef.of (T := ⟨S2x2048x1, .i32⟩) main_call3_v2) (broadcastInDim S2x2048x1 ![] bcast_S_S2x2048x1),
    TRef.binary (TRef.of (T := ⟨S2x2048x1, .i32⟩) main_v5) (TRef.of (T := ⟨S2x2048x1, .i32⟩) main_call3_v2) (TRef.of (T := ⟨S2x2048x1, .i32⟩) main_call3_v3) addi,
    TRef.ternary (TRef.of (T := ⟨S2x2048x1, .i1⟩) main_call3_v1) (TRef.of (T := ⟨S2x2048x1, .i32⟩) main_call3_v3) (TRef.of (T := ⟨S2x2048x1, .i32⟩) main_v5) (TRef.of (T := ⟨S2x2048x1, .i32⟩) main_call3_v4) select,
    TRef.nullary (TRef.of (T := ⟨S1, .i32⟩) main_call3_c_1) (constantI S1 32 4095#32),
    TRef.nullary (TRef.of (T := ⟨S_, .i32⟩) main_call3_c_2) (constantI S_ 32 0#32),
    TRef.unary (TRef.of (T := ⟨S_, .i32⟩) main_call3_c_2) (TRef.of (T := ⟨S2x2048x1, .i32⟩) main_call3_v5) (broadcastInDim S2x2048x1 ![] bcast_S_S2x2048x1),
    TRef.binary (TRef.of (T := ⟨S2x2048x1, .i32⟩) main_call3_v4) (TRef.of (T := ⟨S2x2048x1, .i32⟩) main_call3_v5) (TRef.of (T := ⟨S2x2048x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S2x2048x1, .i32⟩) main_call3_v8) (broadcastInDim S2x2048x1 ![0, 1, 2] bcast_S1x1x1_S2x2048x1_0_1_2),
    TRef.binary (TRef.of (T := ⟨S2x2048x1, .i32⟩) main_call3_v4) (TRef.of (T := ⟨S2x2048x1, .i32⟩) main_call3_v8) (TRef.of (T := ⟨S2x2048x1, .i1⟩) main_call3_v9) (cmpi .sle),
    TRef.binary (TRef.of (T := ⟨S2x2048x1, .i1⟩) main_call3_v6) (TRef.of (T := ⟨S2x2048x1, .i1⟩) main_call3_v9) (TRef.of (T := ⟨S2x2048x1, .i1⟩) main_call3_v10) andi,
    TRef.nullary (TRef.of (T := ⟨S_, .i1⟩) main_call3_c_3) (constantI S_ 1 1#1),
    TRef.binary (TRef.of (T := ⟨S2x2048x1, .i1⟩) main_call3_v10) (TRef.of (T := ⟨S_, .i1⟩) main_call3_c_3) (TRef.of (T := ⟨S2x2048, .i1⟩) main_call3_v11) (fun x v => Host.reduce IntOp.andi x v reducesTo_S2x2048x1_S2x2048_d2 h_S_),
    TRef.binary (TRef.of (T := ⟨S2x4096x2048, .f32⟩) main_arg0) (TRef.of (T := ⟨S2x2048x1, .i32⟩) main_call3_v4) (TRef.of (T := ⟨S2x2048x2048, .f32⟩) main_call3_v12) (fun x i => Host.gather gather_S2x4096x2048_S2x2048x1_S2x2048x2048_2_1_0_0_1_2_112048 x i),
    TRef.unary (TRef.of (T := ⟨S2x2048, .i1⟩) main_call3_v11) (TRef.of (T := ⟨S2x2048x2048, .i1⟩) main_call3_v13) (broadcastInDim S2x2048x2048 ![0, 1] bcast_S2x2048_S2x2048x2048_0_1),
    TRef.nullary (TRef.of (T := ⟨S_, .f32⟩) main_call3_cst) (constant S_ .f32 0x7FC00000#32),
    TRef.unary (TRef.of (T := ⟨S_, .f32⟩) main_call3_cst) (TRef.of (T := ⟨S2x2048x2048, .f32⟩) main_call3_v14) (broadcastInDim S2x2048x2048 ![] bcast_S_S2x2048x2048),
    TRef.ternary (TRef.of (T := ⟨S2x2048x2048, .i1⟩) main_call3_v13) (TRef.of (T := ⟨S2x2048x2048, .f32⟩) main_call3_v12) (TRef.of (T := ⟨S2x2048x2048, .f32⟩) main_call3_v14) (TRef.of (T := ⟨S2x2048x2048, .f32⟩) main_v6) select ]

/-- Operations 92–102: the candidate ids wrapped into the table's range, the gather of the candidates' embeddings, and the span vector repeated over the slots. -/
abbrev ops3 : List (HloOp τ sig (Elt F)) :=
  [ nullary main_c (constantI S_ 32 0#32),
    unary main_c main_v7 (broadcastInDim S2x2048x16 ![] bcast_S_S2x2048x16 : (⟨S_, .i32⟩ : BufTy).Contents (Elt F) → (⟨S2x2048x16, .i32⟩ : BufTy).Contents (Elt F)),
    binary main_v1 main_v7 main_v8 (cmpi .slt : (⟨S2x2048x16, .i32⟩ : BufTy).Contents (Elt F) → (⟨S2x2048x16, .i32⟩ : BufTy).Contents (Elt F) → (⟨S2x2048x16, .i1⟩ : BufTy).Contents (Elt F)),
    nullary main_c_0 (constantI S_ 32 100000#32),
    unary main_c_0 main_v9 (broadcastInDim S2x2048x16 ![] bcast_S_S2x2048x16 : (⟨S_, .i32⟩ : BufTy).Contents (Elt F) → (⟨S2x2048x16, .i32⟩ : BufTy).Contents (Elt F)),
    binary main_v1 main_v9 main_v10 (addi : (⟨S2x2048x16, .i32⟩ : BufTy).Contents (Elt F) → (⟨S2x2048x16, .i32⟩ : BufTy).Contents (Elt F) → (⟨S2x2048x16, .i32⟩ : BufTy).Contents (Elt F)),
    ternary main_v8 main_v10 main_v1 main_v11 (select : (⟨S2x2048x16, .i1⟩ : BufTy).Contents (Elt F) → (⟨S2x2048x16, .i32⟩ : BufTy).Contents (Elt F) → (⟨S2x2048x16, .i32⟩ : BufTy).Contents (Elt F) → (⟨S2x2048x16, .i32⟩ : BufTy).Contents (Elt F)),
    unary main_v11 main_v12 (broadcastInDim S2x2048x16x1 ![0, 1, 2] bcast_S2x2048x16_S2x2048x16x1_0_1_2 : (⟨S2x2048x16, .i32⟩ : BufTy).Contents (Elt F) → (⟨S2x2048x16x1, .i32⟩ : BufTy).Contents (Elt F)),
    binary main_arg2 main_v12 main_v13 ((fun x i => Host.gather gather_S100000x300_S2x2048x16x1_S2x2048x16x300_3_0_n_n_0_3_1300 x i) : (⟨S100000x300, .f32⟩ : BufTy).Contents (Elt F) → (⟨S2x2048x16x1, .i32⟩ : BufTy).Contents (Elt F) → (⟨S2x2048x16x300, .f32⟩ : BufTy).Contents (Elt F)),
    unary main_v6 main_v14 (broadcastInDim S2x2048x1x2048 ![0, 1, 3] bcast_S2x2048x2048_S2x2048x1x2048_0_1_3 : (⟨S2x2048x2048, .f32⟩ : BufTy).Contents (Elt F) → (⟨S2x2048x1x2048, .f32⟩ : BufTy).Contents (Elt F)),
    unary main_v14 main_v15 (broadcastInDim S2x2048x16x2048 ![0, 1, 2, 3] bcast_S2x2048x1x2048_S2x2048x16x2048_0_1_2_3 : (⟨S2x2048x1x2048, .f32⟩ : BufTy).Contents (Elt F) → (⟨S2x2048x16x2048, .f32⟩ : BufTy).Contents (Elt F)) ]

/-- Operation 103: the span vector and the embedding joined end to end. -/
abbrev ops4 : List (HloOp τ sig (Elt F)) :=
  [ binary main_v15 main_v13 main_v16 ((fun a b => concatenate S2x2048x16x2348 3 [⟨S2x2048x16x2048, a⟩, ⟨S2x2048x16x300, b⟩] concatenates_S2x2048x16x2048_S2x2048x16x300_S2x2048x16x2348_d3) : (⟨S2x2048x16x2048, .f32⟩ : BufTy).Contents (Elt F) → (⟨S2x2048x16x300, .f32⟩ : BufTy).Contents (Elt F) → (⟨S2x2048x16x2348, .f32⟩ : BufTy).Contents (Elt F)) ]

/-- Operations 104–115: the two layers, down to the logit. -/
abbrev ops5 : List (HloOp τ sig (Elt F)) :=
  [ binary main_v16 main_arg3 main_v17 ((fun l r => Host.dotGeneral dot_S2x2048x16x2348_S2348x512_S2x2048x16x512_3_0_012_1_n_n none l r) : (⟨S2x2048x16x2348, .f32⟩ : BufTy).Contents (Elt F) → (⟨S2348x512, .f32⟩ : BufTy).Contents (Elt F) → (⟨S2x2048x16x512, .f32⟩ : BufTy).Contents (Elt F)),
    unary main_arg4 main_v18 (broadcastInDim S1x1x1x512 ![3] bcast_S512_S1x1x1x512_3 : (⟨S512, .f32⟩ : BufTy).Contents (Elt F) → (⟨S1x1x1x512, .f32⟩ : BufTy).Contents (Elt F)),
    unary main_v18 main_v19 (broadcastInDim S2x2048x16x512 ![0, 1, 2, 3] bcast_S1x1x1x512_S2x2048x16x512_0_1_2_3 : (⟨S1x1x1x512, .f32⟩ : BufTy).Contents (Elt F) → (⟨S2x2048x16x512, .f32⟩ : BufTy).Contents (Elt F)),
    binary main_v17 main_v19 main_v20 (addf : (⟨S2x2048x16x512, .f32⟩ : BufTy).Contents (Elt F) → (⟨S2x2048x16x512, .f32⟩ : BufTy).Contents (Elt F) → (⟨S2x2048x16x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2x2048x16x512, .f32⟩) main_call4_v0) (broadcastInDim S2x2048x16x512 ![] bcast_S_S2x2048x16x512),
    TRef.binary (TRef.of (T := ⟨S2x2048x16x512, .f32⟩) main_v20) (TRef.of (T := ⟨S2x2048x16x512, .f32⟩) main_call4_v0) (TRef.of (T := ⟨S2x2048x16x512, .f32⟩) main_v21) maximumf,
    binary main_v21 main_arg5 main_v22 ((fun l r => Host.dotGeneral dot_S2x2048x16x512_S512x1_S2x2048x16x1_3_0_012_1_n_n none l r) : (⟨S2x2048x16x512, .f32⟩ : BufTy).Contents (Elt F) → (⟨S512x1, .f32⟩ : BufTy).Contents (Elt F) → (⟨S2x2048x16x1, .f32⟩ : BufTy).Contents (Elt F)),
    unary main_arg6 main_v23 (broadcastInDim S1x1x1x1 ![3] bcast_S1_S1x1x1x1_3 : (⟨S1, .f32⟩ : BufTy).Contents (Elt F) → (⟨S1x1x1x1, .f32⟩ : BufTy).Contents (Elt F)),
    unary main_v23 main_v24 (broadcastInDim S2x2048x16x1 ![0, 1, 2, 3] bcast_S1x1x1x1_S2x2048x16x1_0_1_2_3 : (⟨S1x1x1x1, .f32⟩ : BufTy).Contents (Elt F) → (⟨S2x2048x16x1, .f32⟩ : BufTy).Contents (Elt F)),
    binary main_v22 main_v24 main_v25 (addf : (⟨S2x2048x16x1, .f32⟩ : BufTy).Contents (Elt F) → (⟨S2x2048x16x1, .f32⟩ : BufTy).Contents (Elt F) → (⟨S2x2048x16x1, .f32⟩ : BufTy).Contents (Elt F)),
    reshape main_v25 main_v26 rfl shapeCasts_S2x2048x16x1_S2x2048x16 ]

/-- Operations 116–143: the mask, the softplus, the loss terms and their sum. -/
abbrev ops6 : List (HloOp τ sig (Elt F)) :=
  [ nullary main_v27 (iotaInDim S16 32 0),
    unary main_v2 main_v28 (broadcastInDim S2x2048x1 ![0, 1] bcast_S2x2048_S2x2048x1_0_1 : (⟨S2x2048, .i32⟩ : BufTy).Contents (Elt F) → (⟨S2x2048x1, .i32⟩ : BufTy).Contents (Elt F)),
    unary main_v27 main_v29 (broadcastInDim S1x1x16 ![2] bcast_S16_S1x1x16_2 : (⟨S16, .i32⟩ : BufTy).Contents (Elt F) → (⟨S1x1x16, .i32⟩ : BufTy).Contents (Elt F)),
    unary main_v29 main_v30 (broadcastInDim S2x2048x16 ![0, 1, 2] bcast_S1x1x16_S2x2048x16_0_1_2 : (⟨S1x1x16, .i32⟩ : BufTy).Contents (Elt F) → (⟨S2x2048x16, .i32⟩ : BufTy).Contents (Elt F)),
    unary main_v28 main_v31 (broadcastInDim S2x2048x16 ![0, 1, 2] bcast_S2x2048x1_S2x2048x16_0_1_2 : (⟨S2x2048x1, .i32⟩ : BufTy).Contents (Elt F) → (⟨S2x2048x16, .i32⟩ : BufTy).Contents (Elt F)),
    binary main_v30 main_v31 main_v32 (cmpi .slt : (⟨S2x2048x16, .i32⟩ : BufTy).Contents (Elt F) → (⟨S2x2048x16, .i32⟩ : BufTy).Contents (Elt F) → (⟨S2x2048x16, .i1⟩ : BufTy).Contents (Elt F)),
    unary main_v32 main_v33 (uitofp .f32 : (⟨S2x2048x16, .i1⟩ : BufTy).Contents (Elt F) → (⟨S2x2048x16, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2x2048x16, .f32⟩) main_call5_v0) (broadcastInDim S2x2048x16 ![] bcast_S_S2x2048x16),
    TRef.binary (TRef.of (T := ⟨S2x2048x16, .f32⟩) main_v26) (TRef.of (T := ⟨S2x2048x16, .f32⟩) main_call5_v0) (TRef.of (T := ⟨S2x2048x16, .f32⟩) main_call5_v1) maximumf,
    TRef.unary (TRef.of (T := ⟨S_, .f32⟩) main_call5_cst) (TRef.of (T := ⟨S2x2048x16, .f32⟩) main_call5_v2) (broadcastInDim S2x2048x16 ![] bcast_S_S2x2048x16),
    TRef.binary (TRef.of (T := ⟨S2x2048x16, .f32⟩) main_v26) (TRef.of (T := ⟨S2x2048x16, .f32⟩) main_call5_v2) (TRef.of (T := ⟨S2x2048x16, .f32⟩) main_call5_v3) subf,
    TRef.binary (TRef.of (T := ⟨S2x2048x16, .f32⟩) main_call5_v3) (TRef.of (T := ⟨S2x2048x16, .f32⟩) main_call5_v3) (TRef.of (T := ⟨S2x2048x16, .i1⟩) main_call5_v4) (cmpf .une),
    TRef.unary (TRef.of (T := ⟨S_, .f32⟩) main_call5_cst) (TRef.of (T := ⟨S2x2048x16, .f32⟩) main_call5_v5) (broadcastInDim S2x2048x16 ![] bcast_S_S2x2048x16),
    TRef.binary (TRef.of (T := ⟨S2x2048x16, .f32⟩) main_v26) (TRef.of (T := ⟨S2x2048x16, .f32⟩) main_call5_v5) (TRef.of (T := ⟨S2x2048x16, .f32⟩) main_call5_v6) addf,
    TRef.unary (TRef.of (T := ⟨S2x2048x16, .f32⟩) main_call5_v3) (TRef.of (T := ⟨S2x2048x16, .f32⟩) main_call5_v7) Host.absf,
    TRef.unary (TRef.of (T := ⟨S2x2048x16, .f32⟩) main_call5_v7) (TRef.of (T := ⟨S2x2048x16, .f32⟩) main_call5_v8) Host.negf,
    TRef.unary (TRef.of (T := ⟨S2x2048x16, .f32⟩) main_call5_v8) (TRef.of (T := ⟨S2x2048x16, .f32⟩) main_call5_v9) Host.exp,
    TRef.unary (TRef.of (T := ⟨S2x2048x16, .f32⟩) main_call5_v9) (TRef.of (T := ⟨S2x2048x16, .f32⟩) main_call5_v10) Host.log1p,
    TRef.binary (TRef.of (T := ⟨S2x2048x16, .f32⟩) main_call5_v1) (TRef.of (T := ⟨S2x2048x16, .f32⟩) main_call5_v10) (TRef.of (T := ⟨S2x2048x16, .f32⟩) main_call5_v11) addf,
    TRef.ternary (TRef.of (T := ⟨S2x2048x16, .i1⟩) main_call5_v4) (TRef.of (T := ⟨S2x2048x16, .f32⟩) main_call5_v6) (TRef.of (T := ⟨S2x2048x16, .f32⟩) main_call5_v11) (TRef.of (T := ⟨S2x2048x16, .f32⟩) main_v34) select,
    binary main_v26 main_v4 main_v35 (mulf : (⟨S2x2048x16, .f32⟩ : BufTy).Contents (Elt F) → (⟨S2x2048x16, .f32⟩ : BufTy).Contents (Elt F) → (⟨S2x2048x16, .f32⟩ : BufTy).Contents (Elt F)),
    binary main_v34 main_v35 main_v36 (subf : (⟨S2x2048x16, .f32⟩ : BufTy).Contents (Elt F) → (⟨S2x2048x16, .f32⟩ : BufTy).Contents (Elt F) → (⟨S2x2048x16, .f32⟩ : BufTy).Contents (Elt F)),
    binary main_v33 main_v36 main_v37 (mulf : (⟨S2x2048x16, .f32⟩ : BufTy).Contents (Elt F) → (⟨S2x2048x16, .f32⟩ : BufTy).Contents (Elt F) → (⟨S2x2048x16, .f32⟩ : BufTy).Contents (Elt F)),
    nullary main_cst (constant S_ .f32 0x00000000#32),
    binary main_v37 main_cst main_v38 ((fun x v => Host.reduceAdd x v reducesTo_S2x2048x16_S_d0_1_2 h_S_) : (⟨S2x2048x16, .f32⟩ : BufTy).Contents (Elt F) → (⟨S_, .f32⟩ : BufTy).Contents (Elt F) → (⟨S_, .f32⟩ : BufTy).Contents (Elt F)),
    nullary main_cst_1 (constant S_ .f32 0x3F800000#32),
    binary main_v38 main_cst_1 main_v39 (mulf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := ops1 ++ ops2 ++ ops3 ++ ops4 ++ ops5 ++ ops6

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩

theorem ops4_sub : (ops4 : List (HloOp τ sig (Elt F))).Forall fun op => op.bufs ⊆ tcRefs τ sig :=
  binary_bufs_sub ..

theorem ops5_sub : (ops5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem ops6_sub : (ops6 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with ((((h | h) | h) | h) | h) | h
    exacts [List.forall_iff_forall_mem.mp ops1_sub op h, List.forall_iff_forall_mem.mp ops2_sub op h,
      List.forall_iff_forall_mem.mp ops3_sub op h, List.forall_iff_forall_mem.mp ops4_sub op h,
      List.forall_iff_forall_mem.mp ops5_sub op h, List.forall_iff_forall_mem.mp ops6_sub op h]

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

theorem ops4_fresh : ∀ op ∈ (ops4 : List (HloOp τ sig (Elt F))), op.fresh = ∅ := by
  intro _ h; (repeat (cases h with | head => rfl | tail _ h => ?_)); exact nomatch h

theorem ops5_fresh : ∀ op ∈ (ops5 : List (HloOp τ sig (Elt F))), op.fresh = ∅ := by
  intro _ h; (repeat (cases h with | head => rfl | tail _ h => ?_)); exact nomatch h

theorem ops6_fresh : ∀ op ∈ (ops6 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with ((((h | h) | h) | h) | h) | h
  exacts [ops1_fresh op h, ops2_fresh op h, ops3_fresh op h, ops4_fresh op h, ops5_fresh op h, ops6_fresh op h]

end Cert.ReferenceIdeal.RefRun

end
-- ==== Proof.RefRun.lean ====
/-
  The reference program's run, read back stretch by stretch.

  The line of 143 host operations is run from any contents of the buffers; after each of its six stretches the
  buffers that later operations still read hold the stage the operations before them compose (the stages of the
  module that reads the program one operation at a time), and a buffer that a stretch does not write keeps what it
  held.  After the last stretch the result buffer holds the last stage of the ten arguments, and the arguments are
  as they were.  The program's run from a memory with zero counters ends in such contents on every device.
-/
import proofs.«414483_j24790551232622_3_alg».proof.Proof.RefRead
import proofs.«414483_j24790551232622_3_alg».proof.Proof.RefRunOps
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

section Values

variable (V0 : Valuation τ sig (Elt F))

/-- The buffers' contents after the first stretch, from contents `V0`. -/
def val1 : Valuation τ sig (Elt F) := after ops1 V0
/-- After the first two stretches. -/
def val2 : Valuation τ sig (Elt F) := after ops2 (val1 V0)
/-- After the first three stretches. -/
def val3 : Valuation τ sig (Elt F) := after ops3 (val2 V0)
/-- After the two pieces are joined. -/
def val4 : Valuation τ sig (Elt F) := after ops4 (val3 V0)
/-- After the two layers. -/
def val5 : Valuation τ sig (Elt F) := after ops5 (val4 V0)
/-- After the whole line. -/
def val6 : Valuation τ sig (Elt F) := after ops6 (val5 V0)

/-- Running the whole line is running the six stretches in turn. -/
theorem after_ops : after ops V0 = val6 V0 := by
  simp only [ops, after_append]
  rfl

/-! ## What each stretch writes, and what it therefore leaves alone -/

/-- The buffers the first stretch writes. -/
abbrev ops1_W : List (Ref sig .tc) := [main_v0, main_call0_c, main_call0_v0, main_call0_v1, main_call0_c_0, main_call0_v2, main_call0_v3, main_call0_v4, main_call0_c_1, main_call0_c_2, main_call0_v5, main_call0_v6, main_call0_v7, main_call0_v8, main_call0_v9, main_call0_v10, main_call0_c_3, main_call0_v11, main_call0_v12, main_call0_v13, main_call0_c_4, main_call0_v14, main_v1, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v2]
/-- The buffers the second stretch writes. -/
abbrev ops2_W : List (Ref sig .tc) := [main_v3, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v4, main_v5, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v6]
/-- The buffers the third stretch writes. -/
abbrev ops3_W : List (Ref sig .tc) := [main_c, main_v7, main_v8, main_c_0, main_v9, main_v10, main_v11, main_v12, main_v13, main_v14, main_v15]
/-- The buffers the fourth stretch writes. -/
abbrev ops4_W : List (Ref sig .tc) := [main_v16]
/-- The buffers the fifth stretch writes. -/
abbrev ops5_W : List (Ref sig .tc) := [main_v17, main_v18, main_v19, main_v20, main_call4_cst, main_call4_v0, main_v21, main_v22, main_v23, main_v24, main_v25, main_v26]
/-- The buffers the sixth stretch writes. -/
abbrev ops6_W : List (Ref sig .tc) := [main_v27, main_v28, main_v29, main_v30, main_v31, main_v32, main_v33, main_call5_cst, main_call5_v0, main_call5_v1, main_call5_v2, main_call5_v3, main_call5_v4, main_call5_v5, main_call5_v6, main_call5_v7, main_call5_v8, main_call5_v9, main_call5_v10, main_call5_v11, main_v34, main_v35, main_v36, main_v37, main_cst, main_v38, main_cst_1, main_v39]

set_option maxRecDepth 8192 in
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
theorem ops3_writes : (ops3 : List (HloOp τ sig (Elt F))).Forall fun op =>
    op.writes ⊆ (ops3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
theorem ops5_writes : (ops5 : List (HloOp τ sig (Elt F))).Forall fun op =>
    op.writes ⊆ (ops5_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
theorem ops6_writes : (ops6 : List (HloOp τ sig (Elt F))).Forall fun op =>
    op.writes ⊆ (ops6_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem ops4_writes : (ops4 : List (HloOp τ sig (Elt F))).Forall fun op =>
    op.writes ⊆ (ops4_W.map (Proc.devRef (τ := τ) .tc)).toFinset := by
  simp only [List.Forall, binary_writes, Finset.singleton_subset_iff, List.mem_toFinset]
  exact List.mem_map_of_mem (by decide)

/-- A buffer the first stretch does not write keeps its contents through it. -/
theorem val1_keep (r : Ref sig .tc) (h : r ∉ ops1_W) : val1 V0 (Proc.devRef .tc r) = V0 (Proc.devRef .tc r) :=
  after_of_writes_sub ops1 _ ops1_writes h
/-- A buffer the second stretch does not write keeps its contents through it. -/
theorem val2_keep (r : Ref sig .tc) (h : r ∉ ops2_W) : val2 V0 (Proc.devRef .tc r) = val1 V0 (Proc.devRef .tc r) :=
  after_of_writes_sub ops2 _ ops2_writes h
/-- A buffer the third stretch does not write keeps its contents through it. -/
theorem val3_keep (r : Ref sig .tc) (h : r ∉ ops3_W) : val3 V0 (Proc.devRef .tc r) = val2 V0 (Proc.devRef .tc r) :=
  after_of_writes_sub ops3 _ ops3_writes h
/-- A buffer the fourth stretch does not write keeps its contents through it. -/
theorem val4_keep (r : Ref sig .tc) (h : r ∉ ops4_W) : val4 V0 (Proc.devRef .tc r) = val3 V0 (Proc.devRef .tc r) :=
  after_of_writes_sub ops4 _ ops4_writes h
/-- A buffer the fifth stretch does not write keeps its contents through it. -/
theorem val5_keep (r : Ref sig .tc) (h : r ∉ ops5_W) : val5 V0 (Proc.devRef .tc r) = val4 V0 (Proc.devRef .tc r) :=
  after_of_writes_sub ops5 _ ops5_writes h
/-- A buffer the sixth stretch does not write keeps its contents through it. -/
theorem val6_keep (r : Ref sig .tc) (h : r ∉ ops6_W) : val6 V0 (Proc.devRef .tc r) = val5 V0 (Proc.devRef .tc r) :=
  after_of_writes_sub ops6 _ ops6_writes h

/-- A buffer no stretch writes ends as it began. -/
theorem val6_untouched (r : Ref sig .tc) (h1 : r ∉ ops1_W) (h2 : r ∉ ops2_W) (h3 : r ∉ ops3_W) (h4 : r ∉ ops4_W)
    (h5 : r ∉ ops5_W) (h6 : r ∉ ops6_W) : val6 V0 (Proc.devRef .tc r) = V0 (Proc.devRef .tc r) :=
  (val6_keep V0 r h6).trans ((val5_keep V0 r h5).trans ((val4_keep V0 r h4).trans ((val3_keep V0 r h3).trans
    ((val2_keep V0 r h2).trans (val1_keep V0 r h1)))))

/-! ## After the first stretch: the gathered candidate ids and counts -/

theorem val1_main_arg0 : val1 V0 (no_index (Proc.devRef .tc main_arg0)) = V0 (Proc.devRef .tc main_arg0) :=
  val1_keep V0 main_arg0 (by decide)
theorem val1_main_arg1 : val1 V0 (no_index (Proc.devRef .tc main_arg1)) = V0 (Proc.devRef .tc main_arg1) :=
  val1_keep V0 main_arg1 (by decide)
theorem val1_main_arg7 : val1 V0 (no_index (Proc.devRef .tc main_arg7)) = V0 (Proc.devRef .tc main_arg7) :=
  val1_keep V0 main_arg7 (by decide)

set_option maxRecDepth 8192 in
set_option maxHeartbeats 2000000 in
theorem val1_main_v1 : val1 V0 (no_index (Proc.devRef .tc main_v1))
    = ReadP.val_main_v1 (F := F) (V0 (Proc.devRef .tc main_arg7)) (V0 (Proc.devRef .tc main_arg8)) := by
  unfold val1
  simp only [ops1]
  after_results_simp
  all_goals rfl

set_option maxRecDepth 8192 in
set_option maxHeartbeats 2000000 in
theorem val1_main_v2 : val1 V0 (no_index (Proc.devRef .tc main_v2))
    = ReadP.val_main_v2 (F := F) (V0 (Proc.devRef .tc main_arg7)) (V0 (Proc.devRef .tc main_arg9)) := by
  unfold val1
  simp only [ops1]
  after_results_simp
  all_goals rfl

/-! ## After the second stretch: the gathered targets and span vectors -/

theorem val2_main_arg2 : val2 V0 (no_index (Proc.devRef .tc main_arg2)) = V0 (Proc.devRef .tc main_arg2) :=
  (val2_keep V0 main_arg2 (by decide)).trans (val1_keep V0 main_arg2 (by decide))
theorem val2_main_v1 : val2 V0 (no_index (Proc.devRef .tc main_v1))
    = ReadP.val_main_v1 (F := F) (V0 (Proc.devRef .tc main_arg7)) (V0 (Proc.devRef .tc main_arg8)) :=
  (val2_keep V0 main_v1 (by decide)).trans (val1_main_v1 V0)
theorem val2_main_v2 : val2 V0 (no_index (Proc.devRef .tc main_v2))
    = ReadP.val_main_v2 (F := F) (V0 (Proc.devRef .tc main_arg7)) (V0 (Proc.devRef .tc main_arg9)) :=
  (val2_keep V0 main_v2 (by decide)).trans (val1_main_v2 V0)

set_option maxRecDepth 8192 in
set_option maxHeartbeats 2000000 in
theorem val2_main_v4 : val2 V0 (no_index (Proc.devRef .tc main_v4))
    = ReadP.val_main_v4 (F := F) (V0 (Proc.devRef .tc main_arg1)) (V0 (Proc.devRef .tc main_arg7)) := by
  unfold val2
  simp only [ops2]
  after_results_simp
  simp only [val1_main_arg1, val1_main_arg7] <;> rfl

set_option maxRecDepth 8192 in
set_option maxHeartbeats 2000000 in
theorem val2_main_v6 : val2 V0 (no_index (Proc.devRef .tc main_v6))
    = ReadP.val_main_v6 (F := F) (V0 (Proc.devRef .tc main_arg0)) (V0 (Proc.devRef .tc main_arg7)) := by
  unfold val2
  simp only [ops2]
  after_results_simp
  simp only [val1_main_arg0, val1_main_arg7] <;> rfl

/-! ## After the third stretch: the gathered embeddings, and the span vector over the slots -/

theorem val3_main_v2 : val3 V0 (no_index (Proc.devRef .tc main_v2))
    = ReadP.val_main_v2 (F := F) (V0 (Proc.devRef .tc main_arg7)) (V0 (Proc.devRef .tc main_arg9)) :=
  (val3_keep V0 main_v2 (by decide)).trans (val2_main_v2 V0)
theorem val3_main_v4 : val3 V0 (no_index (Proc.devRef .tc main_v4))
    = ReadP.val_main_v4 (F := F) (V0 (Proc.devRef .tc main_arg1)) (V0 (Proc.devRef .tc main_arg7)) :=
  (val3_keep V0 main_v4 (by decide)).trans (val2_main_v4 V0)

set_option maxRecDepth 8192 in
set_option maxHeartbeats 1000000 in
theorem val3_main_v13 : val3 V0 (no_index (Proc.devRef .tc main_v13))
    = ReadP.val_main_v13 (F := F) (V0 (Proc.devRef .tc main_arg2)) (V0 (Proc.devRef .tc main_arg7)) (V0 (Proc.devRef .tc main_arg8)) := by
  unfold val3
  simp only [ops3]
  after_results_simp
  simp only [val2_main_arg2, val2_main_v1] <;> rfl

set_option maxRecDepth 8192 in
set_option maxHeartbeats 1000000 in
theorem val3_main_v15 : val3 V0 (no_index (Proc.devRef .tc main_v15))
    = ReadP.val_main_v15 (F := F) (V0 (Proc.devRef .tc main_arg0)) (V0 (Proc.devRef .tc main_arg7)) := by
  unfold val3
  simp only [ops3]
  after_results_simp
  simp only [val2_main_v6] <;> rfl

/-! ## After the fourth stretch: the joined vector -/

theorem val4_main_arg3 : val4 V0 (no_index (Proc.devRef .tc main_arg3)) = V0 (Proc.devRef .tc main_arg3) :=
  (val4_keep V0 main_arg3 (by decide)).trans ((val3_keep V0 main_arg3 (by decide)).trans ((val2_keep V0 main_arg3 (by decide)).trans (val1_keep V0 main_arg3 (by decide))))
theorem val4_main_arg4 : val4 V0 (no_index (Proc.devRef .tc main_arg4)) = V0 (Proc.devRef .tc main_arg4) :=
  (val4_keep V0 main_arg4 (by decide)).trans ((val3_keep V0 main_arg4 (by decide)).trans ((val2_keep V0 main_arg4 (by decide)).trans (val1_keep V0 main_arg4 (by decide))))
theorem val4_main_arg5 : val4 V0 (no_index (Proc.devRef .tc main_arg5)) = V0 (Proc.devRef .tc main_arg5) :=
  (val4_keep V0 main_arg5 (by decide)).trans ((val3_keep V0 main_arg5 (by decide)).trans ((val2_keep V0 main_arg5 (by decide)).trans (val1_keep V0 main_arg5 (by decide))))
theorem val4_main_arg6 : val4 V0 (no_index (Proc.devRef .tc main_arg6)) = V0 (Proc.devRef .tc main_arg6) :=
  (val4_keep V0 main_arg6 (by decide)).trans ((val3_keep V0 main_arg6 (by decide)).trans ((val2_keep V0 main_arg6 (by decide)).trans (val1_keep V0 main_arg6 (by decide))))
theorem val4_main_v2 : val4 V0 (no_index (Proc.devRef .tc main_v2))
    = ReadP.val_main_v2 (F := F) (V0 (Proc.devRef .tc main_arg7)) (V0 (Proc.devRef .tc main_arg9)) :=
  (val4_keep V0 main_v2 (by decide)).trans (val3_main_v2 V0)
theorem val4_main_v4 : val4 V0 (no_index (Proc.devRef .tc main_v4))
    = ReadP.val_main_v4 (F := F) (V0 (Proc.devRef .tc main_arg1)) (V0 (Proc.devRef .tc main_arg7)) :=
  (val4_keep V0 main_v4 (by decide)).trans (val3_main_v4 V0)

set_option maxRecDepth 8192 in
set_option maxHeartbeats 400000 in
theorem val4_main_v16 : val4 V0 (no_index (Proc.devRef .tc main_v16))
    = ReadP.val_main_v16 (F := F) (V0 (Proc.devRef .tc main_arg0)) (V0 (Proc.devRef .tc main_arg2)) (V0 (Proc.devRef .tc main_arg7)) (V0 (Proc.devRef .tc main_arg8)) := by
  unfold val4
  simp only [ops4]
  after_results
  rw [val3_main_v15, val3_main_v13]
  rfl

/-! ## After the fifth stretch: the logit -/

theorem val5_main_v2 : val5 V0 (no_index (Proc.devRef .tc main_v2))
    = ReadP.val_main_v2 (F := F) (V0 (Proc.devRef .tc main_arg7)) (V0 (Proc.devRef .tc main_arg9)) :=
  (val5_keep V0 main_v2 (by decide)).trans (val4_main_v2 V0)
theorem val5_main_v4 : val5 V0 (no_index (Proc.devRef .tc main_v4))
    = ReadP.val_main_v4 (F := F) (V0 (Proc.devRef .tc main_arg1)) (V0 (Proc.devRef .tc main_arg7)) :=
  (val5_keep V0 main_v4 (by decide)).trans (val4_main_v4 V0)

set_option maxRecDepth 8192 in
set_option maxHeartbeats 1000000 in
theorem val5_main_v26 : val5 V0 (no_index (Proc.devRef .tc main_v26))
    = ReadP.val_main_v26 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val5
  simp only [ops5]
  after_results_simp
  simp only [val4_main_v16, val4_main_arg3, val4_main_arg4, val4_main_arg5, val4_main_arg6] <;> rfl

/-! ## After the last stretch: the result -/

set_option maxRecDepth 8192 in
set_option maxHeartbeats 2000000 in
theorem val6_main_v39 : val6 V0 (no_index (Proc.devRef .tc main_v39))
    = ReadP.val_main_v39 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val6
  simp only [ops6]
  after_results_simp
  simp only [val5_main_v26, val5_main_v2, val5_main_v4] <;> rfl

end Values

/-! ## The run -/

/-- On every device, for any float values, from any memory with zero counters: every weakly fair execution of the
    program terminates with the result buffer at the last stage of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = ReadP.val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v39).trans ((congrFun (after_ops _) _).trans (val6_main_v39 _)),
      (h c main_arg0).trans ((congrFun (after_ops _) _).trans (val6_untouched _ main_arg0 (by decide) (by decide) (by decide) (by decide) (by decide) (by decide))),
      (h c main_arg1).trans ((congrFun (after_ops _) _).trans (val6_untouched _ main_arg1 (by decide) (by decide) (by decide) (by decide) (by decide) (by decide))),
      (h c main_arg2).trans ((congrFun (after_ops _) _).trans (val6_untouched _ main_arg2 (by decide) (by decide) (by decide) (by decide) (by decide) (by decide))),
      (h c main_arg3).trans ((congrFun (after_ops _) _).trans (val6_untouched _ main_arg3 (by decide) (by decide) (by decide) (by decide) (by decide) (by decide))),
      (h c main_arg4).trans ((congrFun (after_ops _) _).trans (val6_untouched _ main_arg4 (by decide) (by decide) (by decide) (by decide) (by decide) (by decide))),
      (h c main_arg5).trans ((congrFun (after_ops _) _).trans (val6_untouched _ main_arg5 (by decide) (by decide) (by decide) (by decide) (by decide) (by decide))),
      (h c main_arg6).trans ((congrFun (after_ops _) _).trans (val6_untouched _ main_arg6 (by decide) (by decide) (by decide) (by decide) (by decide) (by decide))),
      (h c main_arg7).trans ((congrFun (after_ops _) _).trans (val6_untouched _ main_arg7 (by decide) (by decide) (by decide) (by decide) (by decide) (by decide))),
      (h c main_arg8).trans ((congrFun (after_ops _) _).trans (val6_untouched _ main_arg8 (by decide) (by decide) (by decide) (by decide) (by decide) (by decide))),
      (h c main_arg9).trans ((congrFun (after_ops _) _).trans (val6_untouched _ main_arg9 (by decide) (by decide) (by decide) (by decide) (by decide) (by decide)))⟩)
    (run_seq scopedRefs_eq scopedSems_eq defs main (fun _ => ops) main_eq (fun _ => ops_sub) m ρ (fun _ => ops_fresh))

end Cert.ReferenceIdeal.RefRun

end
-- ==== Proof.Cell.lean ====
/-
  What one grid point leaves in the output's staging cell, as a value.

  The output block is one f32 cell per batch row, revisited by the eight tiles of that row.  At a tile that opens a
  row (tile coordinate 0) the body first stores 0 into the cell, then adds the tile's partial loss to what it reads
  back; at every other tile it adds the partial loss to what the tile before left.  In both cases the cell ends at
      old + partial(logits of the tile, counts, targets),
  with `old = 0` at a row's first tile.  The arithmetic is the body's own pure terms: the logits are `k0_pay3` of the
  input blocks, the update is `k0_pay1`, the reset value is `k0_pay2`.
-/
import proofs.«414483_j24790551232622_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cell

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The cell after a tile that continues a row: the update applied to the tile's logits and to the old cell. -/
theorem cell_next (c : Dev nD) (i : grid0.Coords) (a2 : Memref sig .tc .vmem S1x256x2048 .bf16) (h2 : a2.IsWhole) (a3 : Memref sig .tc .vmem S1x256x16x300 .bf16) (h3 : a3.IsWhole) (a4 : Memref sig .tc .vmem S1x256x1 .i32) (h4 : a4.IsWhole) (a5 : Memref sig .tc .vmem S1x256x16 .f32) (h5 : a5.IsWhole) (a6 : Memref sig .tc .vmem S2048x512 .bf16) (h6 : a6.IsWhole) (a7 : Memref sig .tc .vmem S300x512 .bf16) (h7 : a7.IsWhole) (a8 : Memref sig .tc .vmem S512 .f32) (h8 : a8.IsWhole) (a9 : Memref sig .tc .vmem S512 .f32) (h9 : a9.IsWhole) (a10 : Memref sig .tc .vmem S1 .f32) (h10 : a10.IsWhole) (a11 : Memref sig .tc .vmem S1x1x1 .f32) (h11 : a11.IsWhole) (hc : ¬cond0_0 i)
    (x0 : Vec F S1x256x2048 .bf16) (x1 : Vec F S1x256x16x300 .bf16) (x2 : Vec F S1x256x1 .i32) (x3 : Vec F S1x256x16 .f32) (x4 : Vec F S2048x512 .bf16) (x5 : Vec F S300x512 .bf16) (x6 : Vec F S512 .f32) (x7 : Vec F S512 .f32) (x8 : Vec F S1 .f32) (xo : Vec F S1x1x1 .f32) :
    out0_B_9 c i a2 h2 a3 h3 a4 h4 a5 h5 a6 h6 a7 h7 a8 h8 a9 h9 a10 h10 a11 h11 hc x0 x1 x2 x3 x4 x5 x6 x7 x8 xo
      = k0_pay1 (k0_pay3 x0 x4 x1 x5 x6 x7 x8) x2 x3 xo := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 x6 x7 x8 xo)]
  unfold kernelRun0_B
  dsimp only
  sl_unfold_words
  rw [View.canon_unit_zero hz3]
  simp only [View.readAt_eq_ld, h2.read_unread, h3.read_unread, h4.read_unread, h5.read_unread, h6.read_unread,
    h7.read_unread, h8.read_unread, h9.read_unread, h10.read_unread, h11.read_unread,
    View.ld_unit_zero (S := S1x256x2048) hz3, View.ld_unit_zero (S := S1x256x16x300) hz4,
    View.ld_unit_zero (S := S1x256x1) hz3, View.ld_unit_zero (S := S1x256x16) hz3,
    View.ld_unit_zero (S := S2048x512) hz2, View.ld_unit_zero (S := S300x512) hz2,
    View.ld_unit_zero (S := S512) hz1, View.ld_unit_zero (S := S1) hz1, View.ld_unit_zero (S := S1x1x1) hz3]

/-- The cell after a tile that opens a row: the update applied to the tile's logits and to the reset value. -/
theorem cell_first (c : Dev nD) (i : grid0.Coords) (a2 : Memref sig .tc .vmem S1x256x2048 .bf16) (h2 : a2.IsWhole) (a3 : Memref sig .tc .vmem S1x256x16x300 .bf16) (h3 : a3.IsWhole) (a4 : Memref sig .tc .vmem S1x256x1 .i32) (h4 : a4.IsWhole) (a5 : Memref sig .tc .vmem S1x256x16 .f32) (h5 : a5.IsWhole) (a6 : Memref sig .tc .vmem S2048x512 .bf16) (h6 : a6.IsWhole) (a7 : Memref sig .tc .vmem S300x512 .bf16) (h7 : a7.IsWhole) (a8 : Memref sig .tc .vmem S512 .f32) (h8 : a8.IsWhole) (a9 : Memref sig .tc .vmem S512 .f32) (h9 : a9.IsWhole) (a10 : Memref sig .tc .vmem S1 .f32) (h10 : a10.IsWhole) (a11 : Memref sig .tc .vmem S1x1x1 .f32) (h11 : a11.IsWhole) (hc : cond0_0 i)
    (x0 : Vec F S1x256x2048 .bf16) (x1 : Vec F S1x256x16x300 .bf16) (x2 : Vec F S1x256x1 .i32) (x3 : Vec F S1x256x16 .f32) (x4 : Vec F S2048x512 .bf16) (x5 : Vec F S300x512 .bf16) (x6 : Vec F S512 .f32) (x7 : Vec F S512 .f32) (x8 : Vec F S1 .f32) :
    out0_A_9 c i a2 h2 a3 h3 a4 h4 a5 h5 a6 h6 a7 h7 a8 h8 a9 h9 a10 h10 a11 h11 hc x0 x1 x2 x3 x4 x5 x6 x7 x8
      = k0_pay1 (k0_pay3 x0 x4 x1 x5 x6 x7 x8) x2 x3 (k0_pay2 (F := F)) := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1x1) hz3]
  simp only [View.readAt_eq_ld, h2.read_unread, h3.read_unread, h4.read_unread, h5.read_unread, h6.read_unread,
    h7.read_unread, h8.read_unread, h9.read_unread, h10.read_unread,
    View.readCov_unit_zero (S := S1x1x1) _ hz3,
    View.ld_unit_zero (S := S1x256x2048) hz3, View.ld_unit_zero (S := S1x256x16x300) hz4,
    View.ld_unit_zero (S := S1x256x1) hz3, View.ld_unit_zero (S := S1x256x16) hz3,
    View.ld_unit_zero (S := S2048x512) hz2, View.ld_unit_zero (S := S300x512) hz2,
    View.ld_unit_zero (S := S512) hz1, View.ld_unit_zero (S := S1) hz1, View.ld_unit_zero (S := S1x1x1) hz3]

end Cert.KernelIdeal.Cell

end
-- ==== Proof.SumLaws.lean ====
/-
  Re-indexing laws for sums over the extended reals (addition there is commutative and associative, so a finite sum
  may be cut and regrouped freely; nothing here needs finiteness of the summands).

  * the 2348 rows of the first layer's weight matrix are the 2048 rows that meet the span vector followed by the 300
    rows that meet the candidate's embedding (`rowA`, `rowB`, `sum_rows`);
  * the (batch, span, slot) index set [2, 2048, 16] is the disjoint union, over the batch row `b` and the tile `kt` of
    256 consecutive spans, of copies of the tile's own index set [1, 256, 16] (`sum_tiles`);
  * a running sum restarted at every multiple of 8 holds, after step `n`, the sum of the steps since the restart
    (`restart_sum`), so after the last step of a group of 8 it holds the group's sum.
-/
import Idealize.ShloMosaic.PureOps.Ideal
import Idealize.ShloMosaic.Lib.ValueIdx

noncomputable section

open Idealize.ShloMosaic Idealize.ShloMosaic.ValueIdx

namespace Cert.SumLaws

/-- Row `d` of the weight matrix's upper block (the rows that meet the span vector). -/
def rowA (d : Fin 2048) : Fin 2348 := ⟨d.val, by have := d.isLt; omega⟩

/-- Row `2048 + e` of the weight matrix: its lower block (the rows that meet the candidate's embedding). -/
def rowB (e : Fin 300) : Fin 2348 := ⟨2048 + e.val, by have := e.isLt; omega⟩

/-- A sum over the 2348 rows is the sum over the upper block plus the sum over the lower block. -/
theorem sum_rows (f : Fin 2348 → EReal) :
    ∑ j : Fin 2348, f j = (∑ d : Fin 2048, f (rowA d)) + ∑ e : Fin 300, f (rowB e) := by
  exact Fin.sum_univ_add (fun j : Fin (2048 + 300) => f j)

/-- Span `256·kt + r`: row `r` of tile `kt`. -/
def spanOf (kt : Fin 8) (r : Fin 256) : Fin 2048 :=
  ⟨kt.val * 256 + r.val, by have := kt.isLt; have := r.isLt; omega⟩

abbrev All : Shape := ⟨3, ![2, 2048, 16]⟩
abbrev Tile : Shape := ⟨3, ![1, 256, 16]⟩

/-- (batch row, tile, index inside the tile) ↔ (batch row, span, slot). -/
def tileEquiv : (Fin 2 × Fin 8) × Tile.Idx ≃ All.Idx where
  toFun p := ix3 p.1.1 (spanOf p.1.2 (p.2 1)) (p.2 2)
  invFun i := ((i 0, ⟨(i 1).val / 256, by have h : (i 1).val < 2048 := (i 1).isLt; omega⟩),
    ix3 (0 : Fin 1) (⟨(i 1).val % 256, Nat.mod_lt _ (by norm_num)⟩ : Fin 256) (i 2))
  left_inv p := by
    obtain ⟨⟨b, kt⟩, y⟩ := p
    have hy : (y 1).val < 256 := (y 1).isLt
    have hy0 : (y 0).val < 1 := (y 0).isLt
    refine Prod.ext (Prod.ext rfl (Fin.ext ?_)) ?_
    · show (kt.val * 256 + (y 1).val) / 256 = kt.val
      omega
    · funext d
      match d with
      | ⟨0, _⟩ => exact Fin.ext (by show 0 = (y 0).val; omega)
      | ⟨1, _⟩ => exact Fin.ext (by show (kt.val * 256 + (y 1).val) % 256 = (y 1).val; omega)
      | ⟨2, _⟩ => rfl
  right_inv i := by
    funext d
    match d with
    | ⟨0, _⟩ => rfl
    | ⟨1, _⟩ => exact Fin.ext (by show (i 1).val / 256 * 256 + (i 1).val % 256 = (i 1).val; omega)
    | ⟨2, _⟩ => rfl

/-- The sum over every (batch row, span, slot) is the sum over batch rows, then tiles, then the tile's indices. -/
theorem sum_tiles (g : All.Idx → EReal) :
    ∑ i : All.Idx, g i = ∑ b : Fin 2, ∑ kt : Fin 8, ∑ y : Tile.Idx, g (ix3 b (spanOf kt (y 1)) (y 2)) := by
  rw [← Equiv.sum_comp tileEquiv g, Fintype.sum_prod_type, Fintype.sum_prod_type]
  rfl

/-- A running sum `acc` over the steps below `N` that restarts from `0` at every multiple of 8 and otherwise adds
    `p n` to the value before: after step `n` it holds the sum of `p` over the steps since the last restart. -/
theorem restart_sum (N : ℕ) (p acc : ℕ → EReal)
    (h0 : ∀ n, n < N → n % 8 = 0 → acc n = 0 + p n)
    (hs : ∀ n, n + 1 < N → ¬(n + 1) % 8 = 0 → acc (n + 1) = acc n + p (n + 1)) :
    ∀ n, n < N → acc n = ∑ j ∈ Finset.range (n % 8 + 1), p (n - n % 8 + j) := by
  intro n
  induction n with
  | zero => intro hn; rw [h0 0 hn rfl]; simp
  | succ n ih =>
    intro hn
    by_cases h : (n + 1) % 8 = 0
    · rw [h0 _ hn h, h]; simp
    · rw [hs n hn h, ih (Nat.lt_of_succ_lt hn)]
      have e1 : (n + 1) % 8 = n % 8 + 1 := by omega
      have e2 : n + 1 - (n + 1) % 8 = n - n % 8 := by omega
      rw [e2, e1, Finset.sum_range_succ (fun j => p (n - n % 8 + j)) (n % 8 + 1)]
      congr 2
      omega

/-- At the last step of a group of 8 the running sum is the group's sum, indexed by the position in the group. -/
theorem group_sum (N : ℕ) (p acc : ℕ → EReal)
    (h0 : ∀ n, n < N → n % 8 = 0 → acc n = 0 + p n)
    (hs : ∀ n, n + 1 < N → ¬(n + 1) % 8 = 0 → acc (n + 1) = acc n + p (n + 1))
    (b : ℕ) (hb : 8 * b + 7 < N) : acc (8 * b + 7) = ∑ kt : Fin 8, p (8 * b + kt.val) := by
  rw [restart_sum N p acc h0 hs _ hb, show (8 * b + 7) % 8 + 1 = 8 by omega,
    show 8 * b + 7 - (8 * b + 7) % 8 = 8 * b by omega, Finset.sum_range]

end Cert.SumLaws

end
-- ==== Proof.Tiles.lean ====
/-
  The tiles the body sees, as entries of the arrays the region finds.

  Grid point `t` of the 2 × 8 grid is batch row `t / 8`, tile `t % 8`.  The four tiled inputs (span vectors, candidate
  embeddings, candidate counts, targets) are cut along the span axis in tiles of 256: row `r` of the tile at point `t` is
  span `256·(t % 8) + r` of batch row `t / 8`.  The five weight inputs have one block, the whole array, at every point.
-/
import proofs.«414483_j24790551232622_3_alg».proof.Proof.Gen.KernelIdeal.Frame
import proofs.«414483_j24790551232622_3_alg».proof.Proof.SumLaws
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.SumLaws

variable {F : FTy → Type} [FloatOps F]
variable (m : (ℓ : Loc nD τ sig) → Buf (Elt F) ℓ)

theorem lt16 (t : Fin cfg0.N) : t.val < 16 := lt_of_lt_of_eq t.isLt (show cfg0.N = 16 from N_0)

/-- The batch row of a grid point. -/
def rowOf (t : Fin cfg0.N) : Fin 2 := ⟨t.val / 8, by have := lt16 t; omega⟩
/-- The tile of a grid point. -/
def tileOf (t : Fin cfg0.N) : Fin 8 := ⟨t.val % 8, by omega⟩

/-- The printed index maps, decided once over the sixteen points. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 4) = t.val / 8 ∧ win0_1.index t (1 : Fin 4) = t.val % 8 ∧ win0_1.index t (2 : Fin 4) = 0 ∧ win0_1.index t (3 : Fin 4) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0 ∧ win0_7.index t (0 : Fin 1) = 0 ∧ win0_8.index t (0 : Fin 1) = 0
    ∧ (win0_9.index t (0 : Fin 3) = t.val / 8 ∧ win0_9.index t (1 : Fin 3) = 0 ∧ win0_9.index t (2 : Fin 3) = 0) :=
  (by decide +kernel : ∀ t : Fin grid0.N, _)

/-- Span vectors: entry (r, d) of the tile at `t`. -/
theorem lin_read (c : Dev nD) (t : Fin cfg0.N) (r : Fin 256) (d : Fin 2048) :
    (iblk m c 0 t : Vec F S1x256x2048 .bf16) (ix3 0 r d) = V m c main_v7 (ix3 (rowOf t) (spanOf (tileOf t) r) d) := by
  obtain ⟨⟨e0, e1, e2⟩, -⟩ := idx_facts t
  unfold iblk
  rw [View.read_apply]
  show V m c main_v7 _ = V m c main_v7 _
  congr 1
  funext a
  apply Fin.ext
  match a with
  | ⟨0, _⟩ => show win0_0.index t (0 : Fin 3) * 1 + 1 * (0 : ℕ) = t.val / 8; omega
  | ⟨1, _⟩ => show win0_0.index t (1 : Fin 3) * 256 + 1 * r.val = t.val % 8 * 256 + r.val; omega
  | ⟨2, _⟩ => show win0_0.index t (2 : Fin 3) * 2048 + 1 * d.val = d.val; omega

/-- Candidate embeddings: entry (r, s, e) of the tile at `t`. -/
theorem cand_read (c : Dev nD) (t : Fin cfg0.N) (r : Fin 256) (s : Fin 16) (e : Fin 300) :
    (iblk m c 1 t : Vec F S1x256x16x300 .bf16) (ix4 0 r s e) = V m c main_v15 (ix4 (rowOf t) (spanOf (tileOf t) r) s e) := by
  obtain ⟨-, ⟨e0, e1, e2, e3⟩, -⟩ := idx_facts t
  unfold iblk
  rw [View.read_apply]
  show V m c main_v15 _ = V m c main_v15 _
  congr 1
  funext a
  apply Fin.ext
  match a with
  | ⟨0, _⟩ => show win0_1.index t (0 : Fin 4) * 1 + 1 * (0 : ℕ) = t.val / 8; omega
  | ⟨1, _⟩ => show win0_1.index t (1 : Fin 4) * 256 + 1 * r.val = t.val % 8 * 256 + r.val; omega
  | ⟨2, _⟩ => show win0_1.index t (2 : Fin 4) * 16 + 1 * s.val = s.val; omega
  | ⟨3, _⟩ => show win0_1.index t (3 : Fin 4) * 300 + 1 * e.val = e.val; omega

/-- Candidate counts: entry r of the tile at `t`. -/
theorem len_read (c : Dev nD) (t : Fin cfg0.N) (r : Fin 256) :
    (iblk m c 2 t : Vec F S1x256x1 .i32) (ix3 0 r 0) = V m c main_v21 (ix3 (rowOf t) (spanOf (tileOf t) r) 0) := by
  obtain ⟨-, -, ⟨e0, e1, e2⟩, -⟩ := idx_facts t
  unfold iblk
  rw [View.read_apply]
  show V m c main_v21 _ = V m c main_v21 _
  congr 1
  funext a
  apply Fin.ext
  match a with
  | ⟨0, _⟩ => show win0_2.index t (0 : Fin 3) * 1 + 1 * (0 : ℕ) = t.val / 8; omega
  | ⟨1, _⟩ => show win0_2.index t (1 : Fin 3) * 256 + 1 * r.val = t.val % 8 * 256 + r.val; omega
  | ⟨2, _⟩ => show win0_2.index t (2 : Fin 3) * 1 + 1 * (0 : ℕ) = 0; omega

/-- Targets: entry (r, s) of the tile at `t`. -/
theorem tgt_read (c : Dev nD) (t : Fin cfg0.N) (r : Fin 256) (s : Fin 16) :
    (iblk m c 3 t : Vec F S1x256x16 .f32) (ix3 0 r s) = V m c main_v4 (ix3 (rowOf t) (spanOf (tileOf t) r) s) := by
  obtain ⟨-, -, -, ⟨e0, e1, e2⟩, -⟩ := idx_facts t
  unfold iblk
  rw [View.read_apply]
  show V m c main_v4 _ = V m c main_v4 _
  congr 1
  funext a
  apply Fin.ext
  match a with
  | ⟨0, _⟩ => show win0_3.index t (0 : Fin 3) * 1 + 1 * (0 : ℕ) = t.val / 8; omega
  | ⟨1, _⟩ => show win0_3.index t (1 : Fin 3) * 256 + 1 * r.val = t.val % 8 * 256 + r.val; omega
  | ⟨2, _⟩ => show win0_3.index t (2 : Fin 3) * 16 + 1 * s.val = s.val; omega

/-- The weight rows that meet the span vector: the block is the array. -/
theorem wa_read (c : Dev nD) (t : Fin cfg0.N) (d : Fin 2048) (h : Fin 512) :
    (iblk m c 4 t : Vec F S2048x512 .bf16) (ix2 d h) = V m c main_v17 (ix2 d h) := by
  obtain ⟨-, -, -, -, ⟨e0, e1⟩, -⟩ := idx_facts t
  unfold iblk
  rw [View.read_apply]
  show V m c main_v17 _ = V m c main_v17 _
  congr 1
  funext a
  apply Fin.ext
  match a with
  | ⟨0, _⟩ => show win0_4.index t (0 : Fin 2) * 2048 + 1 * d.val = d.val; omega
  | ⟨1, _⟩ => show win0_4.index t (1 : Fin 2) * 512 + 1 * h.val = h.val; omega

/-- The weight rows that meet the candidate's embedding. -/
theorem wb_read (c : Dev nD) (t : Fin cfg0.N) (e : Fin 300) (h : Fin 512) :
    (iblk m c 5 t : Vec F S300x512 .bf16) (ix2 e h) = V m c main_v19 (ix2 e h) := by
  obtain ⟨-, -, -, -, -, ⟨e0, e1⟩, -⟩ := idx_facts t
  unfold iblk
  rw [View.read_apply]
  show V m c main_v19 _ = V m c main_v19 _
  congr 1
  funext a
  apply Fin.ext
  match a with
  | ⟨0, _⟩ => show win0_5.index t (0 : Fin 2) * 300 + 1 * e.val = e.val; omega
  | ⟨1, _⟩ => show win0_5.index t (1 : Fin 2) * 512 + 1 * h.val = h.val; omega

/-- The first layer's bias. -/
theorem b1_read (c : Dev nD) (t : Fin cfg0.N) (h : Fin 512) :
    (iblk m c 6 t : Vec F S512 .f32) (ix1 h) = V m c main_arg4 (ix1 h) := by
  obtain ⟨-, -, -, -, -, -, e0, -⟩ := idx_facts t
  unfold iblk
  rw [View.read_apply]
  show V m c main_arg4 _ = V m c main_arg4 _
  congr 1
  funext a
  apply Fin.ext
  match a with
  | ⟨0, _⟩ => show win0_6.index t (0 : Fin 1) * 512 + 1 * h.val = h.val; omega

/-- The second layer's weights. -/
theorem w2_read (c : Dev nD) (t : Fin cfg0.N) (h : Fin 512) :
    (iblk m c 7 t : Vec F S512 .f32) (ix1 h) = V m c main_v20 (ix1 h) := by
  obtain ⟨-, -, -, -, -, -, -, e0, -⟩ := idx_facts t
  unfold iblk
  rw [View.read_apply]
  show V m c main_v20 _ = V m c main_v20 _
  congr 1
  funext a
  apply Fin.ext
  match a with
  | ⟨0, _⟩ => show win0_7.index t (0 : Fin 1) * 512 + 1 * h.val = h.val; omega

/-- The second layer's bias. -/
theorem b2_read (c : Dev nD) (t : Fin cfg0.N) :
    (iblk m c 8 t : Vec F S1 .f32) (ix1 0) = V m c main_arg6 (ix1 0) := by
  obtain ⟨-, -, -, -, -, -, -, -, e0, -⟩ := idx_facts t
  unfold iblk
  rw [View.read_apply]
  show V m c main_arg6 _ = V m c main_arg6 _
  congr 1
  funext a
  apply Fin.ext
  match a with
  | ⟨0, _⟩ => show win0_8.index t (0 : Fin 1) * 1 + 1 * (0 : ℕ) = 0; omega

end Cert.KernelIdeal.Tiles

end
-- ==== Proof.Spec.lean ====
/-
  The result both programs compute, written once over the extended reals, index by index.

  For a batch row `b`, a selected span `k` and a candidate slot `c`:
    hidden h  =  max ( Σ_d lin d · wa d h  +  Σ_e cand e · wb e h  +  b1 h , 0 )      (the first layer, ReLU'd;
                 the span vector and the candidate's embedding meet two row blocks of ONE weight matrix)
    score     =  Σ_h hidden h · w2 h  +  b2
    term      =  mask c len · ( softplus score − score · target )
  and the loss is the sum of `term` over every (b, k, c).  `softplus x = max x 0 + log(1 + e^(−|x|))`,
  with `|x| = max x (−x)`; `mask c len` is 1 when slot `c` lies below the candidate count `len` and 0 otherwise.
-/
import Idealize.ShloMosaic.PureOps.Ideal
import Idealize.ShloMosaic.Lib.ValueIdx

noncomputable section

open Idealize.ShloMosaic

namespace Cert.Spec

/-- `log(1 + e^(−|x|)) + max x 0`: the numerically stable softplus, as an extended real. -/
def softplus (x : EReal) : EReal := max x 0 + Ideal.log1p (Ideal.exp (-(max x (-x))))

/-- 1 when candidate slot `c` is below the count `len` (signed compare of 32-bit words), else 0. -/
def mask (c : Fin 16) (len : BitVec 32) : EReal :=
  if IntOp.cmpi .slt (BitVec.ofNat 32 c.val) len = 1#1 then 1 else 0

/-- Hidden unit `h` of the first layer after the ReLU. -/
def hidden (lin : Fin 2048 → EReal) (cand : Fin 300 → EReal) (wa : Fin 2048 → Fin 512 → EReal)
    (wb : Fin 300 → Fin 512 → EReal) (b1 : Fin 512 → EReal) (h : Fin 512) : EReal :=
  max ((∑ d : Fin 2048, lin d * wa d h) + (∑ e : Fin 300, cand e * wb e h) + b1 h) 0

/-- The second layer's logit. -/
def score (lin : Fin 2048 → EReal) (cand : Fin 300 → EReal) (wa : Fin 2048 → Fin 512 → EReal)
    (wb : Fin 300 → Fin 512 → EReal) (b1 : Fin 512 → EReal) (w2 : Fin 512 → EReal) (b2 : EReal) : EReal :=
  (∑ h : Fin 512, hidden lin cand wa wb b1 h * w2 h) + b2

/-- One candidate's masked binary cross-entropy with logits. -/
def term (len : BitVec 32) (t : EReal) (c : Fin 16) (s : EReal) : EReal :=
  mask c len * (softplus s - s * t)

end Cert.Spec

end
-- ==== Proof.PayloadIdeal.lean ====
/-
  The kernel body's arithmetic read at the ideal values, index by index: the logit block, the tile's
  partial loss added to the running accumulator, and the accumulator's zero start.
-/
import proofs.«414483_j24790551232622_3_alg».proof.Proof.Gen.KernelIdeal.Skeleton
import proofs.«414483_j24790551232622_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Cert.KernelIdeal Cert.KernelIdeal.Gen Idealize.ShloMosaic Idealize.ShloMosaic.ValueIdx

namespace Cert.KernelIdeal.Pay

/-- The accumulator's start: the zero word broadcast and cast. -/
theorem zero_apply (j : S1x1x1.Idx) : k0_pay2 (F := Ideal) j = 0 := by
  unfold k0_pay2 shapeCast
  exact Ideal.ofBits_zero_f32

/-! The contraction A: operand and result indices of the matmul record, axis by axis. -/

theorem lhsA_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhsA_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhsA_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhsA_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The product into a zero accumulator, read at row `p` and column `h`: the sum over the contraction coordinate. -/
theorem matmulA_apply (a : FVec Ideal S256x2048 .bf16) (b : FVec Ideal S2048x512 .bf16) (p : Fin 256) (h : Fin 512) :
    matmul dot_S256x2048_S2048x512_S256x512_1_0_0_1_n_n none a b (constant (F := Ideal) S256x512 .f32 0x00000000#32) (ix2 p h)
      = ∑ k : Fin 2048, a (ix2 p k) * b (ix2 k h) := by
  simp only [matmul]
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 p h) ((contrEquiv1 dot_S256x2048_S2048x512_S256x512_1_0_0_1_n_n 2048 rfl rfl).symm k) = ix2 p k := funext fun x => Fin.ext (by
    match x with
    | ⟨0, _⟩ => exact lhsA_0 _ _
    | ⟨1, _⟩ => exact (lhsA_1 _ _).trans hk)
  have er : dot_S256x2048_S2048x512_S256x512_1_0_0_1_n_n.rhsIdx (ix2 p h) ((contrEquiv1 dot_S256x2048_S2048x512_S256x512_1_0_0_1_n_n 2048 rfl rfl).symm k) = ix2 k h := funext fun x => Fin.ext (by
    match x with
    | ⟨0, _⟩ => exact (rhsA_0 _ _).trans hk
    | ⟨1, _⟩ => exact rhsA_1 _ _)
  rw [el, er]

/-! The contraction B: operand and result indices of the matmul record, axis by axis. -/

theorem lhsB_0 (i : S4096x512.Idx) (q : dot_S4096x300_S300x512_S4096x512_1_0_0_1_n_n.contr.Idx) :
    (dot_S4096x300_S300x512_S4096x512_1_0_0_1_n_n.lhsIdx i q 0).val = (i 0).val := by
  unfold DotDims.lhsIdx
  rw [dif_neg (show ¬(0 : Fin S4096x300.rank) ∈ dot_S4096x300_S300x512_S4096x512_1_0_0_1_n_n.lhsBatch by decide), dif_pos (show (0 : Fin S4096x300.rank) ∈ dot_S4096x300_S300x512_S4096x512_1_0_0_1_n_n.lhsNonContracting by decide)]
  rfl
theorem lhsB_1 (i : S4096x512.Idx) (q : dot_S4096x300_S300x512_S4096x512_1_0_0_1_n_n.contr.Idx) :
    (dot_S4096x300_S300x512_S4096x512_1_0_0_1_n_n.lhsIdx i q 1).val = (q ⟨0, by decide⟩).val :=
  dot_S4096x300_S300x512_S4096x512_1_0_0_1_n_n.lhsIdx_val_of_single rfl i q
theorem rhsB_0 (i : S4096x512.Idx) (q : dot_S4096x300_S300x512_S4096x512_1_0_0_1_n_n.contr.Idx) :
    (dot_S4096x300_S300x512_S4096x512_1_0_0_1_n_n.rhsIdx i q 0).val = (q ⟨0, by decide⟩).val :=
  dot_S4096x300_S300x512_S4096x512_1_0_0_1_n_n.rhsIdx_val_of_single rfl i q
theorem rhsB_1 (i : S4096x512.Idx) (q : dot_S4096x300_S300x512_S4096x512_1_0_0_1_n_n.contr.Idx) :
    (dot_S4096x300_S300x512_S4096x512_1_0_0_1_n_n.rhsIdx i q 1).val = (i 1).val := by
  unfold DotDims.rhsIdx
  rw [dif_neg (show ¬(1 : Fin S300x512.rank) ∈ dot_S4096x300_S300x512_S4096x512_1_0_0_1_n_n.rhsBatch by decide), dif_pos (show (1 : Fin S300x512.rank) ∈ dot_S4096x300_S300x512_S4096x512_1_0_0_1_n_n.rhsNonContracting by decide)]
  rfl

/-- The product into a zero accumulator, read at row `p` and column `h`: the sum over the contraction coordinate. -/
theorem matmulB_apply (a : FVec Ideal S4096x300 .bf16) (b : FVec Ideal S300x512 .bf16) (p : Fin 4096) (h : Fin 512) :
    matmul dot_S4096x300_S300x512_S4096x512_1_0_0_1_n_n none a b (constant (F := Ideal) S4096x512 .f32 0x00000000#32) (ix2 p h)
      = ∑ k : Fin 300, a (ix2 p k) * b (ix2 k h) := by
  simp only [matmul]
  rw [Ideal.matmul_constant_zero_apply, ← Equiv.sum_comp (contrEquiv1 dot_S4096x300_S300x512_S4096x512_1_0_0_1_n_n 300 rfl rfl).symm]
  refine Finset.sum_congr rfl fun k _ => ?_
  have hk := contrEquiv1_symm_val dot_S4096x300_S300x512_S4096x512_1_0_0_1_n_n 300 rfl rfl k
  have el : dot_S4096x300_S300x512_S4096x512_1_0_0_1_n_n.lhsIdx (ix2 p h) ((contrEquiv1 dot_S4096x300_S300x512_S4096x512_1_0_0_1_n_n 300 rfl rfl).symm k) = ix2 p k := funext fun x => Fin.ext (by
    match x with
    | ⟨0, _⟩ => exact lhsB_0 _ _
    | ⟨1, _⟩ => exact (lhsB_1 _ _).trans hk)
  have er : dot_S4096x300_S300x512_S4096x512_1_0_0_1_n_n.rhsIdx (ix2 p h) ((contrEquiv1 dot_S4096x300_S300x512_S4096x512_1_0_0_1_n_n 300 rfl rfl).symm k) = ix2 k h := funext fun x => Fin.ext (by
    match x with
    | ⟨0, _⟩ => exact (rhsB_0 _ _).trans hk
    | ⟨1, _⟩ => exact rhsB_1 _ _)
  rw [el, er]

/-! The layout operations of the payloads, each read at an index written by its coordinates. -/

section Layout
variable {α : Type}

/-- Row `16·r + c` of the candidate block flattened to 4096 rows. -/
def row (r : Fin 256) (c : Fin 16) : Fin 4096 := ⟨r.val * 16 + c.val, by omega⟩

/-- `[256, 16, n]` flattened to `[4096, n]`: row `16·r + c` is the old `(r, c)`. -/
theorem cast_flat_apply {n : ℕ} (x : (⟨3, ![256, 16, n]⟩ : Shape).Idx → α)
    (h : (⟨3, ![256, 16, n]⟩ : Shape).ShapeCasts ⟨2, ![4096, n]⟩) (r : Fin 256) (c : Fin 16) (e : Fin n) :
    shapeCast ⟨2, ![4096, n]⟩ x h (ix2 (row r c) e) = x (ix3 r c e) :=
  shapeCast_apply x h _ _ (by
    rw [Shape.rowMajor_val_three, Shape.rowMajor_val_two]
    rfl)

/-- `[4096, n]` split back to `[256, 16, n]`. -/
theorem cast_unflat_apply {n : ℕ} (x : (⟨2, ![4096, n]⟩ : Shape).Idx → α)
    (h : (⟨2, ![4096, n]⟩ : Shape).ShapeCasts ⟨3, ![256, 16, n]⟩) (r : Fin 256) (c : Fin 16) (e : Fin n) :
    shapeCast ⟨3, ![256, 16, n]⟩ x h (ix3 r c e) = x (ix2 (row r c) e) :=
  shapeCast_apply x h _ _ (by
    rw [Shape.rowMajor_val_three, Shape.rowMajor_val_two]
    rfl)

/-- `[a, b]` with a unit axis put in the middle. -/
theorem cast_mid_unit_apply {a b : ℕ} (x : (⟨2, ![a, b]⟩ : Shape).Idx → α)
    (h : (⟨2, ![a, b]⟩ : Shape).ShapeCasts ⟨3, ![a, 1, b]⟩) (r : Fin a) (u : Fin 1) (k : Fin b) :
    shapeCast ⟨3, ![a, 1, b]⟩ x h (ix3 r u k) = x (ix2 r k) :=
  shapeCast_apply x h _ _ (by
    have hu : u.val = 0 := by omega
    rw [Shape.rowMajor_val_three, Shape.rowMajor_val_two]
    show r.val * b + k.val = (r.val * 1 + u.val) * b + k.val
    rw [hu, Nat.mul_one, Nat.add_zero])

/-- A vector `[b]` under two leading unit axes. -/
theorem cast_vec_11_apply {b : ℕ} (x : (⟨1, ![b]⟩ : Shape).Idx → α)
    (h : (⟨1, ![b]⟩ : Shape).ShapeCasts ⟨3, ![1, 1, b]⟩) (u u' : Fin 1) (k : Fin b) :
    shapeCast ⟨3, ![1, 1, b]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * b + k.val
    rw [hu, hu']
    simp)

/-- `[256, 1, 512]` broadcast over the 16 slots. -/
theorem bcast_mid_apply (x : (⟨3, ![256, 1, 512]⟩ : Shape).Idx → α)
    (h : (⟨3, ![256, 1, 512]⟩ : Shape).Broadcasts ⟨3, ![256, 16, 512]⟩) (r : Fin 256) (c : Fin 16) (k : Fin 512) :
    broadcastTo ⟨3, ![256, 16, 512]⟩ x h (ix3 r c k) = x (ix3 r (0 : Fin 1) k) := by
  refine broadcastTo_apply x h _ _ fun ax => ?_
  match ax with
  | ⟨0, _⟩ => show r.val = if (256 : ℕ) = 1 then 0 else r.val; rw [if_neg (by decide)]
  | ⟨1, _⟩ => show 0 = if (1 : ℕ) = 1 then 0 else c.val; rw [if_pos rfl]
  | ⟨2, _⟩ => show k.val = if (512 : ℕ) = 1 then 0 else k.val; rw [if_neg (by decide)]

/-- `[1, 1, 512]` broadcast over rows and slots. -/
theorem bcast_row_apply (x : (⟨3, ![1, 1, 512]⟩ : Shape).Idx → α)
    (h : (⟨3, ![1, 1, 512]⟩ : Shape).Broadcasts ⟨3, ![256, 16, 512]⟩) (r : Fin 256) (c : Fin 16) (k : Fin 512) :
    broadcastTo ⟨3, ![256, 16, 512]⟩ x h (ix3 r c k) = x (ix3 (0 : Fin 1) (0 : Fin 1) k) := by
  refine broadcastTo_apply x h _ _ fun ax => ?_
  match ax with
  | ⟨0, _⟩ => show 0 = if (1 : ℕ) = 1 then 0 else r.val; rw [if_pos rfl]
  | ⟨1, _⟩ => show 0 = if (1 : ℕ) = 1 then 0 else c.val; rw [if_pos rfl]
  | ⟨2, _⟩ => show k.val = if (512 : ℕ) = 1 then 0 else k.val; rw [if_neg (by decide)]

/-- The one entry of a `[1]` vector. -/
theorem extract0_apply (x : (⟨1, ![1]⟩ : Shape).Idx → α) (h : ∀ a, (![0] : Fin 1 → ℕ) a < (⟨1, ![1]⟩ : Shape).size a) :
    extractAt ![0] x h = x (ix1 (0 : Fin 1)) :=
  congrArg x (funext fun a => match a with | ⟨0, _⟩ => rfl)

end Layout

/-- The sum over the 512 lanes, read at `(r, c)`. -/
theorem lane_sum_apply (x : FVec Ideal S256x16x512 .f32) (h : S256x16x512.Reduces [2] S256x16) (hφ : FKind.Formats .f32)
    (hacc : (0x00000000#32 : BitVec 32) = 0x00000000#32) (r : Fin 256) (c : Fin 16) :
    multiReduction .add [2] S256x16 x 0x00000000#32 h hφ hacc (ix2 r c) = ∑ k : Fin 512, x (ix3 r c k) := by
  refine (Ideal.multiReduction_add_single x 0x00000000#32 h hφ hacc (ix2 r c)).trans ?_
  refine Finset.sum_congr rfl fun k _ => congrArg x ?_
  funext a
  match a with
  | ⟨0, _⟩ => rfl
  | ⟨1, _⟩ => rfl
  | ⟨2, _⟩ => rfl

/-! The logit block. -/

/-- The logit payload at `(r, c)`, as the kernel associates it: the candidate's part first, then the span's. -/
theorem pay3_eq (v3 : Vec Ideal S1x256x2048 .bf16) (v5 : Vec Ideal S2048x512 .bf16) (v8 : Vec Ideal S1x256x16x300 .bf16)
    (v11 : Vec Ideal S300x512 .bf16) (v15 v24 : Vec Ideal S512 .f32) (v30 : Vec Ideal S1 .f32) (r : Fin 256) (c : Fin 16) :
    k0_pay3 (F := Ideal) v3 v5 v8 v11 v15 v24 v30 (ix2 r c)
      = (∑ h : Fin 512, max (((∑ e : Fin 300, v8 (ix4 0 r c e) * v11 (ix2 e h))
            + (∑ d : Fin 2048, v3 (ix3 0 r d) * v5 (ix2 d h))) + v15 (ix1 h)) 0 * v24 (ix1 h)) + v30 (ix1 0) := by
  unfold k0_pay3
  simp only [addf_apply, broadcast_apply, extract0_apply]
  rw [lane_sum_apply]
  simp only [addf_apply, broadcast_apply, mulf_apply, maximumf_apply, bcast_row_apply, bcast_mid_apply,
    cast_vec_11_apply, cast_mid_unit_apply, cast_unflat_apply, matmulA_apply, matmulB_apply, cast_flat_apply,
    shapeCast_1abc_abc_apply, shapeCast_1ab_ab_apply, shapeCast_self, Ideal.ofBits_def, Ideal.ofBits_zero_f32]

theorem score_apply (v3 : Vec Ideal S1x256x2048 .bf16) (v5 : Vec Ideal S2048x512 .bf16) (v8 : Vec Ideal S1x256x16x300 .bf16)
    (v11 : Vec Ideal S300x512 .bf16) (v15 v24 : Vec Ideal S512 .f32) (v30 : Vec Ideal S1 .f32) (r : Fin 256) (c : Fin 16) :
    k0_pay3 (F := Ideal) v3 v5 v8 v11 v15 v24 v30 (ix2 r c)
      = Cert.Spec.score (fun d => v3 (ix3 0 r d)) (fun e => v8 (ix4 0 r c e)) (fun d h => v5 (ix2 d h)) (fun e h => v11 (ix2 e h))
          (fun h => v15 (ix1 h)) (fun h => v24 (ix1 h)) (v30 (ix1 0)) := by
  rw [pay3_eq]
  unfold Cert.Spec.score Cert.Spec.hidden
  refine congrArg (· + v30 (ix1 0)) (Finset.sum_congr rfl fun h _ => ?_)
  rw [add_comm (∑ e : Fin 300, v8 (ix4 0 r c e) * v11 (ix2 e h))]

/-! The partial loss of one tile. -/

section Units
variable {α : Type}

/-- The index sets of `[1]`, `[1, 1]` and `[1, 1, 1]` have one element each. -/
theorem uniq1 (j k : (⟨1, ![1]⟩ : Shape).Idx) : j = k :=
  funext fun a => match a with | ⟨0, _⟩ => Subsingleton.elim (α := Fin 1) _ _
theorem uniq2 (j k : (⟨2, ![1, 1]⟩ : Shape).Idx) : j = k :=
  funext fun a => match a with
    | ⟨0, _⟩ => Subsingleton.elim (α := Fin 1) _ _
    | ⟨1, _⟩ => Subsingleton.elim (α := Fin 1) _ _
theorem uniq3 (j k : (⟨3, ![1, 1, 1]⟩ : Shape).Idx) : j = k :=
  funext fun a => match a with
    | ⟨0, _⟩ => Subsingleton.elim (α := Fin 1) _ _
    | ⟨1, _⟩ => Subsingleton.elim (α := Fin 1) _ _
    | ⟨2, _⟩ => Subsingleton.elim (α := Fin 1) _ _

theorem cast_11_111_apply (x : (⟨2, ![1, 1]⟩ : Shape).Idx → α) (h : (⟨2, ![1, 1]⟩ : Shape).ShapeCasts ⟨3, ![1, 1, 1]⟩)
    (j : (⟨3, ![1, 1, 1]⟩ : Shape).Idx) : shapeCast ⟨3, ![1, 1, 1]⟩ x h j = x (ix2 (0 : Fin 1) (0 : Fin 1)) := by
  unfold shapeCast
  exact congrArg x (uniq2 _ _)
theorem cast_111_11_apply (x : (⟨3, ![1, 1, 1]⟩ : Shape).Idx → α) (h : (⟨3, ![1, 1, 1]⟩ : Shape).ShapeCasts ⟨2, ![1, 1]⟩)
    (j : (⟨2, ![1, 1]⟩ : Shape).Idx) : shapeCast ⟨2, ![1, 1]⟩ x h j = x (ix3 (0 : Fin 1) (0 : Fin 1) (0 : Fin 1)) := by
  unfold shapeCast
  exact congrArg x (uniq3 _ _)
theorem cast_1_111_apply (x : (⟨1, ![1]⟩ : Shape).Idx → α) (h : (⟨1, ![1]⟩ : Shape).ShapeCasts ⟨3, ![1, 1, 1]⟩)
    (j : (⟨3, ![1, 1, 1]⟩ : Shape).Idx) : shapeCast ⟨3, ![1, 1, 1]⟩ x h j = x (ix1 (0 : Fin 1)) := by
  unfold shapeCast
  exact congrArg x (uniq1 _ _)
theorem extract000_apply (x : (⟨3, ![1, 1, 1]⟩ : Shape).Idx → α)
    (h : ∀ a, (![0, 0, 0] : Fin 3 → ℕ) a < (⟨3, ![1, 1, 1]⟩ : Shape).size a) :
    extractAt ![0, 0, 0] x h = x (ix3 (0 : Fin 1) (0 : Fin 1) (0 : Fin 1)) :=
  congrArg x (uniq3 _ _)

/-- `[256, 1]` broadcast over the 16 slots. -/
theorem bcast_col_apply (x : (⟨2, ![256, 1]⟩ : Shape).Idx → α)
    (h : (⟨2, ![256, 1]⟩ : Shape).Broadcasts ⟨2, ![256, 16]⟩) (r : Fin 256) (c : Fin 16) :
    broadcastTo ⟨2, ![256, 16]⟩ x h (ix2 r c) = x (ix2 r (0 : Fin 1)) := by
  refine broadcastTo_apply x h _ _ fun ax => ?_
  match ax with
  | ⟨0, _⟩ => show r.val = if (256 : ℕ) = 1 then 0 else r.val; rw [if_neg (by decide)]
  | ⟨1, _⟩ => show 0 = if (1 : ℕ) = 1 then 0 else c.val; rw [if_pos rfl]

end Units

/-- The slot number along the second axis. -/
theorem iota_col_apply (h : S256x16.Iotas .tc 32 [1]) (r : Fin 256) (c : Fin 16) :
    iota .tc S256x16 32 [1] h (ix2 r c) = BitVec.ofNat 32 c.val :=
  iota_single_apply .tc S256x16 32 1 h (ix2 r c)

/-- A signed comparison of integer vectors compares the elements. -/
theorem cmpi_apply {s : Shape} {w : ℕ} (p : CmpIPredicate) (x y : IVec s w) (i : s.Idx) :
    cmpi p x y i = IntOp.cmpi p (x i) (y i) := rfl

/-- The whole tile summed into one number. -/
theorem total_sum_apply (x : FVec Ideal S1x256x16 .f32) (h : S1x256x16.Reduces [1, 2] S1) (hφ : FKind.Formats .f32)
    (hacc : (0x00000000#32 : BitVec 32) = 0x00000000#32) (j : S1.Idx) :
    multiReduction .add [1, 2] S1 x 0x00000000#32 h hφ hacc j = ∑ y : S1x256x16.Idx, x y :=
  Ideal.multiReduction_add_total x 0x00000000#32 h (fun b => match b with | ⟨0, _⟩ => rfl) hφ hacc j

/-- A bit widened to a word and read as a signed integer is the real number 1 or 0. -/
theorem bit_to_real (b : BitVec 1) :
    (FloatOps.sitofp (F := Ideal) .f32 (b.setWidth 32) : EReal) = if b = 1#1 then 1 else 0 := by
  rcases BitVec.eq_zero_or_eq_one b with h | h <;> subst h
  · show (((BitVec.setWidth 32 0#1).toInt : ℝ) : EReal) = _
    rw [show (BitVec.setWidth 32 0#1).toInt = 0 by decide, if_neg (by decide)]
    simp
  · show (((BitVec.setWidth 32 1#1).toInt : ℝ) : EReal) = _
    rw [show (BitVec.setWidth 32 1#1).toInt = 1 by decide, if_pos rfl]
    simp

/-- The stable softplus as the kernel spells it: nothing differs from itself, so the guard takes the second branch. -/
theorem softplus_eq (x : EReal) :
    Scalar.select (Ideal.cmp .one (x - 0) (x - 0)) (x + 0)
        (max x 0 + Ideal.log1p (Ideal.exp (0 - max (x - 0) (-(x - 0))))) = Cert.Spec.softplus x := by
  have hc : Ideal.cmp .one (x - 0) (x - 0) = 0#1 := by simp [Ideal.cmp]
  rw [hc, select_zero, sub_zero, zero_sub]
  rfl

/-- The exponential, `log(1 + ·)` and the absolute value of a vector, at an index. -/
theorem exp_apply {s : Shape} {φ : FTy} (a : FVec Ideal s φ) (i : s.Idx) : Idealize.ShloMosaic.exp a i = Ideal.exp (a i) := rfl
theorem log1p_apply {s : Shape} {φ : FTy} (a : FVec Ideal s φ) (i : s.Idx) : Idealize.ShloMosaic.log1p a i = Ideal.log1p (a i) := rfl
theorem absf_apply {s : Shape} {φ : FTy} (a : FVec Ideal s φ) (i : s.Idx) : Idealize.ShloMosaic.absf a i = max (a i) (-(a i)) := rfl

theorem partial_apply (v33 : FVec Ideal S256x16 .f32) (v34 : Vec Ideal S1x256x1 .i32) (v41 : Vec Ideal S1x256x16 .f32)
    (v64 : Vec Ideal S1x1x1 .f32) (j : S1x1x1.Idx) :
    k0_pay1 (F := Ideal) v33 v34 v41 v64 j
      = v64 (ix3 0 0 0) + ∑ y : S1x256x16.Idx,
          Cert.Spec.term (v34 (ix3 0 (y 1) 0)) (v41 y) (y 2) (v33 (ix2 (y 1) (y 2))) := by
  unfold k0_pay1
  simp only [cast_11_111_apply, addf_apply, cast_111_11_apply, broadcast_apply, extract000_apply, cast_1_111_apply]
  rw [total_sum_apply]
  refine congrArg (v64 (ix3 0 0 0) + ·) (Finset.sum_congr rfl fun y _ => ?_)
  obtain ⟨r, c, rfl⟩ : ∃ (r : Fin 256) (c : Fin 16), y = ix3 (0 : Fin 1) r c :=
    ⟨y 1, y 2, funext fun a => match a with
      | ⟨0, _⟩ => Subsingleton.elim (α := Fin 1) _ _
      | ⟨1, _⟩ => rfl
      | ⟨2, _⟩ => rfl⟩
  rw [shapeCast_ab_1ab_apply]
  show _ = Cert.Spec.term (v34 (ix3 0 r 0)) (v41 (ix3 0 r c)) c (v33 (ix2 r c))
  simp only [mulf_apply, subf_apply, addf_apply, maximumf_apply, select_apply, cmpf_apply, sitofp_apply, extui_apply,
    cmpi_apply, exp_apply, log1p_apply, absf_apply, broadcast_apply, iota_col_apply, bcast_col_apply,
    shapeCast_1ab_ab_apply, Ideal.ofBits_def, Ideal.ofBits_zero_f32, Ideal.cmpf_def]
  rw [bit_to_real, softplus_eq, iota_col_apply]
  rfl

end Cert.KernelIdeal.Pay

end
-- ==== Proof.Loss.lean ====
/-
  The kernel's result array, read at the extended reals.

  Each grid point adds its tile's partial loss into the batch row's cell, the cell restarting from 0 at the row's first
  tile; the cell is written back to the [2, 1, 1] result array after the row's last tile.  So entry b of that array ends at
  the sum, over the eight tiles of row b, of the tile's partial loss, and the partial loss of a tile is the sum over its
  256 × 16 (span, slot) pairs of the masked cross-entropy term of `Cert.Spec`, read off the arrays the region finds.
  The two host lines after the region sum the two entries from 0 and multiply by the constant 1.
-/
import proofs.«414483_j24790551232622_3_alg».proof.Proof.Cell
import proofs.«414483_j24790551232622_3_alg».proof.Proof.Tiles
import proofs.«414483_j24790551232622_3_alg».proof.Proof.Spec
import proofs.«414483_j24790551232622_3_alg».proof.Proof.SumLaws
import proofs.«414483_j24790551232622_3_alg».proof.Proof.PayloadIdeal
import Idealize.ShloMosaic.Lib.Pipeline.Value
import Idealize.ShloMosaic.Lib.ValueIdx
import Idealize.ShloMosaic.Lib.ValueIdxRank1
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.SumLaws Cert.KernelIdeal.Tiles

variable (m : (ℓ : Loc nD τ sig) → Buf (Elt Ideal) ℓ) (ρ : Dev nD → PrngReg)

/-- One candidate's masked cross-entropy term at (batch row b, span k, slot s), over the arrays the region finds. -/
def termAt (c : Dev nD) (b : Fin 2) (k : Fin 2048) (s : Fin 16) : EReal :=
  Cert.Spec.term (V m c main_v21 (ix3 b k 0)) (V m c main_v4 (ix3 b k s)) s
    (Cert.Spec.score (fun d => V m c main_v7 (ix3 b k d)) (fun e => V m c main_v15 (ix4 b k s e))
      (fun d h => V m c main_v17 (ix2 d h)) (fun e h => V m c main_v19 (ix2 e h)) (fun h => V m c main_arg4 (ix1 h))
      (fun h => V m c main_v20 (ix1 h)) (V m c main_arg6 (ix1 0)))

/-- The partial loss of a tile, from the nine blocks the body loads: the terms of its 256 spans and 16 slots, summed. -/
def partOf (x0 : Vec Ideal S1x256x2048 .bf16) (x1 : Vec Ideal S1x256x16x300 .bf16) (x2 : Vec Ideal S1x256x1 .i32) (x3 : Vec Ideal S1x256x16 .f32) (x4 : Vec Ideal S2048x512 .bf16) (x5 : Vec Ideal S300x512 .bf16) (x6 : Vec Ideal S512 .f32) (x7 : Vec Ideal S512 .f32) (x8 : Vec Ideal S1 .f32) : EReal :=
  ∑ y : S1x256x16.Idx, Cert.Spec.term (x2 (ix3 0 (y 1) 0)) (x3 y) (y 2)
    (Cert.Spec.score (fun d => x0 (ix3 0 (y 1) d)) (fun e => x1 (ix4 0 (y 1) (y 2) e)) (fun d h => x4 (ix2 d h))
      (fun e h => x5 (ix2 e h)) (fun h => x6 (ix1 h)) (fun h => x7 (ix1 h)) (x8 (ix1 0)))

/-- The update adds the tile's partial loss to the old cell. -/
theorem update_of (x0 : Vec Ideal S1x256x2048 .bf16) (x1 : Vec Ideal S1x256x16x300 .bf16) (x2 : Vec Ideal S1x256x1 .i32) (x3 : Vec Ideal S1x256x16 .f32) (x4 : Vec Ideal S2048x512 .bf16) (x5 : Vec Ideal S300x512 .bf16) (x6 : Vec Ideal S512 .f32) (x7 : Vec Ideal S512 .f32) (x8 : Vec Ideal S1 .f32) (xo : Vec Ideal S1x1x1 .f32) (j : S1x1x1.Idx) :
    k0_pay1 (F := Ideal) (k0_pay3 x0 x4 x1 x5 x6 x7 x8) x2 x3 xo j = xo (ix3 0 0 0) + partOf x0 x1 x2 x3 x4 x5 x6 x7 x8 := by
  rw [Cert.KernelIdeal.Pay.partial_apply]
  unfold partOf
  refine congrArg (xo (ix3 0 0 0) + ·) (Finset.sum_congr rfl fun y _ => ?_)
  exact congrArg (Cert.Spec.term (x2 (ix3 0 (y 1) 0)) (x3 y) (y 2))
    (Cert.KernelIdeal.Pay.score_apply x0 x4 x1 x5 x6 x7 x8 (y 1) (y 2))

/-- The nine blocks at grid point `t`, each at its literal type. -/
abbrev B0 (c : Dev nD) (t : Fin cfg0.N) : Vec Ideal S1x256x2048 .bf16 := iblk m c 0 t
abbrev B1 (c : Dev nD) (t : Fin cfg0.N) : Vec Ideal S1x256x16x300 .bf16 := iblk m c 1 t
abbrev B2 (c : Dev nD) (t : Fin cfg0.N) : Vec Ideal S1x256x1 .i32 := iblk m c 2 t
abbrev B3 (c : Dev nD) (t : Fin cfg0.N) : Vec Ideal S1x256x16 .f32 := iblk m c 3 t
abbrev B4 (c : Dev nD) (t : Fin cfg0.N) : Vec Ideal S2048x512 .bf16 := iblk m c 4 t
abbrev B5 (c : Dev nD) (t : Fin cfg0.N) : Vec Ideal S300x512 .bf16 := iblk m c 5 t
abbrev B6 (c : Dev nD) (t : Fin cfg0.N) : Vec Ideal S512 .f32 := iblk m c 6 t
abbrev B7 (c : Dev nD) (t : Fin cfg0.N) : Vec Ideal S512 .f32 := iblk m c 7 t
abbrev B8 (c : Dev nD) (t : Fin cfg0.N) : Vec Ideal S1 .f32 := iblk m c 8 t

/-- The partial loss of the tile at grid point `t`. -/
def part (c : Dev nD) (t : Fin cfg0.N) : EReal :=
  partOf (B0 m c t) (B1 m c t) (B2 m c t) (B3 m c t) (B4 m c t) (B5 m c t) (B6 m c t) (B7 m c t) (B8 m c t)

theorem term_congr {a a' : BitVec 32} {b b' s s' : EReal} (c : Fin 16) (h1 : a = a') (h2 : b = b') (h3 : s = s') :
    Cert.Spec.term a b c s = Cert.Spec.term a' b' c s' := by subst h1 h2 h3; rfl

theorem score_congr {l l' : Fin 2048 → EReal} {q q' : Fin 300 → EReal} {wa wa' : Fin 2048 → Fin 512 → EReal}
    {wb wb' : Fin 300 → Fin 512 → EReal} {b1 b1' w2 w2' : Fin 512 → EReal} {b2 b2' : EReal}
    (h1 : l = l') (h2 : q = q') (h3 : wa = wa') (h4 : wb = wb') (h5 : b1 = b1') (h6 : w2 = w2') (h7 : b2 = b2') :
    Cert.Spec.score l q wa wb b1 w2 b2 = Cert.Spec.score l' q' wa' wb' b1' w2' b2' := by
  subst h1 h2 h3 h4 h5 h6 h7; rfl

/-- The tile's partial loss over the arrays the region finds: span `256·tile + r` of the point's batch row. -/
theorem part_eq (c : Dev nD) (t : Fin cfg0.N) :
    part m c t = ∑ y : S1x256x16.Idx, termAt m c (rowOf t) (spanOf (tileOf t) (y 1)) (y 2) := by
  unfold part partOf
  refine Finset.sum_congr rfl fun y _ => ?_
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  have e3 : B3 m c t y = V m c main_v4 (ix3 (rowOf t) (spanOf (tileOf t) (y 1)) (y 2)) :=
    (congrArg (B3 m c t) hy).trans (tgt_read m c t (y 1) (y 2))
  exact term_congr (y 2) (len_read m c t (y 1)) e3
    (score_congr (funext fun d => lin_read m c t (y 1) d) (funext fun e => cand_read m c t (y 1) (y 2) e)
      (funext fun d => funext fun h => wa_read m c t d h) (funext fun e => funext fun h => wb_read m c t e h)
      (funext fun h => b1_read m c t h) (funext fun h => w2_read m c t h) (b2_read m c t))

/-- The batch row's cell after grid point `n` (0 beyond the grid). -/
def cellN (c : Dev nD) (n : ℕ) : EReal := if h : n < cfg0.N then outsAt0 m c n h (ix3 0 0 0) else 0

/-- The partial loss of the tile at grid point `n` (0 beyond the grid). -/
def partN (c : Dev nD) (n : ℕ) : EReal := if h : n < cfg0.N then part m c ⟨n, h⟩ else 0

theorem cellN_eq (c : Dev nD) (n : ℕ) (h : n < cfg0.N) : cellN m c n = outsAt0 m c n h (ix3 0 0 0) := dif_pos h
theorem partN_eq (c : Dev nD) (n : ℕ) (h : n < cfg0.N) : partN m c n = part m c ⟨n, h⟩ := dif_pos h

/-- At a row's first tile the cell restarts: it ends at 0 plus the tile's partial loss. -/
theorem cell_open (c : Dev nD) (n : ℕ) (hn : n < cfg0.N) (h0 : n % 8 = 0) : cellN m c n = 0 + partN m c n := by
  rw [cellN_eq m c n hn, partN_eq m c n hn]
  rw [outsAt0_A m c ⟨n, hn⟩ h0, Cert.KernelIdeal.Cell.cell_first]
  refine (update_of (B0 m c ⟨n, hn⟩) (B1 m c ⟨n, hn⟩) (B2 m c ⟨n, hn⟩) (B3 m c ⟨n, hn⟩) (B4 m c ⟨n, hn⟩) (B5 m c ⟨n, hn⟩)
    (B6 m c ⟨n, hn⟩) (B7 m c ⟨n, hn⟩) (B8 m c ⟨n, hn⟩) (k0_pay2 (F := Ideal)) (ix3 0 0 0)).trans ?_
  rw [Cert.KernelIdeal.Pay.zero_apply]
  rfl

/-- At every other tile the cell adds the tile's partial loss to what the tile before left. -/
theorem cell_step (c : Dev nD) (n : ℕ) (hn : n + 1 < cfg0.N) (h : ¬(n + 1) % 8 = 0) :
    cellN m c (n + 1) = cellN m c n + partN m c (n + 1) := by
  rw [cellN_eq m c (n + 1) hn, partN_eq m c (n + 1) hn, cellN_eq m c n (Nat.lt_of_succ_lt hn)]
  rw [outsAt0_B m c ⟨n + 1, hn⟩ h, Cert.KernelIdeal.Cell.cell_next]
  exact update_of (B0 m c ⟨n + 1, hn⟩) (B1 m c ⟨n + 1, hn⟩) (B2 m c ⟨n + 1, hn⟩) (B3 m c ⟨n + 1, hn⟩) (B4 m c ⟨n + 1, hn⟩)
    (B5 m c ⟨n + 1, hn⟩) (B6 m c ⟨n + 1, hn⟩) (B7 m c ⟨n + 1, hn⟩) (B8 m c ⟨n + 1, hn⟩) _ (ix3 0 0 0)

/-- After a row's last tile the cell holds the sum of the row's eight partial losses. -/
theorem cell_row (c : Dev nD) (b : Fin 2) : cellN m c (8 * b.val + 7) = ∑ kt : Fin 8, partN m c (8 * b.val + kt.val) :=
  group_sum cfg0.N (partN m c) (cellN m c) (cell_open m c) (cell_step m c) b.val
    (by rw [show cfg0.N = 16 from N_0]; have := b.isLt; omega)

/-- The result array after the run: entry b is row b's cell after its last tile. -/
def outA (c : Dev nD) : Buf (Elt Ideal) ((c.tc : Thread nD τ).loc main_v22) := fun i => cellN m c (8 * (i 0).val + 7)

theorem idx111 (y : S1x1x1.Idx) : y = ix3 0 0 0 := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => exact Fin.ext (by have h : (y 2).val < 1 := (y 2).isLt; show (y 2).val = 0; omega)

/-- What a row's last tile writes back is the row's entry of `outA`. -/
theorem flushed_eq (c : Dev nD) (t : Fin cfg0.N) (hf : (cfg0.win 9).flush t = true) :
    (dats m 0 c).flushed 9 t = ((cfg0.win 9).blk t).view.read (Elt Ideal) (outA m c) := by
  have h7 : t.val % 8 = 7 := (flush0_9 t).mp hf
  obtain ⟨-, -, -, -, -, -, -, -, -, ⟨e0, e1, e2⟩⟩ := idx_facts t
  show (cfg0.win 9).cut (grid0.coords t) ((dats m 0 c).after 9 t) = _
  rw [after0_9]
  funext y
  rw [View.read_apply]
  show outsAt0 m c t.val t.isLt y = cellN m c (8 * ((((cfg0.win 9).blk t).view.emb y) 0).val + 7)
  have hv : ((((cfg0.win 9).blk t).view.emb y) 0).val = t.val / 8 := by
    show win0_9.index t (0 : Fin 3) * 1 + 1 * (y 0).val = t.val / 8
    have h : (y 0).val < 1 := (y 0).isLt
    omega
  rw [hv, show 8 * (t.val / 8) + 7 = t.val by omega, cellN_eq m c t.val t.isLt, idx111 y]

/-- The result array ends at `outA`: each of its two entries is in the block its row's last tile writes back. -/
theorem final_out (c : Dev nD) : (dats m 0 c).arrAt 9 cfg0.N = outA m c :=
  (dats m 0 c).arrAt_eq_of_cover 9 (outA m c) (flushed_eq m c) fun i => by
    have hi0 : (i 0).val < 2 := (i 0).isLt
    have hi1 : (i 1).val < 1 := (i 1).isLt
    have hi2 : (i 2).val < 1 := (i 2).isLt
    have hN : 8 * (i 0).val + 7 < cfg0.N := by rw [show cfg0.N = 16 from N_0]; omega
    refine ⟨⟨8 * (i 0).val + 7, hN⟩, (flush0_9 _).mpr (by show (8 * (i 0).val + 7) % 8 = 7; omega), ?_⟩
    obtain ⟨-, -, -, -, -, -, -, -, -, ⟨e0, e1, e2⟩⟩ := idx_facts ⟨8 * (i 0).val + 7, hN⟩
    show i ∈ ((View.whole main_v22).slice (win0_9.rect ⟨8 * (i 0).val + 7, hN⟩)).set
    rw [View.set_slice_whole, Rect.mem_set_unit]
    intro a
    match a with
    | ⟨0, _⟩ =>
      show win0_9.index ⟨8 * (i 0).val + 7, hN⟩ (0 : Fin 3) * 1 ≤ (i 0).val ∧ (i 0).val < win0_9.index ⟨8 * (i 0).val + 7, hN⟩ (0 : Fin 3) * 1 + 1
      have : win0_9.index ⟨8 * (i 0).val + 7, hN⟩ (0 : Fin 3) = (8 * (i 0).val + 7) / 8 := e0
      omega
    | ⟨1, _⟩ =>
      show win0_9.index ⟨8 * (i 0).val + 7, hN⟩ (1 : Fin 3) * 1 ≤ (i 1).val ∧ (i 1).val < win0_9.index ⟨8 * (i 0).val + 7, hN⟩ (1 : Fin 3) * 1 + 1
      omega
    | ⟨2, _⟩ =>
      show win0_9.index ⟨8 * (i 0).val + 7, hN⟩ (2 : Fin 3) * 1 ≤ (i 2).val ∧ (i 2).val < win0_9.index ⟨8 * (i 0).val + 7, hN⟩ (2 : Fin 3) * 1 + 1
      omega

/-- The value @main returns: the two rows' sums added from 0, times the constant 1. -/
def lossK (c : Dev nD) : Buf (Elt Ideal) ((c.tc : Thread nD τ).loc main_v25) := fun _ =>
  (0 + ∑ b : Fin 2, ∑ kt : Fin 8, partN m c (8 * b.val + kt.val)) * Ideal.ofBits .f32 0x3F800000#32

/-- A [2,1,1] array reshaped to [2]: entry b is entry (b, 0, 0). -/
theorem flat_of (x : S2x1x1.Idx → EReal) (b : Fin 2) :
    shapeCast S2 x shapeCasts_S2x1x1_S2 (ix1 b) = x (ix3 b (0 : Fin 1) (0 : Fin 1)) := by
  refine shapeCast_apply x shapeCasts_S2x1x1_S2 (ix1 b) (ix3 b (0 : Fin 1) (0 : Fin 1)) ?_
  rw [Shape.rowMajor_val_three, Shape.rowMajor_val_one]
  show (b.val * 1 + 0) * 1 + 0 = b.val
  omega

theorem flat_apply (c : Dev nD) (b : Fin 2) :
    shapeCast S2 (outA m c) shapeCasts_S2x1x1_S2 (ix1 b) = cellN m c (8 * b.val + 7) :=
  (flat_of (outA m c) b).trans rfl

/-- The host lines after the region: the [2,1,1] array reshaped to [2], summed from 0, times 1. -/
theorem tail_eq (c : Dev nD) :
    Pipeline.afterTail₀ cfgs (dats m) 0 (V0 m) [hostOps1] c main_v25 = lossK m c := by
  unfold Pipeline.afterTail₀
  show StableHlo.after hostOps1 _ (Proc.devRef .tc main_v25) = _
  after_results
  rw [(Pipeline.withArrays_arr spec0 launch0.win.arr_inj c _ _ 9).trans (final_out m c)]
  funext j
  refine (mulf_apply _ _ j).trans ?_
  rw [constant_apply]
  unfold lossK
  refine congrArg (· * Ideal.ofBits .f32 0x3F800000#32) ?_
  simp only [Host.reduceAdd, Ideal.hostReduceAdd_def]
  rw [Ideal.hostReduceAdd_total reducesTo_S2_S_d0 (fun b => b.elim0), constant_apply, Ideal.ofBits_zero_f32]
  refine congrArg (0 + ·) ?_
  rw [← Equiv.sum_comp (idxEquiv1 (n := 2)).symm]
  refine Finset.sum_congr rfl fun b _ => ?_
  exact (flat_apply m c b).trans (cell_row m c b)

/-- THE KERNEL'S RUN, READ: every weakly fair execution of the kernel's @main terminates with the result at `lossK`
    and the ten arguments unchanged. -/
theorem run : θ_run defs (onTc (τ := τ) (main (F := Ideal))) ⟨m, fun _ => 0, ρ⟩ fun r => ∀ c : Dev nD,
      r.2.mem ((c.tc : Thread nD τ).loc main_v25) = lossK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  exact (θ_run defs _ _).mono (fun _ h c => ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c))),
      ((h c).2 main_arg5 (Pipeline.mem_restRefs_of main_arg5 (by decide) (by decide))).trans (W_main_arg5 m (dats m) c),
      ((h c).1 8).trans (((dats m 0 c).arrAt_in 8 rfl _).trans ((A_eq m c 8).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Loss

end
-- ==== Proof.Bridge.lean ====
/-
  The arrays the kernel's region finds, in the reference's own words.

  Both programs prepare their data with the same host lines: four gathers along the span axis by one index array
  (candidate ids, candidate counts, targets, span vectors), each index wrapped once when negative and each result
  filled where the index falls outside the axis, and one gather of embedding rows by the gathered candidate ids.
  The kernel's host prefix then only changes float formats (the identity on the extended reals), slices the first
  layer's weight matrix into its upper 2048 and lower 300 rows, and drops the unit axis of the second layer's weights.
  So each array the region finds is a stage of the reference's program, read at the same arguments.
-/
import proofs.«414483_j24790551232622_3_alg».proof.Proof.Gen.KernelIdeal.Frame
import proofs.«414483_j24790551232622_3_alg».proof.Proof.RefRead
import proofs.«414483_j24790551232622_3_alg».proof.Proof.SumLaws
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.Bridge

open Cert.KernelIdeal Cert.KernelIdeal.Gen Cert.SumLaws

variable (m : (ℓ : Loc nD τ sig) → Buf (Elt Ideal) ℓ)

/-- Opens the contents of one array of the host prefix as the operations' composed term of the arguments. -/
local macro "open_prefix" : tactic =>
  `(tactic| (dsimp only [V, V0]
             simp only [hostOps0, hostOps0_1, hostOps0_2, hostOps0_3, hostOps0_4, hostOps0_5, hostOps0_6, hostOps0_7,
               List.flatten_cons, List.flatten_nil, List.append_nil, List.cons_append, List.nil_append]
             after_results_simp))

/-- The span vectors the region finds are the reference's gathered span vectors. -/
theorem lin_host (c : Dev nD) (i : S2x2048x2048.Idx) :
    V m c main_v7 i = Cert.ReferenceIdeal.ReadP.val_main_v6 (F := Ideal) (m ((c.tc : Thread nD τ).loc main_arg0)) (m ((c.tc : Thread nD τ).loc main_arg7)) i := by
  have e : V m c main_v7 = fun i => Cert.ReferenceIdeal.ReadP.val_main_v6 (F := Ideal) (m ((c.tc : Thread nD τ).loc main_arg0)) (m ((c.tc : Thread nD τ).loc main_arg7)) i := by
    open_prefix
    rfl
  exact congrFun e i

/-- The candidate embeddings the region finds are the reference's gathered embeddings. -/
theorem cand_host (c : Dev nD) (i : S2x2048x16x300.Idx) :
    V m c main_v15 i = Cert.ReferenceIdeal.ReadP.val_main_v13 (F := Ideal) (m ((c.tc : Thread nD τ).loc main_arg2)) (m ((c.tc : Thread nD τ).loc main_arg7)) (m ((c.tc : Thread nD τ).loc main_arg8)) i := by
  have e : V m c main_v15 = fun i => Cert.ReferenceIdeal.ReadP.val_main_v13 (F := Ideal) (m ((c.tc : Thread nD τ).loc main_arg2)) (m ((c.tc : Thread nD τ).loc main_arg7)) (m ((c.tc : Thread nD τ).loc main_arg8)) i := by
    open_prefix
    rfl
  exact congrFun e i

/-- The targets the region finds are the reference's gathered targets. -/
theorem tgt_host (c : Dev nD) (i : S2x2048x16.Idx) :
    V m c main_v4 i = Cert.ReferenceIdeal.ReadP.val_main_v4 (F := Ideal) (m ((c.tc : Thread nD τ).loc main_arg1)) (m ((c.tc : Thread nD τ).loc main_arg7)) i := by
  have e : V m c main_v4 = fun i => Cert.ReferenceIdeal.ReadP.val_main_v4 (F := Ideal) (m ((c.tc : Thread nD τ).loc main_arg1)) (m ((c.tc : Thread nD τ).loc main_arg7)) i := by
    open_prefix
    rfl
  exact congrFun e i

/-- The candidate counts the region finds, with their unit axis, are the reference's gathered counts. -/
theorem len_host (c : Dev nD) (b : Fin 2) (k : Fin 2048) :
    V m c main_v21 (ix3 b k 0) = Cert.ReferenceIdeal.ReadP.val_main_v2 (F := Ideal) (m ((c.tc : Thread nD τ).loc main_arg7)) (m ((c.tc : Thread nD τ).loc main_arg9)) (ix2 b k) := by
  have e : V m c main_v21 = fun i => Cert.ReferenceIdeal.ReadP.val_main_v28 (F := Ideal) (m ((c.tc : Thread nD τ).loc main_arg7)) (m ((c.tc : Thread nD τ).loc main_arg9)) i := by
    open_prefix
    rfl
  rw [congrFun e (ix3 b k 0), Cert.ReferenceIdeal.ReadP.val_main_v28_apply]
  congr 1
  funext a
  match a with
  | ⟨0, _⟩ => rfl
  | ⟨1, _⟩ => rfl

/-- The upper 2048 rows of the first layer's weight matrix. -/
theorem wa_host (c : Dev nD) (d : Fin 2048) (h : Fin 512) :
    V m c main_v17 (ix2 d h) = m ((c.tc : Thread nD τ).loc main_arg3) (ix2 (rowA d) h) := by
  have e : V m c main_v17 = fun i => extractStridedSlice S2048x512 ![0, 0] (m ((c.tc : Thread nD τ).loc main_arg3)) slices_S2348x512_S2048x512_0_0 i := by
    open_prefix
    rfl
  rw [congrFun e (ix2 d h)]
  show extractStridedSlice S2048x512 ![0, 0] (m ((c.tc : Thread nD τ).loc main_arg3)) slices_S2348x512_S2048x512_0_0 (ix2 d h) = _
  unfold extractStridedSlice
  congr 1
  funext a
  apply Fin.ext
  match a with
  | ⟨0, _⟩ => show 0 + d.val = d.val; omega
  | ⟨1, _⟩ => show 0 + h.val = h.val; omega

/-- The lower 300 rows of the first layer's weight matrix. -/
theorem wb_host (c : Dev nD) (e' : Fin 300) (h : Fin 512) :
    V m c main_v19 (ix2 e' h) = m ((c.tc : Thread nD τ).loc main_arg3) (ix2 (rowB e') h) := by
  have e : V m c main_v19 = fun i => extractStridedSlice S300x512 ![2048, 0] (m ((c.tc : Thread nD τ).loc main_arg3)) slices_S2348x512_S300x512_2048_0 i := by
    open_prefix
    rfl
  rw [congrFun e (ix2 e' h)]
  show extractStridedSlice S300x512 ![2048, 0] (m ((c.tc : Thread nD τ).loc main_arg3)) slices_S2348x512_S300x512_2048_0 (ix2 e' h) = _
  unfold extractStridedSlice
  congr 1
  funext a
  apply Fin.ext
  match a with
  | ⟨0, _⟩ => show 2048 + e'.val = 2048 + e'.val; rfl
  | ⟨1, _⟩ => show 0 + h.val = h.val; omega

/-- The second layer's weights without their unit axis. -/
theorem w2_host (c : Dev nD) (h : Fin 512) :
    V m c main_v20 (ix1 h) = m ((c.tc : Thread nD τ).loc main_arg5) (ix2 h 0) := by
  have e : V m c main_v20 = shapeCast S512 (m ((c.tc : Thread nD τ).loc main_arg5)) shapeCasts_S512x1_S512 := by
    open_prefix
    rfl
  rw [congrFun e (ix1 h)]
  refine shapeCast_apply _ shapeCasts_S512x1_S512 (ix1 h) (ix2 h (0 : Fin 1)) ?_
  rw [Shape.rowMajor_val_two, Shape.rowMajor_val_one]
  show h.val * 1 + 0 = h.val
  omega

end Cert.Bridge

end
-- ==== Proof.RefTotal.lean ====
/-
  The reference's result, read at the extended reals, is the specification's total.

  The reference gathers, per batch row b and selected span k, the span's vector (2048 numbers), its candidate count,
  and per candidate slot c the target and the candidate's embedding (300 numbers).  It lays the span vector and the
  embedding end to end (2348 numbers), multiplies by one weight matrix, adds a bias and clips below at 0; a second
  product with one column and a bias gives the logit; the loss term is mask · (softplus(logit) − logit · target),
  and the result is the sum of all terms from 0, times 1.

  Read index by index: the product with the 2348-row matrix splits at row 2048 into the span part and the
  embedding part, which is the specification's hidden unit; the x ≠ x test of the softplus is never true on the
  extended reals, and x − 0 = x; the mask's bit is 0 or 1, converted to the number 0 or 1.
-/
import proofs.«414483_j24790551232622_3_alg».proof.Proof.RefRead
import proofs.«414483_j24790551232622_3_alg».proof.Proof.Spec
import proofs.«414483_j24790551232622_3_alg».proof.Proof.SumLaws
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.StableHlo
open Cert.SumLaws (rowA rowB sum_rows)

variable (x0 : (⟨S2x4096x2048, .f32⟩ : BufTy).Contents (Elt Ideal)) (x1 : (⟨S2x4096x16, .f32⟩ : BufTy).Contents (Elt Ideal)) (x2 : (⟨S100000x300, .f32⟩ : BufTy).Contents (Elt Ideal)) (x3 : (⟨S2348x512, .f32⟩ : BufTy).Contents (Elt Ideal)) (x4 : (⟨S512, .f32⟩ : BufTy).Contents (Elt Ideal)) (x5 : (⟨S512x1, .f32⟩ : BufTy).Contents (Elt Ideal)) (x6 : (⟨S1, .f32⟩ : BufTy).Contents (Elt Ideal)) (x7 : (⟨S2x2048, .i32⟩ : BufTy).Contents (Elt Ideal)) (x8 : (⟨S2x4096x16, .i32⟩ : BufTy).Contents (Elt Ideal)) (x9 : (⟨S2x4096, .i32⟩ : BufTy).Contents (Elt Ideal))

/-! ## The joined vector at an index -/

/-- Below position 2048 the joined vector is the span vector (the same for every slot). -/
theorem cat_span (b : Fin 2) (k : Fin 2048) (c : Fin 16) (d : Fin 2048) :
    ReadP.val_main_v16 (F := Ideal) x0 x2 x7 x8 (ix4 b k c (rowA d)) = ReadP.val_main_v6 (F := Ideal) x0 x7 (ix3 b k d) := by
  unfold ReadP.val_main_v16
  rw [concatenate_pair_apply_left (t := S2x2048x16x2348) (s₁ := S2x2048x16x2048) (s₂ := S2x2048x16x300) 3 _ _ _ (ix4 b k c (rowA d)) rfl (ix4 b k c d) (fun a => by
    match a with
    | ⟨0, _⟩ => rfl
    | ⟨1, _⟩ => rfl
    | ⟨2, _⟩ => rfl
    | ⟨3, _⟩ => rfl)]
  rw [ReadP.val_main_v15_apply, ReadP.val_main_v14_apply]
  congr 1
  funext a
  match a with
  | ⟨0, _⟩ => rfl
  | ⟨1, _⟩ => rfl
  | ⟨2, _⟩ => rfl

/-- From position 2048 on it is the candidate's embedding, 2048 places earlier. -/
theorem cat_emb (b : Fin 2) (k : Fin 2048) (c : Fin 16) (e : Fin 300) :
    ReadP.val_main_v16 (F := Ideal) x0 x2 x7 x8 (ix4 b k c (rowB e)) = ReadP.val_main_v13 (F := Ideal) x2 x7 x8 (ix4 b k c e) := by
  unfold ReadP.val_main_v16
  exact concatenate_pair_apply_right (t := S2x2048x16x2348) (s₁ := S2x2048x16x2048) (s₂ := S2x2048x16x300) 3 _ _ _ (ix4 b k c (rowB e)) rfl rfl (ix4 b k c e)
    (fun a ha => by
      match a with
      | ⟨0, _⟩ => rfl
      | ⟨1, _⟩ => rfl
      | ⟨2, _⟩ => rfl
      | ⟨3, _⟩ => exact absurd rfl ha)
    (by show e.val + 2048 = 2048 + e.val; omega)

/-! ## The first layer -/

/-- Hidden unit `h` for slot `c` of span `k` in batch row `b`: the 2348-term product cut at row 2048. -/
theorem hidden_at (b : Fin 2) (k : Fin 2048) (c : Fin 16) (h : Fin 512) :
    ReadP.val_main_v21 (F := Ideal) x0 x2 x3 x4 x7 x8 (ix4 b k c h)
      = Cert.Spec.hidden (fun d => ReadP.val_main_v6 (F := Ideal) x0 x7 (ix3 b k d)) (fun e => ReadP.val_main_v13 (F := Ideal) x2 x7 x8 (ix4 b k c e))
          (fun d h => x3 (ix2 (rowA d) h)) (fun e h => x3 (ix2 (rowB e) h)) (fun h => x4 (ix1 h)) h := by
  have el : ∀ j : Fin 2348, ReadP.lidx_main_v17 (ix4 b k c h) j = ix4 b k c j := fun j => funext fun a => by
    match a with
    | ⟨0, _⟩ => rfl
    | ⟨1, _⟩ => rfl
    | ⟨2, _⟩ => rfl
    | ⟨3, _⟩ => rfl
  have er : ∀ j : Fin 2348, ReadP.ridx_main_v17 (ix4 b k c h) j = ix2 j h := fun j => funext fun a => by
    match a with
    | ⟨0, _⟩ => rfl
    | ⟨1, _⟩ => rfl
  have eb : ReadP.idx_main_v18 (ReadP.idx_main_v19 (ix4 b k c h)) = ix1 h := funext fun a => by
    match a with
    | ⟨0, _⟩ => rfl
  rw [ReadP.val_main_v21_apply, ReadP.val_main_v20_apply, ReadP.val_main_v17_apply, ReadP.val_main_v19_apply,
    ReadP.val_main_v18_apply, ReadP.val_main_call4_v0_apply, ReadP.val_main_call4_cst_apply, sum_rows]
  simp only [el, er, eb, cat_span, cat_emb, Ideal.maximumf_def, Ideal.addf_def, Ideal.ofBits_def, Ideal.ofBits_zero_f32]
  rfl

/-! ## The second layer -/

/-- The logit of slot `c` of span `k` in batch row `b`. -/
theorem score_at (b : Fin 2) (k : Fin 2048) (c : Fin 16) :
    ReadP.val_main_v26 (F := Ideal) x0 x2 x3 x4 x5 x6 x7 x8 (ix3 b k c)
      = Cert.Spec.score (fun d => ReadP.val_main_v6 (F := Ideal) x0 x7 (ix3 b k d)) (fun e => ReadP.val_main_v13 (F := Ideal) x2 x7 x8 (ix4 b k c e))
          (fun d h => x3 (ix2 (rowA d) h)) (fun e h => x3 (ix2 (rowB e) h)) (fun h => x4 (ix1 h)) (fun h => x5 (ix2 h 0)) (x6 (ix1 0)) := by
  have e26 : ReadP.idx_main_v26 (ix3 b k c) = ix4 b k c (0 : Fin 1) := funext fun a => by
    have hb := b.isLt; have hk := k.isLt; have hc := c.isLt
    match a with
    | ⟨0, _⟩ => exact Fin.ext (by show ((b.val * 2048 + k.val) * 16 + c.val) / 32768 = b.val; omega)
    | ⟨1, _⟩ => exact Fin.ext (by show ((b.val * 2048 + k.val) * 16 + c.val) / 16 % 2048 = k.val; omega)
    | ⟨2, _⟩ => exact Fin.ext (by show ((b.val * 2048 + k.val) * 16 + c.val) / 1 % 16 = c.val; omega)
    | ⟨3, _⟩ => rfl
  have el : ∀ h : Fin 512, ReadP.lidx_main_v22 (ix4 b k c (0 : Fin 1)) h = ix4 b k c h := fun h => funext fun a => by
    match a with
    | ⟨0, _⟩ => rfl
    | ⟨1, _⟩ => rfl
    | ⟨2, _⟩ => rfl
    | ⟨3, _⟩ => rfl
  have er : ∀ h : Fin 512, ReadP.ridx_main_v22 (ix4 b k c (0 : Fin 1)) h = ix2 h (0 : Fin 1) := fun h => funext fun a => by
    match a with
    | ⟨0, _⟩ => rfl
    | ⟨1, _⟩ => rfl
  have eb : ReadP.idx_main_v23 (ReadP.idx_main_v24 (ix4 b k c (0 : Fin 1))) = ix1 (0 : Fin 1) := funext fun a => by
    match a with
    | ⟨0, _⟩ => rfl
  rw [ReadP.val_main_v26_apply, e26, ReadP.val_main_v25_apply, ReadP.val_main_v22_apply, ReadP.val_main_v24_apply,
    ReadP.val_main_v23_apply]
  simp only [el, er, eb, hidden_at, Ideal.addf_def]
  rfl

/-! ## The mask -/

/-- The mask of slot `c`: the bit of `c < count`, as the number 0 or 1. -/
theorem mask_at (b : Fin 2) (k : Fin 2048) (c : Fin 16) :
    ReadP.val_main_v33 (F := Ideal) x7 x9 (ix3 b k c) = Cert.Spec.mask c (ReadP.val_main_v2 (F := Ideal) x7 x9 (ix2 b k)) := by
  have e1 : ReadP.idx_main_v28 (ReadP.idx_main_v31 (ix3 b k c)) = ix2 b k := funext fun a => by
    match a with
    | ⟨0, _⟩ => rfl
    | ⟨1, _⟩ => rfl
  rw [ReadP.val_main_v33_apply, ReadP.val_main_v32_apply, ReadP.val_main_v30_apply, ReadP.val_main_v29_apply,
    ReadP.val_main_v27_apply, ReadP.val_main_v31_apply, ReadP.val_main_v28_apply, e1]
  unfold Cert.Spec.mask
  show FloatOps.uitofp (F := Ideal) .f32
    (IntOp.cmpi .slt (BitVec.ofNat 32 c.val) (ReadP.val_main_v2 (F := Ideal) x7 x9 (ix2 b k))) = _
  rcases BitVec.eq_zero_or_eq_one
    (IntOp.cmpi .slt (BitVec.ofNat 32 c.val) (ReadP.val_main_v2 (F := Ideal) x7 x9 (ix2 b k))) with h | h
  · rw [h, if_neg (by decide)]
    show (((0#1).toNat : ℝ) : EReal) = 0
    simp
  · rw [h, if_pos rfl]
    show (((1#1).toNat : ℝ) : EReal) = 1
    simp

/-! ## The softplus -/

/-- The softplus stage: its `x ≠ x` branch is never taken on the extended reals, and `x − 0 = x`. -/
theorem softplus_at (b : Fin 2) (k : Fin 2048) (c : Fin 16) :
    ReadP.val_main_v34 (F := Ideal) x0 x2 x3 x4 x5 x6 x7 x8 (ix3 b k c)
      = Cert.Spec.softplus (ReadP.val_main_v26 (F := Ideal) x0 x2 x3 x4 x5 x6 x7 x8 (ix3 b k c)) := by
  simp only [ReadP.val_main_v34_apply, ReadP.val_main_call5_v4_apply, ReadP.val_main_call5_v6_apply,
    ReadP.val_main_call5_v11_apply, ReadP.val_main_call5_v1_apply, ReadP.val_main_call5_v10_apply,
    ReadP.val_main_call5_v9_apply, ReadP.val_main_call5_v8_apply, ReadP.val_main_call5_v7_apply,
    ReadP.val_main_call5_v3_apply, ReadP.val_main_call5_v0_apply, ReadP.val_main_call5_v2_apply,
    ReadP.val_main_call5_v5_apply, ReadP.val_main_call5_cst_apply]
  generalize ReadP.val_main_v26 (F := Ideal) x0 x2 x3 x4 x5 x6 x7 x8 (ix3 b k c) = s
  simp only [Ideal.ofBits_def, Ideal.ofBits_zero_f32, Ideal.subf_def, Ideal.addf_def, Ideal.maximumf_def,
    Ideal.hostUnary_exp_def, Ideal.hostUnary_log1p_def, Ideal.hostNegf_def, Ideal.hostAbsf_def, Ideal.negf_def,
    Ideal.absf_def, Ideal.cmpf_def, sub_zero]
  have hne : Ideal.cmp .une s s = 0#1 := by simp [Ideal.cmp]
  rw [hne]
  rfl

/-! ## One term, and the total -/

/-- The reference's summand at (b, k, c) is the specification's term. -/
theorem term_at (b : Fin 2) (k : Fin 2048) (c : Fin 16) :
    ReadP.val_main_v37 (F := Ideal) x0 x1 x2 x3 x4 x5 x6 x7 x8 x9 (ix3 b k c)
      = Cert.Spec.term (ReadP.val_main_v2 (F := Ideal) x7 x9 (ix2 b k)) (ReadP.val_main_v4 (F := Ideal) x1 x7 (ix3 b k c)) c
          (Cert.Spec.score (fun d => ReadP.val_main_v6 (F := Ideal) x0 x7 (ix3 b k d)) (fun e => ReadP.val_main_v13 (F := Ideal) x2 x7 x8 (ix4 b k c e))
          (fun d h => x3 (ix2 (rowA d) h)) (fun e h => x3 (ix2 (rowB e) h)) (fun h => x4 (ix1 h)) (fun h => x5 (ix2 h 0)) (x6 (ix1 0))) := by
  rw [ReadP.val_main_v37_apply, ReadP.val_main_v36_apply, ReadP.val_main_v35_apply, mask_at, softplus_at, score_at]
  rfl

/-- The reference's result is `0` plus the sum of the specification's terms, times the constant `1.0`. -/
theorem ref_total :
    ReadP.val_main_v39 (F := Ideal) x0 x1 x2 x3 x4 x5 x6 x7 x8 x9 = fun _ =>
      (0 + ∑ i : S2x2048x16.Idx, Cert.Spec.term (ReadP.val_main_v2 (F := Ideal) x7 x9 (ix2 (i 0) (i 1))) (ReadP.val_main_v4 (F := Ideal) x1 x7 i) (i 2)
        (Cert.Spec.score (fun d => ReadP.val_main_v6 (F := Ideal) x0 x7 (ix3 (i 0) (i 1) d)) (fun e => ReadP.val_main_v13 (F := Ideal) x2 x7 x8 (ix4 (i 0) (i 1) (i 2) e))
          (fun d h => x3 (ix2 (rowA d) h)) (fun e h => x3 (ix2 (rowB e) h)) (fun h => x4 (ix1 h)) (fun h => x5 (ix2 h 0)) (x6 (ix1 0))))
      * Ideal.ofBits .f32 0x3F800000#32 := by
  funext j
  rw [ReadP.val_main_v39_apply, ReadP.val_main_v38_apply, ReadP.val_main_cst_apply, ReadP.val_main_cst_1_apply]
  simp only [Ideal.mulf_def, Ideal.ofBits_def, Ideal.ofBits_zero_f32]
  refine congrArg (fun t => (0 + t) * Ideal.ofBits .f32 0x3F800000#32) (Finset.sum_congr rfl fun i _ => ?_)
  obtain ⟨b, k, c, rfl⟩ : ∃ (b : Fin 2) (k : Fin 2048) (c : Fin 16), i = ix3 b k c := ⟨i 0, i 1, i 2, eq_ix3 i⟩
  exact term_at x0 x1 x2 x3 x4 x5 x6 x7 x8 x9 b k c

end Cert.ReferenceIdeal.RefValue

end
-- ==== Proof.Equal.lean ====
/-
  The two results are one number.

  The kernel returns (0 + Σ over batch rows b, tiles kt of the tile's partial loss) · 1, the partial loss of tile (b, kt)
  being the sum of the masked cross-entropy terms of its 256 spans and 16 slots; the reference returns
  (0 + Σ over every (b, k, s) of the same term) · 1.  The arrays agree entry by entry (`Cert.Bridge`), and the index set
  [2, 2048, 16] is the disjoint union of the sixteen tiles (`Cert.SumLaws.sum_tiles`): only the grouping of one finite sum
  of extended reals differs.
-/
import proofs.«414483_j24790551232622_3_alg».proof.Proof.Loss
import proofs.«414483_j24790551232622_3_alg».proof.Proof.Bridge
import proofs.«414483_j24790551232622_3_alg».proof.Proof.RefTotal

noncomputable section

open Idealize.ShloMosaic Idealize.ShloMosaic.TcCoe Idealize.SL.Sem Idealize.ShloMosaic.ValueIdx

namespace Cert.Equal

open Cert.KernelIdeal Cert.KernelIdeal.Gen Cert.SumLaws Cert.KernelIdeal.Tiles Cert.KernelIdeal.Loss

variable (m : (ℓ : Loc nD τ sig) → Buf (Elt Ideal) ℓ)

/-- A candidate's term over the arrays the region finds is its term over the reference's stages. -/
theorem term_eq (c : Dev nD) (b : Fin 2) (k : Fin 2048) (s : Fin 16) :
    termAt m c b k s
      = Cert.Spec.term (Cert.ReferenceIdeal.ReadP.val_main_v2 (F := Ideal) (m ((c.tc : Thread nD τ).loc main_arg7)) (m ((c.tc : Thread nD τ).loc main_arg9)) (ix2 b k))
          (Cert.ReferenceIdeal.ReadP.val_main_v4 (F := Ideal) (m ((c.tc : Thread nD τ).loc main_arg1)) (m ((c.tc : Thread nD τ).loc main_arg7)) (ix3 b k s)) s
          (Cert.Spec.score
            (fun d => Cert.ReferenceIdeal.ReadP.val_main_v6 (F := Ideal) (m ((c.tc : Thread nD τ).loc main_arg0)) (m ((c.tc : Thread nD τ).loc main_arg7)) (ix3 b k d))
            (fun e => Cert.ReferenceIdeal.ReadP.val_main_v13 (F := Ideal) (m ((c.tc : Thread nD τ).loc main_arg2)) (m ((c.tc : Thread nD τ).loc main_arg7)) (m ((c.tc : Thread nD τ).loc main_arg8)) (ix4 b k s e))
            (fun d h => m ((c.tc : Thread nD τ).loc main_arg3) (ix2 (rowA d) h))
            (fun e h => m ((c.tc : Thread nD τ).loc main_arg3) (ix2 (rowB e) h))
            (fun h => m ((c.tc : Thread nD τ).loc main_arg4) (ix1 h))
            (fun h => m ((c.tc : Thread nD τ).loc main_arg5) (ix2 h 0))
            (m ((c.tc : Thread nD τ).loc main_arg6) (ix1 0))) := by
  unfold termAt
  exact term_congr s (Cert.Bridge.len_host m c b k) (Cert.Bridge.tgt_host m c (ix3 b k s))
    (score_congr (funext fun d => Cert.Bridge.lin_host m c (ix3 b k d)) (funext fun e => Cert.Bridge.cand_host m c (ix4 b k s e))
      (funext fun d => funext fun h => Cert.Bridge.wa_host m c d h) (funext fun e => funext fun h => Cert.Bridge.wb_host m c e h)
      (funext fun h => congrFun (V_main_arg4 m c) (ix1 h)) (funext fun h => Cert.Bridge.w2_host m c h)
      (congrFun (V_main_arg6 m c) (ix1 0)))

/-- The kernel's result is the reference's last stage at the same arguments. -/
theorem loss_eq (c : Dev nD) :
    lossK m c = Cert.ReferenceIdeal.ReadP.val_main_v39 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  refine Eq.trans ?_ (Cert.ReferenceIdeal.RefValue.ref_total _ _ _ _ _ _ _ _ _ _).symm
  funext j
  unfold lossK
  refine congrArg (· * Ideal.ofBits .f32 0x3F800000#32) (congrArg (0 + ·) ?_)
  refine Eq.trans ?_ (sum_tiles _).symm
  refine Finset.sum_congr rfl fun b _ => Finset.sum_congr rfl fun kt _ => ?_
  have hlt : 8 * b.val + kt.val < cfg0.N := by
    rw [show cfg0.N = 16 from N_0]; have := b.isLt; have := kt.isLt; omega
  have hr : rowOf ⟨8 * b.val + kt.val, hlt⟩ = b := Fin.ext (by show (8 * b.val + kt.val) / 8 = b.val; have := kt.isLt; omega)
  have ht : tileOf ⟨8 * b.val + kt.val, hlt⟩ = kt := Fin.ext (by show (8 * b.val + kt.val) % 8 = kt.val; have := kt.isLt; omega)
  rw [partN_eq m c _ hlt, part_eq, hr, ht]
  refine Finset.sum_congr rfl fun y _ => ?_
  exact (term_eq m c b (spanOf kt (y 1)) (y 2)).trans rfl

end Cert.Equal

end
-- ==== Proof.lean ====
/-
  A fused two-layer scorer with a masked binary cross-entropy, against its plain jnp reference, over the extended reals.

  For every batch row b, selected span k and candidate slot s both programs form the logit
      score = Σ_h max( Σ_d span[d]·W1[d,h] + Σ_e emb[e]·W1[2048+e,h] + b1[h], 0 ) · W2[h] + b2
  from the gathered span vector and the gathered candidate embedding, then the term
      mask(s < count) · ( softplus(score) − score · target ),
  and return the sum of the terms over all (b, k, s), times the constant 1.  The reference contracts the concatenated
  vector [span ; emb] against the whole weight matrix and sums every term at once; the kernel contracts the two parts
  against the matrix's two row blocks, walks the spans in tiles of 256, adds each tile's partial sum into one cell per
  batch row, and sums the two cells on the host.  On the extended reals addition is commutative and associative, so
  cutting a finite sum into blocks and regrouping it changes nothing; changes of float format are the identity; the
  not-a-number guard inside softplus compares a value with itself and never fires.  No distributive law is used and
  the finiteness of the inputs is never needed.

  The kernel's per-point arithmetic is read at an index in PayloadIdeal, a grid point's effect on its row's cell in
  Cell, the tiles as entries of the host arrays in Tiles, the running sum over the grid and the host tail in Loss; the
  reference's stages are read in RefTotal; Bridge identifies the host arrays of the two programs and Equal joins the sums.
-/
import proofs.«414483_j24790551232622_3_alg».proof.Defs
import proofs.«414483_j24790551232622_3_alg».proof.Proof.Gen.Kernel
import proofs.«414483_j24790551232622_3_alg».proof.Proof.Gen.Kernel.Frame
import proofs.«414483_j24790551232622_3_alg».proof.Proof.Gen.KernelIdeal
import proofs.«414483_j24790551232622_3_alg».proof.Proof.Gen.KernelIdeal.Frame
import proofs.«414483_j24790551232622_3_alg».proof.Proof.Gen.ReferenceIdeal
import proofs.«414483_j24790551232622_3_alg».proof.Proof.Gen.Pre_finite_inputs
import proofs.«414483_j24790551232622_3_alg».proof.Proof.RefRead
import proofs.«414483_j24790551232622_3_alg».proof.Proof.RefRun
import proofs.«414483_j24790551232622_3_alg».proof.Proof.Loss
import proofs.«414483_j24790551232622_3_alg».proof.Proof.Equal
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From arguments that agree, the kernel's result cell sum and the reference's total are one extended real. -/
theorem algebraic : Cert.algebraic_KernelIdeal_ReferenceIdeal := by
  intro m ρ m' ρ' _ hagree
  refine ⟨fun c => Cert.KernelIdeal.Loss.lossK m c, Cert.KernelIdeal.Loss.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9]
  exact (Cert.Equal.loss_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
